-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S100000x32 : Shape := ⟨2, ![100000, 32]⟩
abbrev S10x32 : Shape := ⟨2, ![10, 32]⟩
abbrev S2x2000000 : Shape := ⟨2, ![2, 2000000]⟩
abbrev S2x1000000 : Shape := ⟨2, ![2, 1000000]⟩
abbrev S2x200000 : Shape := ⟨2, ![2, 200000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S10x32 : S_.BroadcastsInDim S10x32 (![] : Fin 0 → Fin S10x32.rank)
  reducesTo_S10x32_S_d0_1 : S10x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part5 {F : FTy → Type} [FloatOps F] (main_arg23 : FVec F S64x8 .f32) (main_arg24 : FVec F S8 .f32) (main_v83 : IVec S_ 1) (main_v84 : FVec F S32x64 .f32) (main_cst_32 : FVec F S_ .f32) : IVec S_ 1 :=
  let main_v85 : FVec F S32x64 .f32 := broadcastInDim S32x64 ![] bcast_S_S32x64 main_cst_32
  let main_v86 : IVec S32x64 1 := cmpf .olt main_v84 main_v85
  let main_c_33 : IVec S_ 1 := constantI S_ 1 1#1
  let main_v87 : IVec S_ 1 := (fun x v => Host.reduce IntOp.andi x v reducesTo_S32x64_S_d0_1 h_S_) main_v86 main_c_33
  let main_v88 : IVec S_ 1 := andi main_v83 main_v87
  let main_v89 : FVec F S64x8 .f32 := Host.absf main_arg23
  let main_cst_34 : FVec F S_ .f32 := constant S_ .f32 0x7F800000#32
  let main_v90 : FVec F S64x8 .f32 := broadcastInDim S64x8 ![] bcast_S_S64x8 main_cst_34
  let main_v91 : IVec S64x8 1 := cmpf .olt main_v89 main_v90
  let main_c_35 : IVec S_ 1 := constantI S_ 1 1#1
  let main_v92 : IVec S_ 1 := (fun x v => Host.reduce IntOp.andi x v reducesTo_S64x8_S_d0_1 h_S_) main_v91 main_c_35
  let main_v93 : IVec S_ 1 := andi main_v88 main_v92
  let main_v94 : FVec F S8 .f32 := Host.absf main_arg24
  let main_cst_36 : FVec F S_ .f32 := constant S_ .f32 0x7F800000#32
  let main_v95 : FVec F S8 .f32 := broadcastInDim S8 ![] bcast_S_S8 main_cst_36
  let main_v96 : IVec S8 1 := cmpf .olt main_v94 main_v95
  let main_c_37 : IVec S_ 1 := constantI S_ 1 1#1
  let main_v97 : IVec S_ 1 := (fun x v => Host.reduce IntOp.andi x v reducesTo_S8_S_d0 h_S_) main_v96 main_c_37
  let main_v98 : IVec S_ 1 := andi main_v93 main_v97
  main_v98

def fn_part4 {F : FTy → Type} [FloatOps F] (main_arg19 : FVec F S32x64 .f32) (main_arg20 : FVec F S32x64 .f32) (main_arg21 : FVec F S64 .f32) (main_arg22 : FVec F S32x64 .f32) (main_arg23 : FVec F S64x8 .f32) (main_arg24 : FVec F S8 .f32) (main_v63 : IVec S_ 1) (main_v67 : IVec S_ 1) : IVec S_ 1 :=
  let main_v68 : IVec S_ 1 := andi main_v63 main_v67
  let main_v69 : FVec F S32x64 .f32 := Host.absf main_arg19
  let main_cst_26 : FVec F S_ .f32 := constant S_ .f32 0x7F800000#32
  let main_v70 : FVec F S32x64 .f32 := broadcastInDim S32x64 ![] bcast_S_S32x64 main_cst_26
  let main_v71 : IVec S32x64 1 := cmpf .olt main_v69 main_v70
  let main_c_27 : IVec S_ 1 := constantI S_ 1 1#1
  let main_v72 : IVec S_ 1 := (fun x v => Host.reduce IntOp.andi x v reducesTo_S32x64_S_d0_1 h_S_) main_v71 main_c_27
  let main_v73 : IVec S_ 1 := andi main_v68 main_v72
  let main_v74 : FVec F S32x64 .f32 := Host.absf main_arg20
  let main_cst_28 : FVec F S_ .f32 := constant S_ .f32 0x7F800000#32
  let main_v75 : FVec F S32x64 .f32 := broadcastInDim S32x64 ![] bcast_S_S32x64 main_cst_28
  let main_v76 : IVec S32x64 1 := cmpf .olt main_v74 main_v75
  let main_c_29 : IVec S_ 1 := constantI S_ 1 1#1
  let main_v77 : IVec S_ 1 := (fun x v => Host.reduce IntOp.andi x v reducesTo_S32x64_S_d0_1 h_S_) main_v76 main_c_29
  let main_v78 : IVec S_ 1 := andi main_v73 main_v77
  let main_v79 : FVec F S64 .f32 := Host.absf main_arg21
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S32x64 .f32 := Host.absf main_arg22
  let main_cst_32 : FVec F S_ .f32 := constant S_ .f32 0x7F800000#32
  fn_part5 (F := F) main_arg23 main_arg24 main_v83 main_v84 main_cst_32

def fn_part3 {F : FTy → Type} [FloatOps F] (main_arg16 : FVec F S32x64 .f32) (main_arg17 : FVec F S32x64 .f32) (main_arg18 : FVec F S64 .f32) (main_arg19 : FVec F S32x64 .f32) (main_arg20 : FVec F S32x64 .f32) (main_arg21 : FVec F S64 .f32) (main_arg22 : FVec F S32x64 .f32) (main_arg23 : FVec F S64x8 .f32) (main_arg24 : FVec F S8 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S32x64 .f32 := Host.absf main_arg16
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  let main_v59 : FVec F S32x64 .f32 := Host.absf main_arg17
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S64 .f32 := Host.absf main_arg18
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg19 main_arg20 main_arg21 main_arg22 main_arg23 main_arg24 main_v63 main_v67

def fn_part2 {F : FTy → Type} [FloatOps F] (main_arg12 : FVec F S64 .f32) (main_arg13 : FVec F S32x64 .f32) (main_arg14 : FVec F S32x64 .f32) (main_arg15 : FVec F S64 .f32) (main_arg16 : FVec F S32x64 .f32) (main_arg17 : FVec F S32x64 .f32) (main_arg18 : FVec F S64 .f32) (main_arg19 : FVec F S32x64 .f32) (main_arg20 : FVec F S32x64 .f32) (main_arg21 : FVec F S64 .f32) (main_arg22 : FVec F S32x64 .f32) (main_arg23 : FVec F S64x8 .f32) (main_arg24 : FVec F S8 .f32) (main_v33 : IVec S_ 1) : IVec S_ 1 :=
  let main_v34 : FVec F S64 .f32 := Host.absf main_arg12
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S32x64 .f32 := Host.absf main_arg13
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32x64 .f32 := Host.absf main_arg14
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S64 .f32 := Host.absf main_arg15
  let main_cst_18 : FVec F S_ .f32 := constant S_ .f32 0x7F800000#32
  let main_v50 : FVec F S64 .f32 := broadcastInDim S64 ![] bcast_S_S64 main_cst_18
  fn_part3 (F := F) main_arg16 main_arg17 main_arg18 main_arg19 main_arg20 main_arg21 main_arg22 main_arg23 main_arg24 main_v48 main_v49 main_v50

def fn_part1 {F : FTy → Type} [FloatOps F] (main_arg9 : FVec F S64 .f32) (main_arg10 : FVec F S32x64 .f32) (main_arg11 : FVec F S32x64 .f32) (main_arg12 : FVec F S64 .f32) (main_arg13 : FVec F S32x64 .f32) (main_arg14 : FVec F S32x64 .f32) (main_arg15 : FVec F S64 .f32) (main_arg16 : FVec F S32x64 .f32) (main_arg17 : FVec F S32x64 .f32) (main_arg18 : FVec F S64 .f32) (main_arg19 : FVec F S32x64 .f32) (main_arg20 : FVec F S32x64 .f32) (main_arg21 : FVec F S64 .f32) (main_arg22 : FVec F S32x64 .f32) (main_arg23 : FVec F S64x8 .f32) (main_arg24 : FVec F S8 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg9
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32x64 .f32 := Host.absf main_arg10
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32x64 .f32 := Host.absf main_arg11
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg12 main_arg13 main_arg14 main_arg15 main_arg16 main_arg17 main_arg18 main_arg19 main_arg20 main_arg21 main_arg22 main_arg23 main_arg24 main_v33

def fn {F : FTy → Type} [FloatOps F] (main_arg0 : FVec F S200000x32 .f32) (main_arg1 : FVec F S100000x32 .f32) (main_arg2 : FVec F S10x32 .f32) (main_arg3 : IVec S2x2000000 32) (main_arg4 : IVec S2x2000000 32) (main_arg5 : IVec S2x1000000 32) (main_arg6 : IVec S2x1000000 32) (main_arg7 : IVec S2x200000 32) (main_arg8 : FVec F S32x64 .f32) (main_arg9 : FVec F S64 .f32) (main_arg10 : FVec F S32x64 .f32) (main_arg11 : FVec F S32x64 .f32) (main_arg12 : FVec F S64 .f32) (main_arg13 : FVec F S32x64 .f32) (main_arg14 : FVec F S32x64 .f32) (main_arg15 : FVec F S64 .f32) (main_arg16 : FVec F S32x64 .f32) (main_arg17 : FVec F S32x64 .f32) (main_arg18 : FVec F S64 .f32) (main_arg19 : FVec F S32x64 .f32) (main_arg20 : FVec F S32x64 .f32) (main_arg21 : FVec F S64 .f32) (main_arg22 : FVec F S32x64 .f32) (main_arg23 : FVec F S64x8 .f32) (main_arg24 : FVec F S8 .f32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S10x32 .f32 := Host.absf main_arg2
  let main_cst_2 : FVec F S_ .f32 := constant S_ .f32 0x7F800000#32
  let main_v10 : FVec F S10x32 .f32 := broadcastInDim S10x32 ![] bcast_S_S10x32 main_cst_2
  let main_v11 : IVec S10x32 1 := cmpf .olt main_v9 main_v10
  let main_c_3 : IVec S_ 1 := constantI S_ 1 1#1
  let main_v12 : IVec S_ 1 := (fun x v => Host.reduce IntOp.andi x v reducesTo_S10x32_S_d0_1 h_S_) main_v11 main_c_3
  let main_v13 : IVec S_ 1 := andi main_v8 main_v12
  let main_v14 : FVec F S32x64 .f32 := Host.absf main_arg8
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S200000x32 : Shape := ⟨2, ![200000, 32]⟩
abbrev S100000x32 : Shape := ⟨2, ![100000, 32]⟩
abbrev S10x32 : Shape := ⟨2, ![10, 32]⟩
abbrev S2x2000000 : Shape := ⟨2, ![2, 2000000]⟩
abbrev S2x1000000 : Shape := ⟨2, ![2, 1000000]⟩
abbrev S2x200000 : Shape := ⟨2, ![2, 200000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S_ : Shape := ⟨0, ![]⟩
abbrev S100000x1 : Shape := ⟨2, ![100000, 1]⟩
abbrev S100000x33 : Shape := ⟨2, ![100000, 33]⟩
abbrev S1x2000000 : Shape := ⟨2, ![1, 2000000]⟩
abbrev S2000000 : Shape := ⟨1, ![2000000]⟩
abbrev S2000000x1 : Shape := ⟨2, ![2000000, 1]⟩
abbrev S2000000x33 : Shape := ⟨2, ![2000000, 33]⟩
abbrev S200000x33 : Shape := ⟨2, ![200000, 33]⟩
abbrev S200000x1 : Shape := ⟨2, ![200000, 1]⟩
abbrev S1x200000 : Shape := ⟨2, ![1, 200000]⟩
abbrev S200000 : Shape := ⟨1, ![200000]⟩
abbrev S200000x2 : Shape := ⟨2, ![200000, 2]⟩
abbrev S1x64 : Shape := ⟨2, ![1, 64]⟩
abbrev S1x8 : Shape := ⟨2, ![1, 8]⟩
abbrev S200000x8 : Shape := ⟨2, ![200000, 8]⟩
abbrev S4000x32 : Shape := ⟨2, ![4000, 32]⟩
abbrev S4000x2 : Shape := ⟨2, ![4000, 2]⟩
abbrev S4000x8 : Shape := ⟨2, ![4000, 8]⟩
abbrev S4000x1 : Shape := ⟨2, ![4000, 1]⟩
abbrev S4000x64 : Shape := ⟨2, ![4000, 64]⟩

abbrev nBuf : Space → Nat
  | .hbm => 87
  | .vmem => 16
  | .smem => 0
  | _ => 0

abbrev bufTy : (tb : Table) → Fin (tcTables nBuf tb) → BufTy
  | .hbm, ⟨0, _⟩ => ⟨S200000x32, .f32⟩
  | .hbm, ⟨1, _⟩ => ⟨S100000x32, .f32⟩
  | .hbm, ⟨2, _⟩ => ⟨S10x32, .f32⟩
  | .hbm, ⟨3, _⟩ => ⟨S2x2000000, .i32⟩
  | .hbm, ⟨4, _⟩ => ⟨S2x2000000, .i32⟩
  | .hbm, ⟨5, _⟩ => ⟨S2x1000000, .i32⟩
  | .hbm, ⟨6, _⟩ => ⟨S2x1000000, .i32⟩
  | .hbm, ⟨7, _⟩ => ⟨S2x200000, .i32⟩
  | .hbm, ⟨8, _⟩ => ⟨S32x64, .f32⟩
  | .hbm, ⟨9, _⟩ => ⟨S64, .f32⟩
  | .hbm, ⟨10, _⟩ => ⟨S32x64, .f32⟩
  | .hbm, ⟨11, _⟩ => ⟨S32x64, .f32⟩
  | .hbm, ⟨12, _⟩ => ⟨S64, .f32⟩
  | .hbm, ⟨13, _⟩ => ⟨S32x64, .f32⟩
  | .hbm, ⟨14, _⟩ => ⟨S32x64, .f32⟩
  | .hbm, ⟨15, _⟩ => ⟨S64, .f32⟩
  | .hbm, ⟨16, _⟩ => ⟨S32x64, .f32⟩
  | .hbm, ⟨17, _⟩ => ⟨S32x64, .f32⟩
  | .hbm, ⟨18, _⟩ => ⟨S64, .f32⟩
  | .hbm, ⟨19, _⟩ => ⟨S32x64, .f32⟩
  | .hbm, ⟨20, _⟩ => ⟨S32x64, .f32⟩
  | .hbm, ⟨21, _⟩ => ⟨S64, .f32⟩
  | .hbm, ⟨22, _⟩ => ⟨S32x64, .f32⟩
  | .hbm, ⟨23, _⟩ => ⟨S64x8, .f32⟩
  | .hbm, ⟨24, _⟩ => ⟨S8, .f32⟩
  | .hbm, ⟨25, _⟩ => ⟨S_, .f32⟩
  | .hbm, ⟨26, _⟩ => ⟨S100000x1, .f32⟩
  | .hbm, ⟨27, _⟩ => ⟨S100000x33, .f32⟩
  | .hbm, ⟨28, _⟩ => ⟨S1x2000000, .i32⟩
  | .hbm, ⟨29, _⟩ => ⟨S2000000, .i32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000x33, .f32⟩
  | .hbm, ⟨39, _⟩ => ⟨S1x2000000, .i32⟩
  | .hbm, ⟨40, _⟩ => ⟨S2000000, .i32⟩
  | .hbm, ⟨41, _⟩ => ⟨S_, .f32⟩
  | .hbm, ⟨42, _⟩ => ⟨S200000x33, .f32⟩
  | .hbm, ⟨43, _⟩ => ⟨S2000000x1, .i32⟩
  | .hbm, ⟨44, _⟩ => ⟨S200000x33, .f32⟩
  | .hbm, ⟨45, _⟩ => ⟨S200000x32, .f32⟩
  | .hbm, ⟨46, _⟩ => ⟨S200000x1, .f32⟩
  | .hbm, ⟨47, _⟩ => ⟨S_, .f32⟩
  | .hbm, ⟨48, _⟩ => ⟨S200000x1, .f32⟩
  | .hbm, ⟨49, _⟩ => ⟨S200000x33, .f32⟩
  | .hbm, ⟨50, _⟩ => ⟨S1x200000, .i32⟩
  | .hbm, ⟨51, _⟩ => ⟨S200000, .i32⟩
  | .hbm, ⟨52, _⟩ => ⟨S_, .i32⟩
  | .hbm, ⟨53, _⟩ => ⟨S200000, .i32⟩
  | .hbm, ⟨54, _⟩ => ⟨S200000, .i1⟩
  | .hbm, ⟨55, _⟩ => ⟨S_, .i32⟩
  | .hbm, ⟨56, _⟩ => ⟨S200000, .i32⟩
  | .hbm, ⟨57, _⟩ => ⟨S200000, .i32⟩
  | .hbm, ⟨58, _⟩ => ⟨S200000, .i32⟩
  | .hbm, ⟨59, _⟩ => ⟨S200000x1, .i32⟩
  | .hbm, ⟨60, _⟩ => ⟨S200000x33, .f32⟩
  | .hbm, ⟨61, _⟩ => ⟨S1x200000, .i32⟩
  | .hbm, ⟨62, _⟩ => ⟨S200000, .i32⟩
  | .hbm, ⟨63, _⟩ => ⟨S_, .f32⟩
  | .hbm, ⟨64, _⟩ => ⟨S200000x33, .f32⟩
  | .hbm, ⟨65, _⟩ => ⟨S200000x1, .i32⟩
  | .hbm, ⟨66, _⟩ => ⟨S200000x33, .f32⟩
  | .hbm, ⟨67, _⟩ => ⟨S200000x32, .f32⟩
  | .hbm, ⟨68, _⟩ => ⟨S200000x1, .f32⟩
  | .hbm, ⟨69, _⟩ => ⟨S200000x2, .f32⟩
  | .hbm, ⟨70, _⟩ => ⟨S32x64, .f32⟩
  | .hbm, ⟨71, _⟩ => ⟨S_, .f32⟩
  | .hbm, ⟨72, _⟩ => ⟨S32x64, .f32⟩
  | .hbm, ⟨73, _⟩ => ⟨S32x64, .f32⟩
  | .hbm, ⟨74, _⟩ => ⟨S_, .f32⟩
  | .hbm, ⟨75, _⟩ => ⟨S32x64, .f32⟩
  | .hbm, ⟨76, _⟩ => ⟨S32x64, .f32⟩
  | .hbm, ⟨77, _⟩ => ⟨S_, .f32⟩
  | .hbm, ⟨78, _⟩ => ⟨S32x64, .f32⟩
  | .hbm, ⟨79, _⟩ => ⟨S32x64, .f32⟩
  | .hbm, ⟨80, _⟩ => ⟨S64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S1x64, .f32⟩
  | .hbm, ⟨85, _⟩ => ⟨S1x8, .f32⟩
  | .hbm, ⟨86, _⟩ => ⟨S200000x8, .f32⟩
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x2, .f32⟩
  | .local _ .vmem, ⟨7, _⟩ => ⟨S4000x2, .f32⟩
  | .local _ .vmem, ⟨8, _⟩ => ⟨S32x64, .f32⟩
  | .local _ .vmem, ⟨9, _⟩ => ⟨S32x64, .f32⟩
  | .local _ .vmem, ⟨10, _⟩ => ⟨S32x64, .f32⟩
  | .local _ .vmem, ⟨11, _⟩ => ⟨S1x64, .f32⟩
  | .local _ .vmem, ⟨12, _⟩ => ⟨S64x8, .f32⟩
  | .local _ .vmem, ⟨13, _⟩ => ⟨S1x8, .f32⟩
  | .local _ .vmem, ⟨14, _⟩ => ⟨S4000x8, .f32⟩
  | .local _ .vmem, ⟨15, _⟩ => ⟨S4000x8, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_3 : Ref sig .tc := ⟨.hbm, 52, rfl⟩
abbrev main_v22 : Ref sig .tc := ⟨.hbm, 53, rfl⟩
abbrev main_v23 : Ref sig .tc := ⟨.hbm, 54, rfl⟩
abbrev main_c_4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_5 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_cst_7 : Ref sig .tc := ⟨.hbm, 74, rfl⟩
abbrev main_v40 : Ref sig .tc := ⟨.hbm, 75, rfl⟩
abbrev main_v41 : Ref sig .tc := ⟨.hbm, 76, rfl⟩
abbrev main_cst_8 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_9 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S100000x1 : S_.BroadcastsInDim S100000x1 (![] : Fin 0 → Fin S100000x1.rank)
  concatenates_S100000x32_S100000x1_S100000x33_d1 : Shape.Concatenates [S100000x32, S100000x1] S100000x33 1
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  bcast_S_S200000x33 : S_.BroadcastsInDim S200000x33 (![] : Fin 0 → Fin S200000x33.rank)
  slices_S200000x33_S200000x32_0_0 : S200000x33.Slices ![0, 0] S200000x32
  slices_S200000x33_S200000x1_0_32 : S200000x33.Slices ![0, 32] S200000x1
  bcast_S_S200000x1 : S_.BroadcastsInDim S200000x1 (![] : Fin 0 → Fin S200000x1.rank)
  concatenates_S200000x32_S200000x1_S200000x33_d1 : Shape.Concatenates [S200000x32, S200000x1] S200000x33 1
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x1_S200000x1_S200000x2_d1 : Shape.Concatenates [S200000x1, S200000x1] S200000x2 1
  bcast_S_S32x64 : S_.BroadcastsInDim S32x64 (![] : Fin 0 → Fin S32x64.rank)
  bcast_S_S64 : S_.BroadcastsInDim S64 (![] : Fin 0 → Fin S64.rank)
  shapeCasts_S64_S1x64 : S64.ShapeCasts S1x64
  shapeCasts_S8_S1x8 : S8.ShapeCasts S1x8
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  slices_S4000x2_o0_1_S4000x1 : S4000x2.Slices ![0, 1] S4000x1
  broadcasts_S4000x1_S4000x32 : S4000x1.Broadcasts S4000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64x8_S64x8_0_0 : ∀ a, (![0, 0] : Fin 2 → Nat) a + S64x8.size a ≤ S64x8.size a
  h_S64x8 : 0 < S64x8.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4000x8 : S1x8.Broadcasts S4000x8
  inb_S4000x8_S4000x8_0_0 : ∀ a, (![0, 0] : Fin 2 → Nat) a + S4000x8.size a ≤ S4000x8.size a
  h_S4000x8 : 0 < S4000x8.numel
  gather_S100000x33_S2000000x1_S2000000x33_1_0_n_n_0_1_133_wf : GatherDims.WF S100000x33 S2000000x1 S2000000x33 [1] [0] [] [0] [] 1 ![1, 33]
  scatter_S200000x33_S2000000x1_S2000000x33_1_0_0_1_wf : ScatterDims.WF S200000x33 S2000000x1 S2000000x33 [1] [0] [0] 1
  gather_S200000x33_S200000x1_S200000x33_1_0_n_n_0_1_133_wf : GatherDims.WF S200000x33 S200000x1 S200000x33 [1] [0] [] [0] [] 1 ![1, 33]
  scatter_S200000x33_S200000x1_S200000x33_1_0_0_1_wf : ScatterDims.WF S200000x33 S200000x1 S200000x33 [1] [0] [0] 1
  dot_S4000x32_S32x64_S4000x64_1_0_0_1_n_n_wf : DotDims.WF S4000x32 S32x64 S4000x64 [1] [0] [0] [1] [] []
  dot_S4000x64_S64x8_S4000x8_1_0_0_1_n_n_wf : DotDims.WF S4000x64 S64x8 S4000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S200000x32.size a
  hwx0_0 : ∀ i : grid0.Coords, EltTy.bits .f32 = 32 ∨ (Rect.block (s := S200000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S200000x32.size a
  hwx0_1 : ∀ i : grid0.Coords, EltTy.bits .f32 = 32 ∨ (Rect.block (s := S200000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S200000x32.size a
  hwx0_2 : ∀ i : grid0.Coords, EltTy.bits .f32 = 32 ∨ (Rect.block (s := S200000x32) S4000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x2.size a ≤ S200000x2.size a
  hwx0_3 : ∀ i : grid0.Coords, EltTy.bits .f32 = 32 ∨ (Rect.block (s := S200000x2) S4000x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x8.size a ≤ S64x8.size a
  hwx0_8 : ∀ i : grid0.Coords, EltTy.bits .f32 = 32 ∨ (Rect.block (s := S64x8) S64x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8.size a ≤ S1x8.size a
  hwx0_9 : ∀ i : grid0.Coords, EltTy.bits .f32 = 32 ∨ (Rect.block (s := S1x8) S1x8.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x8.size a ≤ S200000x8.size a
  hwx0_10 : ∀ i : grid0.Coords, EltTy.bits .f32 = 32 ∨ (Rect.block (s := S200000x8) S4000x8.size (cc0_transform_10 i) (hinb0_10 i)).WholeWords (EltTy.packing .f32)

variable [Facts₀]

def gather_S100000x33_S2000000x1_S2000000x33_1_0_n_n_0_1_133 : GatherDims S100000x33 S2000000x1 S2000000x33 where
  offsetDims := [1]
  collapsedSliceDims := [0]
  operandBatchingDims := []
  startIndicesBatchingDims := []
  startIndexMap := [0]
  indexVectorDim := 1
  sliceSizes := ![1, 33]
  wf := gather_S100000x33_S2000000x1_S2000000x33_1_0_n_n_0_1_133_wf
def scatter_S200000x33_S2000000x1_S2000000x33_1_0_0_1 : ScatterDims S200000x33 S2000000x1 S2000000x33 where
  updateWindowDims := [1]
  insertedWindowDims := [0]
  scatterDimsToOperandDims := [0]
  indexVectorDim := 1
  wf := scatter_S200000x33_S2000000x1_S2000000x33_1_0_0_1_wf
def gather_S200000x33_S200000x1_S200000x33_1_0_n_n_0_1_133 : GatherDims S200000x33 S200000x1 S200000x33 where
  offsetDims := [1]
  collapsedSliceDims := [0]
  operandBatchingDims := []
  startIndicesBatchingDims := []
  startIndexMap := [0]
  indexVectorDim := 1
  sliceSizes := ![1, 33]
  wf := gather_S200000x33_S200000x1_S200000x33_1_0_n_n_0_1_133_wf
def scatter_S200000x33_S200000x1_S200000x33_1_0_0_1 : ScatterDims S200000x33 S200000x1 S200000x33 where
  updateWindowDims := [1]
  insertedWindowDims := [0]
  scatterDimsToOperandDims := [0]
  indexVectorDim := 1
  wf := scatter_S200000x33_S200000x1_S200000x33_1_0_0_1_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def dot_S4000x64_S64x8_S4000x8_1_0_0_1_n_n : DotDims S4000x64 S64x8 S4000x8 where
  lhsContracting := [1]
  rhsContracting := [0]
  lhsNonContracting := [0]
  rhsNonContracting := [1]
  lhsBatch := []
  rhsBatch := []
  wf := dot_S4000x64_S64x8_S4000x8_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S4000x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg23) S64x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48) S1x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v49) S4000x8.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S200000x32 : Shape := ⟨2, ![200000, 32]⟩
abbrev S100000x32 : Shape := ⟨2, ![100000, 32]⟩
abbrev S10x32 : Shape := ⟨2, ![10, 32]⟩
abbrev S2x2000000 : Shape := ⟨2, ![2, 2000000]⟩
abbrev S2x1000000 : Shape := ⟨2, ![2, 1000000]⟩
abbrev S2x200000 : Shape := ⟨2, ![2, 200000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x32 : Shape := ⟨2, ![2000000, 32]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S200000 : Shape := ⟨1, ![200000]⟩
abbrev S200000x1 : Shape := ⟨2, ![200000, 1]⟩
abbrev S200000x64 : Shape := ⟨2, ![200000, 64]⟩
abbrev S1x1000000 : Shape := ⟨2, ![1, 1000000]⟩
abbrev S1000000 : Shape := ⟨1, ![1000000]⟩
abbrev S1000000x1 : Shape := ⟨2, ![1000000, 1]⟩
abbrev S1000000x32 : Shape := ⟨2, ![1000000, 32]⟩
abbrev S10 : Shape := ⟨1, ![10]⟩
abbrev S10x1 : Shape := ⟨2, ![10, 1]⟩
abbrev S10x64 : Shape := ⟨2, ![10, 64]⟩
abbrev S1x200000 : Shape := ⟨2, ![1, 200000]⟩
abbrev S200000x8 : Shape := ⟨2, ![200000, 8]⟩
abbrev S1x8 : Shape := ⟨2, ![1, 8]⟩

abbrev nBuf : Space → Nat
  | .hbm => 243
  | .vmem => 0
  | .smem => 0
  | _ => 0

abbrev hbmTy0_0 (i : Nat) : BufTy := match i % 128 with
  | 0 => ⟨S200000x32, .f32⟩
  | 1 => ⟨S100000x32, .f32⟩
  | 2 => ⟨S10x32, .f32⟩
  | 3 => ⟨S2x2000000, .i32⟩
  | 4 => ⟨S2x2000000, .i32⟩
  | 5 => ⟨S2x1000000, .i32⟩
  | 6 => ⟨S2x1000000, .i32⟩
  | 7 => ⟨S2x200000, .i32⟩
  | 8 => ⟨S32x64, .f32⟩
  | 9 => ⟨S64, .f32⟩
  | 10 => ⟨S32x64, .f32⟩
  | 11 => ⟨S32x64, .f32⟩
  | 12 => ⟨S64, .f32⟩
  | 13 => ⟨S32x64, .f32⟩
  | 14 => ⟨S32x64, .f32⟩
  | 15 => ⟨S64, .f32⟩
  | 16 => ⟨S32x64, .f32⟩
  | 17 => ⟨S32x64, .f32⟩
  | 18 => ⟨S64, .f32⟩
  | 19 => ⟨S32x64, .f32⟩
  | 20 => ⟨S32x64, .f32⟩
  | 21 => ⟨S64, .f32⟩
  | 22 => ⟨S32x64, .f32⟩
  | 23 => ⟨S64x8, .f32⟩
  | 24 => ⟨S8, .f32⟩
  | 25 => ⟨S1x2000000, .i32⟩
  | 26 => ⟨S2000000, .i32⟩
  | 27 => ⟨S_, .i32⟩
  | 28 => ⟨S2000000, .i32⟩
  | 29 => ⟨S2000000, .i1⟩
  | 30 => ⟨S_, .i32⟩
  | 31 => ⟨S2000000, .i32⟩
  | 32 => ⟨S2000000, .i32⟩
  | 33 => ⟨S2000000, .i32⟩
  | 34 => ⟨S2000000x1, .i32⟩
  | 35 => ⟨S2000000x32, .f32⟩
  | 36 => ⟨S1x2000000, .i32⟩
  | 37 => ⟨S2000000, .i32⟩
  | 38 => ⟨S_, .f32⟩
  | 39 => ⟨S100000x32, .f32⟩
  | 40 => ⟨S2000000x1, .i32⟩
  | 41 => ⟨S100000x32, .f32⟩
  | 42 => ⟨S_, .f32⟩
  | 43 => ⟨S2000000, .f32⟩
  | 44 => ⟨S1x2000000, .i32⟩
  | 45 => ⟨S2000000, .i32⟩
  | 46 => ⟨S_, .f32⟩
  | 47 => ⟨S100000, .f32⟩
  | 48 => ⟨S2000000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x32, .f32⟩
  | 55 => ⟨S100000x32, .f32⟩
  | 56 => ⟨S100000x64, .f32⟩
  | 57 => ⟨S1x64, .f32⟩
  | 58 => ⟨S100000x64, .f32⟩
  | 59 => ⟨S100000x64, .f32⟩
  | 60 => ⟨S100000x64, .f32⟩
  | 61 => ⟨S100000x64, .f32⟩
  | 62 => ⟨S1x2000000, .i32⟩
  | 63 => ⟨S2000000, .i32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000x32, .f32⟩
  | 73 => ⟨S1x2000000, .i32⟩
  | 74 => ⟨S2000000, .i32⟩
  | 75 => ⟨S_, .f32⟩
  | 76 => ⟨S200000x32, .f32⟩
  | 77 => ⟨S2000000x1, .i32⟩
  | 78 => ⟨S200000x32, .f32⟩
  | 79 => ⟨S_, .f32⟩
  | 80 => ⟨S2000000, .f32⟩
  | 81 => ⟨S1x2000000, .i32⟩
  | 82 => ⟨S2000000, .i32⟩
  | 83 => ⟨S_, .f32⟩
  | 84 => ⟨S200000, .f32⟩
  | 85 => ⟨S2000000x1, .i32⟩
  | 86 => ⟨S200000, .f32⟩
  | 87 => ⟨S_, .f32⟩
  | 88 => ⟨S200000, .f32⟩
  | 89 => ⟨S200000, .f32⟩
  | 90 => ⟨S200000x1, .f32⟩
  | 91 => ⟨S200000x32, .f32⟩
  | 92 => ⟨S200000x32, .f32⟩
  | 93 => ⟨S200000x64, .f32⟩
  | 94 => ⟨S1x64, .f32⟩
  | 95 => ⟨S200000x64, .f32⟩
  | 96 => ⟨S200000x64, .f32⟩
  | 97 => ⟨S200000x64, .f32⟩
  | 98 => ⟨S200000x64, .f32⟩
  | 99 => ⟨S1x1000000, .i32⟩
  | 100 => ⟨S1000000, .i32⟩
  | 101 => ⟨S_, .i32⟩
  | 102 => ⟨S1000000, .i32⟩
  | 103 => ⟨S1000000, .i1⟩
  | 104 => ⟨S_, .i32⟩
  | 105 => ⟨S1000000, .i32⟩
  | 106 => ⟨S1000000, .i32⟩
  | 107 => ⟨S1000000, .i32⟩
  | 108 => ⟨S1000000x1, .i32⟩
  | 109 => ⟨S1000000x32, .f32⟩
  | 110 => ⟨S1x1000000, .i32⟩
  | 111 => ⟨S1000000, .i32⟩
  | 112 => ⟨S_, .f32⟩
  | 113 => ⟨S10x32, .f32⟩
  | 114 => ⟨S1000000x1, .i32⟩
  | 115 => ⟨S10x32, .f32⟩
  | 116 => ⟨S_, .f32⟩
  | 117 => ⟨S1000000, .f32⟩
  | 118 => ⟨S1x1000000, .i32⟩
  | 119 => ⟨S1000000, .i32⟩
  | 120 => ⟨S_, .f32⟩
  | 121 => ⟨S10, .f32⟩
  | 122 => ⟨S1000000x1, .i32⟩
  | 123 => ⟨S10, .f32⟩
  | 124 => ⟨S_, .f32⟩
  | 125 => ⟨S10, .f32⟩
  | 126 => ⟨S10, .f32⟩
  | 127 => ⟨S10x1, .f32⟩
  | _ => ⟨S200000x32, .f32⟩

abbrev hbmTy0_1 (i : Nat) : BufTy := match i % 128 with
  | 0 => ⟨S10x32, .f32⟩
  | 1 => ⟨S10x32, .f32⟩
  | 2 => ⟨S10x64, .f32⟩
  | 3 => ⟨S1x64, .f32⟩
  | 4 => ⟨S10x64, .f32⟩
  | 5 => ⟨S10x64, .f32⟩
  | 6 => ⟨S10x64, .f32⟩
  | 7 => ⟨S10x64, .f32⟩
  | 8 => ⟨S1x1000000, .i32⟩
  | 9 => ⟨S1000000, .i32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000x32, .f32⟩
  | 19 => ⟨S1x1000000, .i32⟩
  | 20 => ⟨S1000000, .i32⟩
  | 21 => ⟨S_, .f32⟩
  | 22 => ⟨S100000x32, .f32⟩
  | 23 => ⟨S1000000x1, .i32⟩
  | 24 => ⟨S100000x32, .f32⟩
  | 25 => ⟨S_, .f32⟩
  | 26 => ⟨S1000000, .f32⟩
  | 27 => ⟨S1x1000000, .i32⟩
  | 28 => ⟨S1000000, .i32⟩
  | 29 => ⟨S_, .f32⟩
  | 30 => ⟨S100000, .f32⟩
  | 31 => ⟨S1000000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x32, .f32⟩
  | 38 => ⟨S100000x32, .f32⟩
  | 39 => ⟨S100000x64, .f32⟩
  | 40 => ⟨S1x64, .f32⟩
  | 41 => ⟨S100000x64, .f32⟩
  | 42 => ⟨S100000x64, .f32⟩
  | 43 => ⟨S100000x64, .f32⟩
  | 44 => ⟨S100000x64, .f32⟩
  | 45 => ⟨S1x200000, .i32⟩
  | 46 => ⟨S200000, .i32⟩
  | 47 => ⟨S_, .i32⟩
  | 48 => ⟨S200000, .i32⟩
  | 49 => ⟨S200000, .i1⟩
  | 50 => ⟨S_, .i32⟩
  | 51 => ⟨S200000, .i32⟩
  | 52 => ⟨S200000, .i32⟩
  | 53 => ⟨S200000, .i32⟩
  | 54 => ⟨S200000x1, .i32⟩
  | 55 => ⟨S200000x32, .f32⟩
  | 56 => ⟨S1x200000, .i32⟩
  | 57 => ⟨S200000, .i32⟩
  | 58 => ⟨S_, .f32⟩
  | 59 => ⟨S200000x32, .f32⟩
  | 60 => ⟨S200000x1, .i32⟩
  | 61 => ⟨S200000x32, .f32⟩
  | 62 => ⟨S_, .f32⟩
  | 63 => ⟨S200000, .f32⟩
  | 64 => ⟨S1x200000, .i32⟩
  | 65 => ⟨S200000, .i32⟩
  | 66 => ⟨S_, .f32⟩
  | 67 => ⟨S200000, .f32⟩
  | 68 => ⟨S200000x1, .i32⟩
  | 69 => ⟨S200000, .f32⟩
  | 70 => ⟨S_, .f32⟩
  | 71 => ⟨S200000, .f32⟩
  | 72 => ⟨S200000, .f32⟩
  | 73 => ⟨S200000x1, .f32⟩
  | 74 => ⟨S200000x32, .f32⟩
  | 75 => ⟨S200000x32, .f32⟩
  | 76 => ⟨S200000x64, .f32⟩
  | 77 => ⟨S1x64, .f32⟩
  | 78 => ⟨S200000x64, .f32⟩
  | 79 => ⟨S200000x64, .f32⟩
  | 80 => ⟨S200000x64, .f32⟩
  | 81 => ⟨S200000x64, .f32⟩
  | 82 => ⟨S100000x64, .f32⟩
  | 83 => ⟨S_, .f32⟩
  | 84 => ⟨S100000x64, .f32⟩
  | 85 => ⟨S100000x64, .f32⟩
  | 86 => ⟨S_, .f32⟩
  | 87 => ⟨S100000x64, .f32⟩
  | 88 => ⟨S100000x64, .i1⟩
  | 89 => ⟨S_, .f32⟩
  | 90 => ⟨S100000x64, .f32⟩
  | 91 => ⟨S100000x64, .f32⟩
  | 92 => ⟨S100000x64, .f32⟩
  | 93 => ⟨S_, .f32⟩
  | 94 => ⟨S10x64, .f32⟩
  | 95 => ⟨S10x64, .i1⟩
  | 96 => ⟨S_, .f32⟩
  | 97 => ⟨S10x64, .f32⟩
  | 98 => ⟨S10x64, .f32⟩
  | 99 => ⟨S10x64, .f32⟩
  | 100 => ⟨S200000x64, .f32⟩
  | 101 => ⟨S_, .f32⟩
  | 102 => ⟨S200000x64, .f32⟩
  | 103 => ⟨S200000x64, .f32⟩
  | 104 => ⟨S_, .f32⟩
  | 105 => ⟨S200000x64, .f32⟩
  | 106 => ⟨S200000x64, .i1⟩
  | 107 => ⟨S_, .f32⟩
  | 108 => ⟨S200000x64, .f32⟩
  | 109 => ⟨S200000x64, .f32⟩
  | 110 => ⟨S200000x64, .f32⟩
  | 111 => ⟨S200000x8, .f32⟩
  | 112 => ⟨S1x8, .f32⟩
  | 113 => ⟨S200000x8, .f32⟩
  | 114 => ⟨S200000x8, .f32⟩
  | _ => ⟨S200000x32, .f32⟩

abbrev hbmTy (i : Nat) : BufTy := match i / 128 with
  | 0 => hbmTy0_0 i
  | 1 => hbmTy0_1 i
  | _ => ⟨S200000x32, .f32⟩

abbrev bufTy : (tb : Table) → Fin (tcTables nBuf tb) → BufTy
  | .hbm, ⟨i, _⟩ => hbmTy i
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_c : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_4 : Ref sig .tc := ⟨.hbm, 64, rfl⟩
abbrev main_v33 : Ref sig .tc := ⟨.hbm, 65, rfl⟩
abbrev main_v34 : Ref sig .tc := ⟨.hbm, 66, rfl⟩
abbrev main_c_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_6 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_7 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_8 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_9 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_10 : Ref sig .tc := ⟨.hbm, 101, rfl⟩
abbrev main_v64 : Ref sig .tc := ⟨.hbm, 102, rfl⟩
abbrev main_v65 : Ref sig .tc := ⟨.hbm, 103, rfl⟩
abbrev main_c_11 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_12 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_13 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_14 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_15 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_c_16 : Ref sig .tc := ⟨.hbm, 138, rfl⟩
abbrev main_v95 : Ref sig .tc := ⟨.hbm, 139, rfl⟩
abbrev main_v96 : Ref sig .tc := ⟨.hbm, 140, rfl⟩
abbrev main_c_17 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_18 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_19 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_20 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_21 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_c_22 : Ref sig .tc := ⟨.hbm, 175, rfl⟩
abbrev main_v126 : Ref sig .tc := ⟨.hbm, 176, rfl⟩
abbrev main_v127 : Ref sig .tc := ⟨.hbm, 177, rfl⟩
abbrev main_c_23 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_24 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_25 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_26 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_27 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_28 : Ref sig .tc := ⟨.hbm, 211, rfl⟩
abbrev main_v156 : Ref sig .tc := ⟨.hbm, 212, rfl⟩
abbrev main_v157 : Ref sig .tc := ⟨.hbm, 213, rfl⟩
abbrev main_call0_cst : Ref sig .tc := ⟨.hbm, 214, rfl⟩
abbrev main_call0_v0 : Ref sig .tc := ⟨.hbm, 215, rfl⟩
abbrev main_call0_v1 : Ref sig .tc := ⟨.hbm, 216, rfl⟩
abbrev main_call0_cst_0 : Ref sig .tc := ⟨.hbm, 217, rfl⟩
abbrev main_call0_v2 : Ref sig .tc := ⟨.hbm, 218, rfl⟩
abbrev main_call0_v3 : Ref sig .tc := ⟨.hbm, 219, rfl⟩
abbrev main_v158 : Ref sig .tc := ⟨.hbm, 220, rfl⟩
abbrev main_call1_cst : Ref sig .tc := ⟨.hbm, 221, rfl⟩
abbrev main_call1_v0 : Ref sig .tc := ⟨.hbm, 222, rfl⟩
abbrev main_call1_v1 : Ref sig .tc := ⟨.hbm, 223, rfl⟩
abbrev main_call1_cst_0 : Ref sig .tc := ⟨.hbm, 224, rfl⟩
abbrev main_call1_v2 : Ref sig .tc := ⟨.hbm, 225, rfl⟩
abbrev main_call1_v3 : Ref sig .tc := ⟨.hbm, 226, rfl⟩
abbrev main_v159 : Ref sig .tc := ⟨.hbm, 227, rfl⟩
abbrev main_v160 : Ref sig .tc := ⟨.hbm, 228, rfl⟩
abbrev main_cst_29 : Ref sig .tc := ⟨.hbm, 229, rfl⟩
abbrev main_v161 : Ref sig .tc := ⟨.hbm, 230, rfl⟩
abbrev main_v162 : Ref sig .tc := ⟨.hbm, 231, rfl⟩
abbrev main_call2_cst : Ref sig .tc := ⟨.hbm, 232, rfl⟩
abbrev main_call2_v0 : Ref sig .tc := ⟨.hbm, 233, rfl⟩
abbrev main_call2_v1 : Ref sig .tc := ⟨.hbm, 234, rfl⟩
abbrev main_call2_cst_0 : Ref sig .tc := ⟨.hbm, 235, rfl⟩
abbrev main_call2_v2 : Ref sig .tc := ⟨.hbm, 236, rfl⟩
abbrev main_call2_v3 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S200000x32 : S_.BroadcastsInDim S200000x32 (![] : Fin 0 → Fin S200000x32.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  bcast_S1x64_S200000x64_0_1 : S1x64.BroadcastsInDim S200000x64 (![0, 1] : Fin 2 → Fin S200000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S10x32 : S_.BroadcastsInDim S10x32 (![] : Fin 0 → Fin S10x32.rank)
  bcast_S_S10 : S_.BroadcastsInDim S10 (![] : Fin 0 → Fin S10.rank)
  bcast_S10_S10x1_0 : S10.BroadcastsInDim S10x1 (![0] : Fin 1 → Fin S10x1.rank)
  bcast_S10x1_S10x32_0_1 : S10x1.BroadcastsInDim S10x32 (![0, 1] : Fin 2 → Fin S10x32.rank)
  bcast_S1x64_S10x64_0_1 : S1x64.BroadcastsInDim S10x64 (![0, 1] : Fin 2 → Fin S10x64.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S100000x64 : S_.BroadcastsInDim S100000x64 (![] : Fin 0 → Fin S100000x64.rank)
  bcast_S_S10x64 : S_.BroadcastsInDim S10x64 (![] : Fin 0 → Fin S10x64.rank)
  bcast_S_S200000x64 : S_.BroadcastsInDim S200000x64 (![] : Fin 0 → Fin S200000x64.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  gather_S200000x32_S2000000x1_S2000000x32_1_0_n_n_0_1_132_wf : GatherDims.WF S200000x32 S2000000x1 S2000000x32 [1] [0] [] [0] [] 1 ![1, 32]
  scatter_S100000x32_S2000000x1_S2000000x32_1_0_0_1_wf : ScatterDims.WF S100000x32 S2000000x1 S2000000x32 [1] [0] [0] 1
  scatter_S100000_S2000000x1_S2000000_n_0_0_1_wf : ScatterDims.WF S100000 S2000000x1 S2000000 [] [0] [0] 1
  dot_S100000x32_S32x64_S100000x64_1_0_0_1_n_n_wf : DotDims.WF S100000x32 S32x64 S100000x64 [1] [0] [0] [1] [] []
  gather_S100000x32_S2000000x1_S2000000x32_1_0_n_n_0_1_132_wf : GatherDims.WF S100000x32 S2000000x1 S2000000x32 [1] [0] [] [0] [] 1 ![1, 32]
  scatter_S200000x32_S2000000x1_S2000000x32_1_0_0_1_wf : ScatterDims.WF S200000x32 S2000000x1 S2000000x32 [1] [0] [0] 1
  scatter_S200000_S2000000x1_S2000000_n_0_0_1_wf : ScatterDims.WF S200000 S2000000x1 S2000000 [] [0] [0] 1
  dot_S200000x32_S32x64_S200000x64_1_0_0_1_n_n_wf : DotDims.WF S200000x32 S32x64 S200000x64 [1] [0] [0] [1] [] []
  gather_S100000x32_S1000000x1_S1000000x32_1_0_n_n_0_1_132_wf : GatherDims.WF S100000x32 S1000000x1 S1000000x32 [1] [0] [] [0] [] 1 ![1, 32]
  scatter_S10x32_S1000000x1_S1000000x32_1_0_0_1_wf : ScatterDims.WF S10x32 S1000000x1 S1000000x32 [1] [0] [0] 1
  scatter_S10_S1000000x1_S1000000_n_0_0_1_wf : ScatterDims.WF S10 S1000000x1 S1000000 [] [0] [0] 1
  dot_S10x32_S32x64_S10x64_1_0_0_1_n_n_wf : DotDims.WF S10x32 S32x64 S10x64 [1] [0] [0] [1] [] []
  gather_S10x32_S1000000x1_S1000000x32_1_0_n_n_0_1_132_wf : GatherDims.WF S10x32 S1000000x1 S1000000x32 [1] [0] [] [0] [] 1 ![1, 32]
  scatter_S100000x32_S1000000x1_S1000000x32_1_0_0_1_wf : ScatterDims.WF S100000x32 S1000000x1 S1000000x32 [1] [0] [0] 1
  scatter_S100000_S1000000x1_S1000000_n_0_0_1_wf : ScatterDims.WF S100000 S1000000x1 S1000000 [] [0] [0] 1
  gather_S200000x32_S200000x1_S200000x32_1_0_n_n_0_1_132_wf : GatherDims.WF S200000x32 S200000x1 S200000x32 [1] [0] [] [0] [] 1 ![1, 32]
  scatter_S200000x32_S200000x1_S200000x32_1_0_0_1_wf : ScatterDims.WF S200000x32 S200000x1 S200000x32 [1] [0] [0] 1
  scatter_S200000_S200000x1_S200000_n_0_0_1_wf : ScatterDims.WF S200000 S200000x1 S200000 [] [0] [0] 1
  dot_S200000x64_S64x8_S200000x8_1_0_0_1_n_n_wf : DotDims.WF S200000x64 S64x8 S200000x8 [1] [0] [0] [1] [] []

variable [Facts₀]

def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S200000x32_S32x64_S200000x64_1_0_0_1_n_n : DotDims S200000x32 S32x64 S200000x64 where
  lhsContracting := [1]
  rhsContracting := [0]
  lhsNonContracting := [0]
  rhsNonContracting := [1]
  lhsBatch := []
  rhsBatch := []
  wf := dot_S200000x32_S32x64_S200000x64_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S10x32_S1000000x1_S1000000x32_1_0_0_1 : ScatterDims S10x32 S1000000x1 S1000000x32 where
  updateWindowDims := [1]
  insertedWindowDims := [0]
  scatterDimsToOperandDims := [0]
  indexVectorDim := 1
  wf := scatter_S10x32_S1000000x1_S1000000x32_1_0_0_1_wf
def scatter_S10_S1000000x1_S1000000_n_0_0_1 : ScatterDims S10 S1000000x1 S1000000 where
  updateWindowDims := []
  insertedWindowDims := [0]
  scatterDimsToOperandDims := [0]
  indexVectorDim := 1
  wf := scatter_S10_S1000000x1_S1000000_n_0_0_1_wf
def dot_S10x32_S32x64_S10x64_1_0_0_1_n_n : DotDims S10x32 S32x64 S10x64 where
  lhsContracting := [1]
  rhsContracting := [0]
  lhsNonContracting := [0]
  rhsNonContracting := [1]
  lhsBatch := []
  rhsBatch := []
  wf := dot_S10x32_S32x64_S10x64_1_0_0_1_n_n_wf
def gather_S10x32_S1000000x1_S1000000x32_1_0_n_n_0_1_132 : GatherDims S10x32 S1000000x1 S1000000x32 where
  offsetDims := [1]
  collapsedSliceDims := [0]
  operandBatchingDims := []
  startIndicesBatchingDims := []
  startIndexMap := [0]
  indexVectorDim := 1
  sliceSizes := ![1, 32]
  wf := gather_S10x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S200000x32_S200000x1_S200000x32_1_0_n_n_0_1_132 : GatherDims S200000x32 S200000x1 S200000x32 where
  offsetDims := [1]
  collapsedSliceDims := [0]
  operandBatchingDims := []
  startIndicesBatchingDims := []
  startIndexMap := [0]
  indexVectorDim := 1
  sliceSizes := ![1, 32]
  wf := gather_S200000x32_S200000x1_S200000x32_1_0_n_n_0_1_132_wf
def scatter_S200000x32_S200000x1_S200000x32_1_0_0_1 : ScatterDims S200000x32 S200000x1 S200000x32 where
  updateWindowDims := [1]
  insertedWindowDims := [0]
  scatterDimsToOperandDims := [0]
  indexVectorDim := 1
  wf := scatter_S200000x32_S200000x1_S200000x32_1_0_0_1_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def dot_S200000x64_S64x8_S200000x8_1_0_0_1_n_n : DotDims S200000x64 S64x8 S200000x8 where
  lhsContracting := [1]
  rhsContracting := [0]
  lhsNonContracting := [0]
  rhsNonContracting := [1]
  lhsBatch := []
  rhsBatch := []
  wf := dot_S200000x64_S64x8_S200000x8_1_0_0_1_n_n_wf

class Facts : Prop extends Facts₀ where

variable [Facts]
-- ==== Proof.Spec.lean ====
/-
  The mathematics of one mean-aggregation layer over a bipartite edge list, followed by a leaky rectifier and an
  output projection, stated once over the extended reals and index by index.

  An edge list is two columns of signed 32-bit words, one word per edge: `si` names the SOURCE row of a table (a
  word outside the table is clamped to its first or last row) and `di` the DESTINATION row (a word that names no row
  drops the edge). For a destination row `r`:
    * `segSum x si di r k` is the sum over the edges into `r` of the source table's entry at column `k`;
    * `segCnt di r` is the number of those edges, each counted as the float `1`;
    * `meanOf s c` is `s / max c 1`, the mean with an empty bin read as a divisor of one.
  Two spellings of the hidden layer are stated, `hidK` (the half folded into the weights before the products:
  `x·(½(Wr2+Wr5)) + m2·(½Wl2) + m5·(½Wl5) + ½(b2+b5)`) and `hidR` (the half applied last:
  `½((m2·Wl2 + b2 + x·Wr2) + (m5·Wl5 + b5 + x·Wr5))`); `resK` and `resR` are the whole result arrays built on each.
-/
import Idealize.ShloMosaic.PureOps.Ideal
import Idealize.ShloMosaic.Lib.ValueIdx

noncomputable section

open scoped BigOperators

namespace Sage

open Idealize.ShloMosaic Idealize.ShloMosaic.ValueIdx

/-- A two-axis array of extended reals. -/
abbrev Arr2 (a b : Nat) : Type := (⟨2, ![a, b]⟩ : Shape).Idx → EReal
/-- A one-axis array of extended reals. -/
abbrev Arr1 (a : Nat) : Type := (⟨1, ![a]⟩ : Shape).Idx → EReal
/-- A column of signed 32-bit index words, one per edge. -/
abbrev Col (e : Nat) : Type := IVec ⟨2, ![e, 1]⟩ 32

/-- The float literals of the two programs, as the extended reals their bit patterns denote. -/
abbrev one : EReal := Ideal.ofBits .f32 0x3F800000#32
abbrev half : EReal := Ideal.ofBits .f32 0x3F000000#32
abbrev slope : EReal := Ideal.ofBits .f32 0x3C23D70A#32

/-- The row of a table of `N` rows that a signed word names: the word as a natural number, at most `N - 1`. -/
def rowOf (N : Nat) (hN : 0 < N) (v : BitVec 32) : Fin N := ⟨min v.toInt.toNat (N - 1), by omega⟩

/-- A source word as the table sees it: a negative word counts from the table's end (`N` is added to it). -/
def srcWord (N : BitVec 32) (w : BitVec 32) : BitVec 32 := Scalar.select (IntOp.cmpi .slt w 0#32) (IntOp.addi w N) w

/-- The column of source words of an edge list `[2, E]` (its first row, negative words wrapped), and the column of
    destination words (its second row). -/
def srcCol {E : Nat} (N : BitVec 32) (e : IVec ⟨2, ![2, E]⟩ 32) : Col E := fun i => srcWord N (e (ix2 (0 : Fin 2) (i 0)))
def dstCol {E : Nat} (e : IVec ⟨2, ![2, E]⟩ 32) : Col E := fun i => e (ix2 (1 : Fin 2) (i 0))

/-- The sum, over the edges whose destination word is `r`, of the source table at the edge's (clamped) source row and
    column `k`. -/
def segSum {N B E K : Nat} (hN : 0 < N) (x : Arr2 N B) (si di : Col E) (r : Fin K) (k : Fin B) : EReal :=
  ∑ i : Fin E, if (di (ix2 i (0 : Fin 1))).toInt = (r.val : Int) then x (ix2 (rowOf N hN (si (ix2 i (0 : Fin 1)))) k) else 0

/-- The number of edges whose destination word is `r`, each counted as the float one. -/
def segCnt {E K : Nat} (di : Col E) (r : Fin K) : EReal :=
  ∑ i : Fin E, if (di (ix2 i (0 : Fin 1))).toInt = (r.val : Int) then one else 0

/-- The mean of a bin: its sum over its count, an empty bin's count read as one. -/
def meanOf (s c : EReal) : EReal := Ideal.div s (max c one)

/-- The leaky rectifier: `h` where `h ≥ 0`, a hundredth of it elsewhere. -/
def lrelu (h : EReal) : EReal := Scalar.select (Ideal.cmp .oge h 0) h (slope * h)

/-- The hidden layer before the rectifier at column `j`, the half folded into the weights and the biases first. -/
def hidK (xp m2 m5 : Fin 32 → EReal) (Wr2 Wr5 Wl2 Wl5 : Arr2 32 64) (b2 b5 : Arr1 64) (j : Fin 64) : EReal :=
  ((∑ k : Fin 32, xp k * (half * (Wr2 (ix2 k j) + Wr5 (ix2 k j)))
      + ∑ k : Fin 32, m2 k * (half * Wl2 (ix2 k j)))
    + ∑ k : Fin 32, m5 k * (half * Wl5 (ix2 k j)))
  + half * (b2 (ix1 j) + b5 (ix1 j))

/-- The same layer with the half applied last, to the sum of the two convolutions' outputs. -/
def hidR (xp m2 m5 : Fin 32 → EReal) (Wr2 Wr5 Wl2 Wl5 : Arr2 32 64) (b2 b5 : Arr1 64) (j : Fin 64) : EReal :=
  half * (((∑ k : Fin 32, m2 k * Wl2 (ix2 k j) + b2 (ix1 j)) + ∑ k : Fin 32, xp k * Wr2 (ix2 k j))
    + ((∑ k : Fin 32, m5 k * Wl5 (ix2 k j) + b5 (ix1 j)) + ∑ k : Fin 32, xp k * Wr5 (ix2 k j)))

/-- The output projection of a rectified hidden row at class `n`. -/
def outOf (hid : Fin 64 → EReal) (Wout : Arr2 64 8) (bout : Arr1 8) (n : Fin 8) : EReal :=
  (∑ j : Fin 64, lrelu (hid j) * Wout (ix2 j n)) + bout (ix1 n)

/-- Row `r` of the product features, and the two aggregated means into product `r`: from the demographic table over
    the edge list `(si4, di4)`, and from the product table itself over `(si7, di7)`. -/
def rowX (xp : Arr2 200000 32) (r : Fin 200000) : Fin 32 → EReal := fun k => xp (ix2 r k)
def rowM2 (xd : Arr2 100000 32) (si4 di4 : Col 2000000) (r : Fin 200000) : Fin 32 → EReal :=
  fun k => meanOf (segSum (N := 100000) (by decide) xd si4 di4 r k) (segCnt di4 r)
def rowM5 (xp : Arr2 200000 32) (si7 di7 : Col 200000) (r : Fin 200000) : Fin 32 → EReal :=
  fun k => meanOf (segSum (N := 200000) (by decide) xp si7 di7 r k) (segCnt di7 r)

/-- The whole result, the hidden layer spelt with the half folded in. -/
def resK (xp : Arr2 200000 32) (xd : Arr2 100000 32) (si4 di4 : Col 2000000) (si7 di7 : Col 200000)
    (Wl2 Wr2 Wl5 Wr5 : Arr2 32 64) (b2 b5 : Arr1 64) (Wout : Arr2 64 8) (bout : Arr1 8) : Arr2 200000 8 :=
  fun i => outOf (hidK (rowX xp (i 0)) (rowM2 xd si4 di4 (i 0)) (rowM5 xp si7 di7 (i 0)) Wr2 Wr5 Wl2 Wl5 b2 b5) Wout bout (i 1)

/-- The whole result, the hidden layer spelt with the half applied last. -/
def resR (xp : Arr2 200000 32) (xd : Arr2 100000 32) (si4 di4 : Col 2000000) (si7 di7 : Col 200000)
    (Wl2 Wr2 Wl5 Wr5 : Arr2 32 64) (b2 b5 : Arr1 64) (Wout : Arr2 64 8) (bout : Arr1 8) : Arr2 200000 8 :=
  fun i => outOf (hidR (rowX xp (i 0)) (rowM2 xd si4 di4 (i 0)) (rowM5 xp si7 di7 (i 0)) Wr2 Wr5 Wl2 Wl5 b2 b5) Wout bout (i 1)

/-- The result array as the fused row-block computation leaves it, of the ten arrays it reads: the product features
    `x0`, the two tables of bin sums `x1`, `x2`, the two bin counts side by side `x3`, the three (already halved) weight
    matrices `x4`, `x5`, `x6`, the (already halved) bias row `x7`, the output weights `x8` and the output bias row `x9`. -/
def kerHid (x0 x1 x2 : Arr2 200000 32) (x3 : Arr2 200000 2) (x4 x5 x6 : Arr2 32 64) (x7 : Arr2 1 64)
    (r : Fin 200000) (j : Fin 64) : EReal :=
  ((∑ k : Fin 32, x0 (ix2 r k) * x4 (ix2 k j)
      + ∑ k : Fin 32, meanOf (x1 (ix2 r k)) (x3 (ix2 r (0 : Fin 2))) * x5 (ix2 k j))
    + ∑ k : Fin 32, meanOf (x2 (ix2 r k)) (x3 (ix2 r (1 : Fin 2))) * x6 (ix2 k j))
  + x7 (ix2 (0 : Fin 1) j)

def kerG (x0 x1 x2 : Arr2 200000 32) (x3 : Arr2 200000 2) (x4 x5 x6 : Arr2 32 64) (x7 : Arr2 1 64)
    (x8 : Arr2 64 8) (x9 : Arr2 1 8) : Arr2 200000 8 :=
  fun i => (∑ j : Fin 64, lrelu (kerHid x0 x1 x2 x3 x4 x5 x6 x7 (i 0) j) * x8 (ix2 j (i 1))) + x9 (ix2 (0 : Fin 1) (i 1))

end Sage

end
-- ==== Proof.KerFinal.lean ====
/-
  The kernel's result array after its run. Grid point `t` computes rows `4000 t … 4000 t + 3999` of the result from the same
  rows of the three row-blocked inputs and the count pairs, and from the whole weight and bias arrays; read index by index
  the block it writes back is the restriction of ONE whole-array function, `Sage.kerG` of the ten arrays the region finds,
  and the fifty blocks cover the result. So the result buffer ends at `Sage.kerG` of those arrays, the arguments unchanged.
-/
import proofs.«400680_j71004399338031_3_alg».proof.Proof.KernelIdealValueP
import proofs.«400680_j71004399338031_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The two contractions at an index -/

/-- The hidden layer's product, left operand: its row axis follows the result's row. -/
theorem lhs_hid_0 (i : S4000x64.Idx) (q : dot_S4000x32_S32x64_S4000x64_1_0_0_1_n_n.contr.Idx) :
    (dot_S4000x32_S32x64_S4000x64_1_0_0_1_n_n.lhsIdx i q 0).val = (i 0).val := by
  unfold DotDims.lhsIdx
  rw [dif_neg (show ¬(0 : Fin S4000x32.rank) ∈ dot_S4000x32_S32x64_S4000x64_1_0_0_1_n_n.lhsBatch by decide), dif_pos (show (0 : Fin S4000x32.rank) ∈ dot_S4000x32_S32x64_S4000x64_1_0_0_1_n_n.lhsNonContracting by decide)]
  rfl
/-- Its column axis is the contracted one. -/
theorem lhs_hid_1 (i : S4000x64.Idx) (q : dot_S4000x32_S32x64_S4000x64_1_0_0_1_n_n.contr.Idx) :
    (dot_S4000x32_S32x64_S4000x64_1_0_0_1_n_n.lhsIdx i q 1).val = (q ⟨0, by decide⟩).val :=
  dot_S4000x32_S32x64_S4000x64_1_0_0_1_n_n.lhsIdx_val_of_single rfl i q
/-- Right operand: its row axis is the contracted one. -/
theorem rhs_hid_0 (i : S4000x64.Idx) (q : dot_S4000x32_S32x64_S4000x64_1_0_0_1_n_n.contr.Idx) :
    (dot_S4000x32_S32x64_S4000x64_1_0_0_1_n_n.rhsIdx i q 0).val = (q ⟨0, by decide⟩).val :=
  dot_S4000x32_S32x64_S4000x64_1_0_0_1_n_n.rhsIdx_val_of_single rfl i q
/-- Its column axis follows the result's column. -/
theorem rhs_hid_1 (i : S4000x64.Idx) (q : dot_S4000x32_S32x64_S4000x64_1_0_0_1_n_n.contr.Idx) :
    (dot_S4000x32_S32x64_S4000x64_1_0_0_1_n_n.rhsIdx i q 1).val = (i 1).val := by
  unfold DotDims.rhsIdx
  rw [dif_neg (show ¬(1 : Fin S32x64.rank) ∈ dot_S4000x32_S32x64_S4000x64_1_0_0_1_n_n.rhsBatch by decide), dif_pos (show (1 : Fin S32x64.rank) ∈ dot_S4000x32_S32x64_S4000x64_1_0_0_1_n_n.rhsNonContracting by decide)]
  rfl

/-- A hidden-layer product into the zero accumulator, at row `p` and column `j`: the sum over the 32 features. -/
theorem matmul_hid_apply (lhs : FVec Ideal S4000x32 .bf16) (rhs : FVec Ideal S32x64 .bf16) (p : Fin 4000) (j : Fin 64) :
    FloatOps.matmul dot_S4000x32_S32x64_S4000x64_1_0_0_1_n_n none lhs rhs (constant (F := Ideal) S4000x64 .f32 0x00000000#32) (ix2 p j)
      = ∑ k : Fin 32, lhs (ix2 p k) * rhs (ix2 k j) := by
  rw [Ideal.matmul_constant_zero_apply, ← Equiv.sum_comp (contrEquiv1 dot_S4000x32_S32x64_S4000x64_1_0_0_1_n_n 32 rfl rfl).symm]
  refine Finset.sum_congr rfl fun k _ => ?_
  have hk := contrEquiv1_symm_val dot_S4000x32_S32x64_S4000x64_1_0_0_1_n_n 32 rfl rfl k
  have el : dot_S4000x32_S32x64_S4000x64_1_0_0_1_n_n.lhsIdx (ix2 p j) ((contrEquiv1 dot_S4000x32_S32x64_S4000x64_1_0_0_1_n_n 32 rfl rfl).symm k) = ix2 p k := funext fun a => Fin.ext (by
    match a with
    | ⟨0, _⟩ => exact lhs_hid_0 _ _
    | ⟨1, _⟩ => exact (lhs_hid_1 _ _).trans hk)
  have er : dot_S4000x32_S32x64_S4000x64_1_0_0_1_n_n.rhsIdx (ix2 p j) ((contrEquiv1 dot_S4000x32_S32x64_S4000x64_1_0_0_1_n_n 32 rfl rfl).symm k) = ix2 k j := funext fun a => Fin.ext (by
    match a with
    | ⟨0, _⟩ => exact (rhs_hid_0 _ _).trans hk
    | ⟨1, _⟩ => exact rhs_hid_1 _ _)
  rw [el, er]

/-- The output projection's product, left operand: its row axis follows the result's row. -/
theorem lhs_out_0 (i : S4000x8.Idx) (q : dot_S4000x64_S64x8_S4000x8_1_0_0_1_n_n.contr.Idx) :
    (dot_S4000x64_S64x8_S4000x8_1_0_0_1_n_n.lhsIdx i q 0).val = (i 0).val := by
  unfold DotDims.lhsIdx
  rw [dif_neg (show ¬(0 : Fin S4000x64.rank) ∈ dot_S4000x64_S64x8_S4000x8_1_0_0_1_n_n.lhsBatch by decide), dif_pos (show (0 : Fin S4000x64.rank) ∈ dot_S4000x64_S64x8_S4000x8_1_0_0_1_n_n.lhsNonContracting by decide)]
  rfl
/-- Its column axis is the contracted one. -/
theorem lhs_out_1 (i : S4000x8.Idx) (q : dot_S4000x64_S64x8_S4000x8_1_0_0_1_n_n.contr.Idx) :
    (dot_S4000x64_S64x8_S4000x8_1_0_0_1_n_n.lhsIdx i q 1).val = (q ⟨0, by decide⟩).val :=
  dot_S4000x64_S64x8_S4000x8_1_0_0_1_n_n.lhsIdx_val_of_single rfl i q
/-- Right operand: its row axis is the contracted one. -/
theorem rhs_out_0 (i : S4000x8.Idx) (q : dot_S4000x64_S64x8_S4000x8_1_0_0_1_n_n.contr.Idx) :
    (dot_S4000x64_S64x8_S4000x8_1_0_0_1_n_n.rhsIdx i q 0).val = (q ⟨0, by decide⟩).val :=
  dot_S4000x64_S64x8_S4000x8_1_0_0_1_n_n.rhsIdx_val_of_single rfl i q
/-- Its column axis follows the result's column. -/
theorem rhs_out_1 (i : S4000x8.Idx) (q : dot_S4000x64_S64x8_S4000x8_1_0_0_1_n_n.contr.Idx) :
    (dot_S4000x64_S64x8_S4000x8_1_0_0_1_n_n.rhsIdx i q 1).val = (i 1).val := by
  unfold DotDims.rhsIdx
  rw [dif_neg (show ¬(1 : Fin S64x8.rank) ∈ dot_S4000x64_S64x8_S4000x8_1_0_0_1_n_n.rhsBatch by decide), dif_pos (show (1 : Fin S64x8.rank) ∈ dot_S4000x64_S64x8_S4000x8_1_0_0_1_n_n.rhsNonContracting by decide)]
  rfl

/-- The output projection's product into the zero accumulator, at row `p` and class `q`: the sum over the 64 hidden columns. -/
theorem matmul_out_apply (lhs : FVec Ideal S4000x64 .bf16) (rhs : FVec Ideal S64x8 .bf16) (p : Fin 4000) (q : Fin 8) :
    FloatOps.matmul dot_S4000x64_S64x8_S4000x8_1_0_0_1_n_n none lhs rhs (constant (F := Ideal) S4000x8 .f32 0x00000000#32) (ix2 p q)
      = ∑ j : Fin 64, lhs (ix2 p j) * rhs (ix2 j q) := by
  rw [Ideal.matmul_constant_zero_apply, ← Equiv.sum_comp (contrEquiv1 dot_S4000x64_S64x8_S4000x8_1_0_0_1_n_n 64 rfl rfl).symm]
  refine Finset.sum_congr rfl fun k _ => ?_
  have hk := contrEquiv1_symm_val dot_S4000x64_S64x8_S4000x8_1_0_0_1_n_n 64 rfl rfl k
  have el : dot_S4000x64_S64x8_S4000x8_1_0_0_1_n_n.lhsIdx (ix2 p q) ((contrEquiv1 dot_S4000x64_S64x8_S4000x8_1_0_0_1_n_n 64 rfl rfl).symm k) = ix2 p k := funext fun a => Fin.ext (by
    match a with
    | ⟨0, _⟩ => exact lhs_out_0 _ _
    | ⟨1, _⟩ => exact (lhs_out_1 _ _).trans hk)
  have er : dot_S4000x64_S64x8_S4000x8_1_0_0_1_n_n.rhsIdx (ix2 p q) ((contrEquiv1 dot_S4000x64_S64x8_S4000x8_1_0_0_1_n_n 64 rfl rfl).symm k) = ix2 k q := funext fun a => Fin.ext (by
    match a with
    | ⟨0, _⟩ => exact (rhs_out_0 _ _).trans hk
    | ⟨1, _⟩ => exact rhs_out_1 _ _)
  rw [el, er]

/-! ## Layout operations at an index -/

/-- One column broadcast across a row: at `(p, c)` it reads the column's entry of row `p`. -/
theorem colBroadcast_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's values at an index -/

/-- A row block of bin sums over its counts' column `o`, read at `(p, k)`: the mean of that bin. -/
theorem blockMean_apply (o : Nat) (s : Vec Ideal S4000x32 .f32) (cnt : Vec Ideal S4000x2 .f32)
    (hs : S4000x2.Slices ![0, o] S4000x1) (hb : S4000x1.Broadcasts S4000x32) (p : Fin 4000) (k : Fin 32) (col : Fin 2) (hcol : col.val = o + (0 : Fin 1).val) :
    divf (F := Ideal) s (broadcastTo S4000x32 (maximumf (extractStridedSlice S4000x1 ![0, o] cnt hs) (broadcast S4000x1 (Scalar.ofBits (F := Ideal) .f32 0x3F800000#32))) hb) (ix2 p k)
      = Sage.meanOf (s (ix2 p k)) (cnt (ix2 p col)) := by
  rw [divf_apply, colBroadcast_apply, maximumf_apply, slice2_axis1_apply o cnt hs p (0 : Fin 1) col hcol]
  rfl

/-- The hidden layer before its bias at row `p` and column `j` of a row block: the three products added. -/
theorem pay3_apply (x0 x1 x2 : Vec Ideal S4000x32 .f32) (x3 : Vec Ideal S4000x2 .f32) (x4 x5 x6 : Vec Ideal S32x64 .f32) (p : Fin 4000) (j : Fin 64) :
    k0_pay3 x0 x1 x2 x3 x4 x5 x6 (ix2 p j)
      = (∑ k : Fin 32, x0 (ix2 p k) * x4 (ix2 k j)
          + ∑ k : Fin 32, Sage.meanOf (x1 (ix2 p k)) (x3 (ix2 p (0 : Fin 2))) * x5 (ix2 k j))
        + ∑ k : Fin 32, Sage.meanOf (x2 (ix2 p k)) (x3 (ix2 p (1 : Fin 2))) * x6 (ix2 k j) := by
  unfold k0_pay3
  simp only [shapeCast_self, matmul]
  rw [addf_apply, addf_apply, matmul_hid_apply, matmul_hid_apply, matmul_hid_apply]
  refine congrArg₂ (· + ·) (congrArg₂ (· + ·) rfl (Finset.sum_congr rfl fun k _ => ?_)) (Finset.sum_congr rfl fun k _ => ?_)
  · rw [truncf_apply, blockMean_apply 0 x1 x3 _ _ p k (0 : Fin 2) rfl]; rfl
  · rw [truncf_apply, blockMean_apply 1 x2 x3 _ _ p k (1 : Fin 2) rfl]; rfl

/-- The result block at row `p` and class `q`, of the hidden rows before their bias `h`, the bias row `b1`, the output
    weights `w` and the output bias row `b2`: the rectified hidden row against the weights' column, plus the bias. -/
theorem pay1_apply (w : FVec Ideal S64x8 .bf16) (h : FVec Ideal S4000x64 .f32) (b1 : Vec Ideal S1x64 .f32) (b2 : Vec Ideal S1x8 .f32)
    (p : Fin 4000) (q : Fin 8) :
    k0_pay1 w h b1 b2 (ix2 p q)
      = (∑ j : Fin 64, Sage.lrelu (h (ix2 p j) + b1 (ix2 (0 : Fin 1) j)) * w (ix2 j q)) + b2 (ix2 (0 : Fin 1) q) := by
  unfold k0_pay1
  simp only [shapeCast_self, matmul]
  rw [addf_apply, matmul_out_apply, broadcastTo_1b_ab_apply]
  refine congrArg (· + b2 (ix2 (0 : Fin 1) q)) (Finset.sum_congr rfl fun j _ => ?_)
  rw [truncf_apply, select_apply, cmpf_apply, mulf_apply, addf_apply, broadcastTo_1b_ab_apply, broadcast_apply, broadcast_apply]
  unfold Sage.lrelu
  rw [show (Scalar.ofBits (F := Ideal) .f32 0x00000000#32 : EReal) = 0 from Ideal.ofBits_zero_f32]
  rfl

/-- The whole body at row `p` and class `q` of a point's ten blocks. -/
theorem body_apply (x0 x1 x2 : Vec Ideal S4000x32 .f32) (x3 : Vec Ideal S4000x2 .f32) (x4 x5 x6 : Vec Ideal S32x64 .f32)
    (x7 : Vec Ideal S1x64 .f32) (x8 : Vec Ideal S64x8 .f32) (x9 : Vec Ideal S1x8 .f32) (p : Fin 4000) (q : Fin 8) :
    k0_pay1 (k0_pay2 x8) (k0_pay3 x0 x1 x2 x3 x4 x5 x6) x7 x9 (ix2 p q)
      = (∑ j : Fin 64, Sage.lrelu ((((∑ k : Fin 32, x0 (ix2 p k) * x4 (ix2 k j)
            + ∑ k : Fin 32, Sage.meanOf (x1 (ix2 p k)) (x3 (ix2 p (0 : Fin 2))) * x5 (ix2 k j))
          + ∑ k : Fin 32, Sage.meanOf (x2 (ix2 p k)) (x3 (ix2 p (1 : Fin 2))) * x6 (ix2 k j)))
          + x7 (ix2 (0 : Fin 1) j)) * x8 (ix2 j q)) + x9 (ix2 (0 : Fin 1) q) := by
  rw [pay1_apply]
  refine congrArg (· + x9 (ix2 (0 : Fin 1) q)) (Finset.sum_congr rfl fun j _ => ?_)
  rw [pay3_apply]
  rfl

/-! ## From the fifty blocks to the array -/

theorem zeroOffsets2 : (![0, 0] : Fin 2 → Nat) = fun _ => 0 := funext fun a => by fin_cases a <;> rfl

/-- The index maps over the grid: the four row-blocked inputs move with the result's row block, which is the point's
    number; the six whole arrays stay at block (0, 0); no window moves along the columns. -/
theorem gridIndex_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row `p` of point `t`'s block of an array laid out as the product features is the array's row `4000 t + p`. -/
theorem blk0_read (t : Fin cfg0.N) (X : S200000x32.Idx → EReal) (p : Fin 4000) (k : Fin 32) (r : Fin 200000) (hr : r.val = 4000 * t.val + p.val) :
    (((cfg0.win 0).blk t).view.read (Elt Ideal) X : Vec Ideal S4000x32 .f32) (ix2 p k) = X (ix2 r k) := by
  obtain ⟨e10_0, e10_1, e0_0, e0_1, e1_0, e1_1, e2_0, e2_1, e3_0, e3_1, e4_0, e4_1, e5_0, e5_1, e6_0, e6_1, e7_0, e7_1, e8_0, e8_1, e9_0, e9_1⟩ := gridIndex_facts t
  rw [View.read_apply]
  refine congrArg X (funext fun a => Fin.ext ?_)
  match a with
  | ⟨0, _⟩ => show win0_0.index t (0 : Fin 2) * 4000 + 1 * p.val = r.val; omega
  | ⟨1, _⟩ => show win0_0.index t (1 : Fin 2) * 32 + 1 * k.val = k.val; omega

/-- Row `p` of point `t`'s block of an array laid out as the first table of bin sums is the array's row `4000 t + p`. -/
theorem blk1_read (t : Fin cfg0.N) (X : S200000x32.Idx → EReal) (p : Fin 4000) (k : Fin 32) (r : Fin 200000) (hr : r.val = 4000 * t.val + p.val) :
    (((cfg0.win 1).blk t).view.read (Elt Ideal) X : Vec Ideal S4000x32 .f32) (ix2 p k) = X (ix2 r k) := by
  obtain ⟨e10_0, e10_1, e0_0, e0_1, e1_0, e1_1, e2_0, e2_1, e3_0, e3_1, e4_0, e4_1, e5_0, e5_1, e6_0, e6_1, e7_0, e7_1, e8_0, e8_1, e9_0, e9_1⟩ := gridIndex_facts t
  rw [View.read_apply]
  refine congrArg X (funext fun a => Fin.ext ?_)
  match a with
  | ⟨0, _⟩ => show win0_1.index t (0 : Fin 2) * 4000 + 1 * p.val = r.val; omega
  | ⟨1, _⟩ => show win0_1.index t (1 : Fin 2) * 32 + 1 * k.val = k.val; omega

/-- Row `p` of point `t`'s block of an array laid out as the second table of bin sums is the array's row `4000 t + p`. -/
theorem blk2_read (t : Fin cfg0.N) (X : S200000x32.Idx → EReal) (p : Fin 4000) (k : Fin 32) (r : Fin 200000) (hr : r.val = 4000 * t.val + p.val) :
    (((cfg0.win 2).blk t).view.read (Elt Ideal) X : Vec Ideal S4000x32 .f32) (ix2 p k) = X (ix2 r k) := by
  obtain ⟨e10_0, e10_1, e0_0, e0_1, e1_0, e1_1, e2_0, e2_1, e3_0, e3_1, e4_0, e4_1, e5_0, e5_1, e6_0, e6_1, e7_0, e7_1, e8_0, e8_1, e9_0, e9_1⟩ := gridIndex_facts t
  rw [View.read_apply]
  refine congrArg X (funext fun a => Fin.ext ?_)
  match a with
  | ⟨0, _⟩ => show win0_2.index t (0 : Fin 2) * 4000 + 1 * p.val = r.val; omega
  | ⟨1, _⟩ => show win0_2.index t (1 : Fin 2) * 32 + 1 * k.val = k.val; omega

/-- Row `p` of point `t`'s block of an array laid out as the count pairs is the array's row `4000 t + p`. -/
theorem blk3_read (t : Fin cfg0.N) (X : S200000x2.Idx → EReal) (p : Fin 4000) (k : Fin 2) (r : Fin 200000) (hr : r.val = 4000 * t.val + p.val) :
    (((cfg0.win 3).blk t).view.read (Elt Ideal) X : Vec Ideal S4000x2 .f32) (ix2 p k) = X (ix2 r k) := by
  obtain ⟨e10_0, e10_1, e0_0, e0_1, e1_0, e1_1, e2_0, e2_1, e3_0, e3_1, e4_0, e4_1, e5_0, e5_1, e6_0, e6_1, e7_0, e7_1, e8_0, e8_1, e9_0, e9_1⟩ := gridIndex_facts t
  rw [View.read_apply]
  refine congrArg X (funext fun a => Fin.ext ?_)
  match a with
  | ⟨0, _⟩ => show win0_3.index t (0 : Fin 2) * 4000 + 1 * p.val = r.val; omega
  | ⟨1, _⟩ => show win0_3.index t (1 : Fin 2) * 2 + 1 * k.val = k.val; omega

/-- Every point's block of an array laid out as the first weight matrix is the whole array. -/
theorem blk4_read (t : Fin cfg0.N) (X : S32x64.Idx → EReal) (a0 : Fin 32) (a1 : Fin 64) :
    (((cfg0.win 4).blk t).view.read (Elt Ideal) X : Vec Ideal S32x64 .f32) (ix2 a0 a1) = X (ix2 a0 a1) := by
  obtain ⟨e10_0, e10_1, e0_0, e0_1, e1_0, e1_1, e2_0, e2_1, e3_0, e3_1, e4_0, e4_1, e5_0, e5_1, e6_0, e6_1, e7_0, e7_1, e8_0, e8_1, e9_0, e9_1⟩ := gridIndex_facts t
  rw [View.read_apply]
  refine congrArg X (funext fun a => Fin.ext ?_)
  match a with
  | ⟨0, _⟩ => show win0_4.index t (0 : Fin 2) * 32 + 1 * a0.val = a0.val; omega
  | ⟨1, _⟩ => show win0_4.index t (1 : Fin 2) * 64 + 1 * a1.val = a1.val; omega

/-- Every point's block of an array laid out as the second weight matrix is the whole array. -/
theorem blk5_read (t : Fin cfg0.N) (X : S32x64.Idx → EReal) (a0 : Fin 32) (a1 : Fin 64) :
    (((cfg0.win 5).blk t).view.read (Elt Ideal) X : Vec Ideal S32x64 .f32) (ix2 a0 a1) = X (ix2 a0 a1) := by
  obtain ⟨e10_0, e10_1, e0_0, e0_1, e1_0, e1_1, e2_0, e2_1, e3_0, e3_1, e4_0, e4_1, e5_0, e5_1, e6_0, e6_1, e7_0, e7_1, e8_0, e8_1, e9_0, e9_1⟩ := gridIndex_facts t
  rw [View.read_apply]
  refine congrArg X (funext fun a => Fin.ext ?_)
  match a with
  | ⟨0, _⟩ => show win0_5.index t (0 : Fin 2) * 32 + 1 * a0.val = a0.val; omega
  | ⟨1, _⟩ => show win0_5.index t (1 : Fin 2) * 64 + 1 * a1.val = a1.val; omega

/-- Every point's block of an array laid out as the third weight matrix is the whole array. -/
theorem blk6_read (t : Fin cfg0.N) (X : S32x64.Idx → EReal) (a0 : Fin 32) (a1 : Fin 64) :
    (((cfg0.win 6).blk t).view.read (Elt Ideal) X : Vec Ideal S32x64 .f32) (ix2 a0 a1) = X (ix2 a0 a1) := by
  obtain ⟨e10_0, e10_1, e0_0, e0_1, e1_0, e1_1, e2_0, e2_1, e3_0, e3_1, e4_0, e4_1, e5_0, e5_1, e6_0, e6_1, e7_0, e7_1, e8_0, e8_1, e9_0, e9_1⟩ := gridIndex_facts t
  rw [View.read_apply]
  refine congrArg X (funext fun a => Fin.ext ?_)
  match a with
  | ⟨0, _⟩ => show win0_6.index t (0 : Fin 2) * 32 + 1 * a0.val = a0.val; omega
  | ⟨1, _⟩ => show win0_6.index t (1 : Fin 2) * 64 + 1 * a1.val = a1.val; omega

/-- Every point's block of an array laid out as the hidden bias row is the whole array. -/
theorem blk7_read (t : Fin cfg0.N) (X : S1x64.Idx → EReal) (a0 : Fin 1) (a1 : Fin 64) :
    (((cfg0.win 7).blk t).view.read (Elt Ideal) X : Vec Ideal S1x64 .f32) (ix2 a0 a1) = X (ix2 a0 a1) := by
  obtain ⟨e10_0, e10_1, e0_0, e0_1, e1_0, e1_1, e2_0, e2_1, e3_0, e3_1, e4_0, e4_1, e5_0, e5_1, e6_0, e6_1, e7_0, e7_1, e8_0, e8_1, e9_0, e9_1⟩ := gridIndex_facts t
  rw [View.read_apply]
  refine congrArg X (funext fun a => Fin.ext ?_)
  match a with
  | ⟨0, _⟩ => show win0_7.index t (0 : Fin 2) * 1 + 1 * a0.val = a0.val; omega
  | ⟨1, _⟩ => show win0_7.index t (1 : Fin 2) * 64 + 1 * a1.val = a1.val; omega

/-- Every point's block of an array laid out as the output weights is the whole array. -/
theorem blk8_read (t : Fin cfg0.N) (X : S64x8.Idx → EReal) (a0 : Fin 64) (a1 : Fin 8) :
    (((cfg0.win 8).blk t).view.read (Elt Ideal) X : Vec Ideal S64x8 .f32) (ix2 a0 a1) = X (ix2 a0 a1) := by
  obtain ⟨e10_0, e10_1, e0_0, e0_1, e1_0, e1_1, e2_0, e2_1, e3_0, e3_1, e4_0, e4_1, e5_0, e5_1, e6_0, e6_1, e7_0, e7_1, e8_0, e8_1, e9_0, e9_1⟩ := gridIndex_facts t
  rw [View.read_apply]
  refine congrArg X (funext fun a => Fin.ext ?_)
  match a with
  | ⟨0, _⟩ => show win0_8.index t (0 : Fin 2) * 64 + 1 * a0.val = a0.val; omega
  | ⟨1, _⟩ => show win0_8.index t (1 : Fin 2) * 8 + 1 * a1.val = a1.val; omega

/-- Every point's block of an array laid out as the output bias row is the whole array. -/
theorem blk9_read (t : Fin cfg0.N) (X : S1x8.Idx → EReal) (a0 : Fin 1) (a1 : Fin 8) :
    (((cfg0.win 9).blk t).view.read (Elt Ideal) X : Vec Ideal S1x8 .f32) (ix2 a0 a1) = X (ix2 a0 a1) := by
  obtain ⟨e10_0, e10_1, e0_0, e0_1, e1_0, e1_1, e2_0, e2_1, e3_0, e3_1, e4_0, e4_1, e5_0, e5_1, e6_0, e6_1, e7_0, e7_1, e8_0, e8_1, e9_0, e9_1⟩ := gridIndex_facts t
  rw [View.read_apply]
  refine congrArg X (funext fun a => Fin.ext ?_)
  match a with
  | ⟨0, _⟩ => show win0_9.index t (0 : Fin 2) * 1 + 1 * a0.val = a0.val; omega
  | ⟨1, _⟩ => show win0_9.index t (1 : Fin 2) * 8 + 1 * a1.val = a1.val; omega

/-- Row `p` and class `q` of what the body makes of point `t`'s blocks of ten arrays is `Sage.kerG` of the arrays at row
    `4000 t + p`: each block entry is the array's entry of that row, or of the whole weight and bias arrays. -/
theorem block_apply (t : Fin cfg0.N) (A0 A1 A2 : Sage.Arr2 200000 32) (A3 : Sage.Arr2 200000 2) (A4 A5 A6 : Sage.Arr2 32 64)
    (A7 : Sage.Arr2 1 64) (A8 : Sage.Arr2 64 8) (A9 : Sage.Arr2 1 8) (p : Fin 4000) (q : Fin 8) (r : Fin 200000) (hr : r.val = 4000 * t.val + p.val) :
    k0_pay1 (k0_pay2 (((cfg0.win 8).blk t).view.read (Elt Ideal) A8))
        (k0_pay3 (((cfg0.win 0).blk t).view.read (Elt Ideal) A0) (((cfg0.win 1).blk t).view.read (Elt Ideal) A1) (((cfg0.win 2).blk t).view.read (Elt Ideal) A2) (((cfg0.win 3).blk t).view.read (Elt Ideal) A3)
          (((cfg0.win 4).blk t).view.read (Elt Ideal) A4) (((cfg0.win 5).blk t).view.read (Elt Ideal) A5) (((cfg0.win 6).blk t).view.read (Elt Ideal) A6))
        (((cfg0.win 7).blk t).view.read (Elt Ideal) A7) (((cfg0.win 9).blk t).view.read (Elt Ideal) A9) (ix2 p q)
      = Sage.kerG A0 A1 A2 A3 A4 A5 A6 A7 A8 A9 (ix2 r q) := by
  refine (body_apply _ _ _ _ _ _ _ _ _ _ p q).trans ?_
  show _ = (∑ j : Fin 64, Sage.lrelu (Sage.kerHid A0 A1 A2 A3 A4 A5 A6 A7 r j) * A8 (ix2 j q)) + A9 (ix2 (0 : Fin 1) q)
  refine congrArg₂ (· + ·) (Finset.sum_congr rfl fun j _ => ?_) (blk9_read t A9 0 q)
  refine congrArg₂ (· * ·) (congrArg Sage.lrelu ?_) (blk8_read t A8 j q)
  unfold Sage.kerHid
  refine congrArg₂ (· + ·) (congrArg₂ (· + ·) (congrArg₂ (· + ·) (Finset.sum_congr rfl fun k _ => ?_) (Finset.sum_congr rfl fun k _ => ?_)) (Finset.sum_congr rfl fun k _ => ?_)) (blk7_read t A7 0 j)
  · exact congrArg₂ (· * ·) (blk0_read t A0 p k r hr) (blk4_read t A4 k j)
  · exact congrArg₂ (· * ·) (congrArg₂ Sage.meanOf (blk1_read t A1 p k r hr) (blk3_read t A3 p 0 r hr)) (blk5_read t A5 k j)
  · exact congrArg₂ (· * ·) (congrArg₂ Sage.meanOf (blk2_read t A2 p k r hr) (blk3_read t A3 p 1 r hr)) (blk6_read t A6 k j)

/-- So what the body makes of point `t`'s blocks, cut to the result window's block, is block `t` of `Sage.kerG` of the arrays. -/
theorem cut_block_eq (t : Fin cfg0.N) (A0 A1 A2 : Sage.Arr2 200000 32) (A3 : Sage.Arr2 200000 2) (A4 A5 A6 : Sage.Arr2 32 64)
    (A7 : Sage.Arr2 1 64) (A8 : Sage.Arr2 64 8) (A9 : Sage.Arr2 1 8) :
    (cfg0.win 10).cut (grid0.coords t) (k0_pay1 (k0_pay2 (((cfg0.win 8).blk t).view.read (Elt Ideal) A8))
        (k0_pay3 (((cfg0.win 0).blk t).view.read (Elt Ideal) A0) (((cfg0.win 1).blk t).view.read (Elt Ideal) A1) (((cfg0.win 2).blk t).view.read (Elt Ideal) A2) (((cfg0.win 3).blk t).view.read (Elt Ideal) A3)
          (((cfg0.win 4).blk t).view.read (Elt Ideal) A4) (((cfg0.win 5).blk t).view.read (Elt Ideal) A5) (((cfg0.win 6).blk t).view.read (Elt Ideal) A6))
        (((cfg0.win 7).blk t).view.read (Elt Ideal) A7) (((cfg0.win 9).blk t).view.read (Elt Ideal) A9))
      = ((cfg0.win 10).blk t).view.read (Elt Ideal) (Sage.kerG A0 A1 A2 A3 A4 A5 A6 A7 A8 A9) := by
  funext j
  obtain ⟨p, q, rfl⟩ : ∃ (p : Fin 4000) (q : Fin 8), j = ix2 p q := ⟨j 0, j 1, eq_ix2 j⟩
  have hp : p.val < 4000 := p.isLt
  have ht : t.val < 50 := lt_of_lt_of_eq t.isLt N_0
  obtain ⟨e10_0, e10_1, -⟩ := gridIndex_facts t
  have he : ((cfg0.win 10).blk t).view.emb (ix2 p q) = ix2 (⟨4000 * t.val + p.val, by omega⟩ : Fin 200000) q := by
    funext a; apply Fin.ext
    match a with
    | ⟨0, _⟩ => show win0_10.index t (0 : Fin 2) * 4000 + 1 * p.val = 4000 * t.val + p.val; omega
    | ⟨1, _⟩ => show win0_10.index t (1 : Fin 2) * 8 + 1 * q.val = q.val; omega
  show k0_pay1 (F := Ideal) _ _ _ _ (ix2 p q) = Sage.kerG A0 A1 A2 A3 A4 A5 A6 A7 A8 A9 (((cfg0.win 10).blk t).view.emb (ix2 p q))
  rw [he]
  exact block_apply t A0 A1 A2 A3 A4 A5 A6 A7 A8 A9 p q _ rfl

/-- WHAT POINT `t` WRITES BACK is block `t` of `Sage.kerG` of the ten arrays the region finds. -/
theorem flushed10_eq (c : Dev nD) (t : Fin cfg0.N) :
    (dats m 0 c).flushed 10 t = ((cfg0.win 10).blk t).view.read (Elt Ideal)
      (Sage.kerG (V m c main_arg0) (V m c main_v16) (V m c main_v34) (V m c main_v36) (V m c main_v39) (V m c main_v41) (V m c main_v43) (V m c main_v47) (V m c main_arg23) (V m c main_v48)) := by
  rw [Value.flushed10]
  unfold out0_10
  rw [View.canon_unit_zero zeroOffsets2]
  simp only [View.ld_unit_zero (S := S4000x32) zeroOffsets2, View.ld_unit_zero (S := S4000x2) zeroOffsets2, View.ld_unit_zero (S := S32x64) zeroOffsets2,
    View.ld_unit_zero (S := S64x8) zeroOffsets2, View.ld_unit_zero (S := S1x64) zeroOffsets2, View.ld_unit_zero (S := S1x8) zeroOffsets2]
  exact cut_block_eq t (V m c main_arg0) (V m c main_v16) (V m c main_v34) (V m c main_v36) (V m c main_v39) (V m c main_v41) (V m c main_v43) (V m c main_v47) (V m c main_arg23) (V m c main_v48)

/-- An index of the result array is in point `t`'s block iff each coordinate is in the block's range on its axis. -/
theorem mem_blk10 (t : Fin cfg0.N) (i : S200000x8.Idx) :
    i ∈ ((cfg0.win 10).blk t).view.set ↔ ∀ a : Fin 2, win0_10.index t a * S4000x8.size a ≤ (i a).val ∧ (i a).val < win0_10.index t a * S4000x8.size a + S4000x8.size a := by
  show i ∈ ((View.whole main_v49).slice (win0_10.rect t)).set ↔ _
  rw [View.set_slice_whole, Rect.mem_set_unit]
  exact Iff.rfl

/-- The fifty row blocks cover the result array: row `r` lies in the block of point `r / 4000`. -/
theorem cover10 (i : S200000x8.Idx) : ∃ t : Fin cfg0.N, (cfg0.win 10).flush t = true ∧ i ∈ ((cfg0.win 10).blk t).view.set := by
  have hi0 : (i 0).val < 200000 := (i 0).isLt
  have hi1 : (i 1).val < 8 := (i 1).isLt
  have hN : cfg0.N = 50 := N_0
  obtain ⟨t, ht⟩ : ∃ t : Fin cfg0.N, t.val = (i 0).val / 4000 := ⟨⟨(i 0).val / 4000, by rw [hN]; omega⟩, rfl⟩
  obtain ⟨e10_0, e10_1, -⟩ := gridIndex_facts t
  refine ⟨t, flush0_10 t, ?_⟩
  rw [mem_blk10]
  intro a
  match a with
  | ⟨0, _⟩ => show win0_10.index t (0 : Fin 2) * 4000 ≤ (i 0).val ∧ (i 0).val < win0_10.index t (0 : Fin 2) * 4000 + 4000; omega
  | ⟨1, _⟩ => show win0_10.index t (1 : Fin 2) * 8 ≤ (i 1).val ∧ (i 1).val < win0_10.index t (1 : Fin 2) * 8 + 8; omega

/-- The whole result array is `Sage.kerG` of the ten arrays the region finds. -/
theorem final10 (c : Dev nD) :
    (dats m 0 c).arrAt 10 cfg0.N
      = Sage.kerG (V m c main_arg0) (V m c main_v16) (V m c main_v34) (V m c main_v36) (V m c main_v39) (V m c main_v41) (V m c main_v43) (V m c main_v47) (V m c main_arg23) (V m c main_v48) :=
  (dats m 0 c).arrAt_eq_of_cover 10
    (Sage.kerG (V m c main_arg0) (V m c main_v16) (V m c main_v34) (V m c main_v36) (V m c main_v39) (V m c main_v41) (V m c main_v43) (V m c main_v47) (V m c main_arg23) (V m c main_v48))
    (fun t _ => flushed10_eq m c t) cover10

/-- The run, its result named. -/
theorem run_final :
    θ_run defs (onTc (τ := τ) (main (F := Ideal))) ⟨m, fun _ => 0, ρ⟩ fun r => ∀ c : Dev nD,
      r.2.mem ((c : Thread nD τ).loc main_v49)
        = Sage.kerG (V m c main_arg0) (V m c main_v16) (V m c main_v34) (V m c main_v36) (V m c main_v39) (V m c main_v41) (V m c main_v43) (V m c main_v47) (V m c main_arg23) (V m c main_v48)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨(h c).1.trans (final10 m c), (h c).2⟩) (Value.run_blocks m ρ)

end Cert.KernelIdeal.Hand

end
-- ==== Proof.KerHost.lean ====
/-
  The arrays the kernel's @main hands to its pallas_call, as the region finds them, are the composed host terms
  `kv16` … `kv48` of the arguments' launch contents.
-/
import proofs.«400680_j71004399338031_3_alg».proof.Proof.KernelIdealFrameP
import proofs.«400680_j71004399338031_3_alg».proof.Proof.KerTerm
import Idealize.ShloMosaic.Lib.StableHlo.Run

noncomputable section

namespace Cert.KernelIdeal.Hand

open Cert.KernelIdeal Cert.KernelIdeal.Gen Idealize.ShloMosaic Idealize.ShloMosaic.TcCoe Idealize.SL.Sem

variable {F : FTy → Type} [FloatOps F]

-- the row lookup and the row accumulation stay closed: the two sides meet as the same applications of them
attribute [local irreducible] Host.gather Host.scatterAdd

variable (m : (ℓ : Loc nD τ sig) → Buf (Elt F) ℓ)

set_option maxHeartbeats 4000000 in
theorem V_v16 (c : Dev nD) : V m c main_v16 = kv16 (m ((c : Thread nD τ).loc main_arg1)) (m ((c : Thread nD τ).loc main_arg4)) := by
  dsimp only [V, hostOps0]
  after_results_simp
  rfl
set_option maxHeartbeats 4000000 in
theorem V_v34 (c : Dev nD) : V m c main_v34 = kv34 (m ((c : Thread nD τ).loc main_arg0)) (m ((c : Thread nD τ).loc main_arg7)) := by
  dsimp only [V, hostOps0]
  after_results_simp
  rfl
set_option maxHeartbeats 4000000 in
theorem V_v36 (c : Dev nD) : V m c main_v36 = kv36 (m ((c : Thread nD τ).loc main_arg0)) (m ((c : Thread nD τ).loc main_arg1)) (m ((c : Thread nD τ).loc main_arg4)) (m ((c : Thread nD τ).loc main_arg7)) := by
  dsimp only [V, hostOps0]
  after_results_simp
  rfl
set_option maxHeartbeats 4000000 in
theorem V_v39 (c : Dev nD) : V m c main_v39 = kv39 (m ((c : Thread nD τ).loc main_arg13)) (m ((c : Thread nD τ).loc main_arg22)) := by
  dsimp only [V, hostOps0]
  after_results_simp
  rfl
set_option maxHeartbeats 4000000 in
theorem V_v41 (c : Dev nD) : V m c main_v41 = kv41 (m ((c : Thread nD τ).loc main_arg11)) := by
  dsimp only [V, hostOps0]
  after_results_simp
  rfl
set_option maxHeartbeats 4000000 in
theorem V_v43 (c : Dev nD) : V m c main_v43 = kv43 (m ((c : Thread nD τ).loc main_arg20)) := by
  dsimp only [V, hostOps0]
  after_results_simp
  rfl
set_option maxHeartbeats 4000000 in
theorem V_v47 (c : Dev nD) : V m c main_v47 = kv47 (m ((c : Thread nD τ).loc main_arg12)) (m ((c : Thread nD τ).loc main_arg21)) := by
  dsimp only [V, hostOps0]
  after_results_simp
  rfl
set_option maxHeartbeats 4000000 in
theorem V_v48 (c : Dev nD) : V m c main_v48 = kv48 (m ((c : Thread nD τ).loc main_arg24)) := by
  dsimp only [V, hostOps0]
  after_results_simp
  rfl

end Cert.KernelIdeal.Hand

end
-- ==== Proof.LibGatherRows.lean ====
/-
  A two-axis table gathered along its FIRST axis by a COLUMN of start indices, read at an index.

  `x[idx]` of `x : [N, B]` at `idx : [R]` lowers to a gather whose start indices are the `[R, 1]` column of `idx`
  and whose result `[R, B]` has one offset axis (the last, running over the table's second axis); the table's first
  axis is collapsed and indexed by the start index. The result element at `(r, b)` is the table's element at row
  `idx[r, 0]`, read as a signed integer and clamped into `[0, N - 1]`, and column `b`.
-/
import Idealize.ShloMosaic.Lib.ValueIdx

noncomputable section

namespace Idealize.ShloMosaic.GatherRows

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole rows by a column of start indices. -/
abbrev colDims (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- On the indexed axis the operand index is the clamped start index. -/
theorem col_axis0 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 0).val
      = min (idx (ix2 (j 0) (0 : Fin 1))).toInt.toNat (N - 1) := by
  show (colDims N B R wf).start j idx 0 + (colDims N B R wf).batchCoord j 0 + (colDims N B R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (colDims N B R wf).startIndexMap from List.mem_singleton.mpr rfl)]
  have hsi : (colDims N B R wf).siIdx j ⟨List.idxOf (0 : Fin 2) (colDims N B R wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the other axis it is the result's offset coordinate. -/
theorem col_axis1 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 1).val = (j 1).val := by
  show (colDims N B R wf).start j idx 1 + (colDims N B R wf).batchCoord j 1 + (colDims N B R wf).offCoord j 1 = _
  rw [GatherDims.batchCoord_eq_zero _ _ _ List.not_mem_nil]
  unfold GatherDims.start
  rw [dif_neg (show ¬ (1 : Fin 2) ∈ (colDims N B R wf).startIndexMap from
    fun h => absurd (List.mem_singleton.mp h) (by decide : ¬ (1 : Fin 2) = 0))]
  unfold GatherDims.offCoord
  rw [dif_pos (show (1 : Fin 2) ∈ (colDims N B R wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, b)`: the table at row `idx[r, 0]` (signed, clamped) and column `b`. -/
theorem gather_col_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (j : (⟨2, ![R, B]⟩ : Shape).Idx) :
    Host.gather (colDims N B R wf) x idx j
      = x (ix2 (clampPos N hN (idx (ix2 (j 0) (0 : Fin 1)))) (j 1)) := by
  unfold Host.gather
  refine congrArg x (funext fun a => Fin.ext ?_)
  match a with
  | ⟨0, _⟩ => exact col_axis0 wf idx j
  | ⟨1, _⟩ => exact col_axis1 wf idx j

end Idealize.ShloMosaic.GatherRows

end
-- ==== Proof.LibScatterAddRows.lean ====
/-
  An accumulating float scatter of N whole rows into a two-axis table of K rows, read at an element, over the
  extended reals.

  `x.at[idx].add(upd)` of a table `x : [K, B]` with one row index per update (`idx : [N, 1]`, `upd : [N, B]`; also what
  `jax.ops.segment_sum` of a two-axis array lowers to) prints as a scatter whose first operand axis is inserted and
  indexed by the start index, and whose second operand axis is the update's one window axis. At the ideal instance
  the result at `(b, c)` is the operand's element plus the sum over the updates `i` whose index word, read as a signed
  integer, is `b`, of the update's element `(i, c)`; an update whose index is negative or at least K lands nowhere.

  The steps, each a lemma of its own. On the first operand axis the start of update element `(i, c')` is the signed
  index word of row `i` (`rowsDims_start0`) and the window coordinate is 0, the axis being inserted
  (`rowsDims_window0`); on the second axis the start is 0, the start index naming the first axis only
  (`rowsDims_start1`), and the window coordinate is `c'` (`rowsDims_window1`). So update element `(i, c')` lands on
  `(b, c)` exactly when the signed word of row `i` equals `b` and `c' = c` (`rowsDims_resultIdx?_eq_some_iff`). The sum
  over the update elements landing on `(b, c)`, written as a double sum over the coordinates (`sum_idx2`), then keeps
  one term of the inner sum, and what is left is a sum over the rows `i` alone.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-- The dimension numbers of a scatter of N rows into a table of K rows: operand `[K, B]`, indices `[N, 1]`,
    updates `[N, B]`. -/
abbrev rowsDims (K B N : Nat)
    (wf : ScatterDims.WF ⟨2, ![K, B]⟩ ⟨2, ![N, 1]⟩ ⟨2, ![N, B]⟩ [1] [0] [0] 1) :
    ScatterDims ⟨2, ![K, B]⟩ ⟨2, ![N, 1]⟩ ⟨2, ![N, B]⟩ where
  updateWindowDims := [1]
  insertedWindowDims := [0]
  scatterDimsToOperandDims := [0]
  indexVectorDim := 1
  wf := wf

/-- A property of the two axes holds of every axis once it holds of each. -/
theorem forall_axis2 {P : Fin 2 → Prop} (h0 : P 0) (h1 : P 1) : ∀ a, P a := by
  intro a
  match a with
  | ⟨0, _⟩ => exact h0
  | ⟨1, _⟩ => exact h1

/-- Two two-axis indices with the same two coordinates are equal. -/
theorem idx2_ext {n0 n1 : Nat} {f g : (⟨2, ![n0, n1]⟩ : Shape).Idx}
    (h0 : f 0 = g 0) (h1 : f 1 = g 1) : f = g := by
  rw [eq_ix2 f, eq_ix2 g, h0, h1]

/-- The operand's one axis that is not inserted is the second. -/
theorem rowsDims_sKept {K B N : Nat}
    (wf : ScatterDims.WF ⟨2, ![K, B]⟩ ⟨2, ![N, 1]⟩ ⟨2, ![N, B]⟩ [1] [0] [0] 1) :
    (rowsDims K B N wf).sKept = [1] := rfl

/-- The start of an update element on the first operand axis is the index word of its row, read as a signed integer:
    the start index's only component sits at `[j 0, 0]` of the scatter indices. -/
theorem rowsDims_start0 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 0 = (idx (ix2 (j 0) (0 : Fin 1))).toInt := by
  unfold ScatterDims.start
  rw [dif_pos (show (0 : Fin 2) ∈ (rowsDims K B N wf).scatterDimsToOperandDims from List.mem_singleton.mpr rfl)]
  have hsi : (rowsDims K B N wf).siIdx j ⟨List.idxOf (0 : Fin 2) (rowsDims K B N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The start index names the first operand axis only, so on the second axis every start is `0`. -/
theorem rowsDims_start1 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 1 = 0 := by
  unfold ScatterDims.start
  rw [dif_neg (show ¬ (1 : Fin 2) ∈ (rowsDims K B N wf).scatterDimsToOperandDims from
    fun h => absurd (List.mem_singleton.mp h) (by decide : ¬ (1 : Fin 2) = 0))]

/-- The first operand axis is an inserted window axis, so every update element's window coordinate on it is `0`. -/
theorem rowsDims_window0 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 0 = 0 := by
  unfold ScatterDims.window
  rw [dif_neg]
  rw [rowsDims_sKept]
  exact (by decide : ¬ (0 : Fin 2) ∈ [1])

/-- The second operand axis is the one kept axis, so the window coordinate on it is the update element's coordinate
    on its one window axis, the second. -/
theorem rowsDims_window1 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 1 = (j 1).val := by
  unfold ScatterDims.window
  rw [dif_pos (show (1 : Fin 2) ∈ (rowsDims K B N wf).sKept by
    rw [rowsDims_sKept]; exact (by decide : (1 : Fin 2) ∈ [1]))]
  rfl

/-- Update element `(i, c')` lands on `(b, c)` exactly when the index word of row `i`, read as a signed integer,
    is `b`, and `c' = c`: a word that is negative or at least `K` names no row of the operand, and the update
    is dropped. -/
theorem rowsDims_resultIdx?_eq_some_iff {K B N w : Nat}
    (wf : ScatterDims.WF ⟨2, ![K, B]⟩ ⟨2, ![N, 1]⟩ ⟨2, ![N, B]⟩ [1] [0] [0] 1)
    (idx : IVec ⟨2, ![N, 1]⟩ w) (i : Fin N) (c' : Fin B) (b : Fin K) (c : Fin B) :
    (rowsDims K B N wf).resultIdx? (ix2 i c') idx = some (ix2 b c)
      ↔ (idx (ix2 i (0 : Fin 1))).toInt = (b.val : Int) ∧ c' = c := by
  have hb : b.val < K := b.isLt
  have hc' : c'.val < B := c'.isLt
  have p0 : (rowsDims K B N wf).start (ix2 i c') idx 0 + ((rowsDims K B N wf).window (ix2 i c') 0 : Int)
      = (idx (ix2 i (0 : Fin 1))).toInt := by
    rw [rowsDims_start0, rowsDims_window0]; exact Int.add_zero _
  have p1 : (rowsDims K B N wf).start (ix2 i c') idx 1 + ((rowsDims K B N wf).window (ix2 i c') 1 : Int)
      = (c'.val : Int) := by
    rw [rowsDims_start1, rowsDims_window1]; exact Int.zero_add _
  unfold ScatterDims.resultIdx?
  split_ifs with h
  · rw [Option.some.injEq]
    constructor
    · intro e
      have e0 := congrArg (fun f => (f 0).val) e
      have e1 := congrArg (fun f => (f 1).val) e
      change ((rowsDims K B N wf).start (ix2 i c') idx 0
        + ((rowsDims K B N wf).window (ix2 i c') 0 : Int)).toNat = b.val at e0
      change ((rowsDims K B N wf).start (ix2 i c') idx 1
        + ((rowsDims K B N wf).window (ix2 i c') 1 : Int)).toNat = c.val at e1
      have h0 := (h 0).1
      rw [p0] at e0 h0
      rw [p1] at e1
      exact ⟨by omega, Fin.ext (by omega)⟩
    · rintro ⟨e, rfl⟩
      refine idx2_ext (Fin.ext ?_) (Fin.ext ?_)
      · change ((rowsDims K B N wf).start (ix2 i c') idx 0
          + ((rowsDims K B N wf).window (ix2 i c') 0 : Int)).toNat = b.val
        rw [p0]; omega
      · change ((rowsDims K B N wf).start (ix2 i c') idx 1
          + ((rowsDims K B N wf).window (ix2 i c') 1 : Int)).toNat = c'.val
        rw [p1]; omega
  · constructor
    · intro e; exact absurd e (by simp)
    · rintro ⟨e, rfl⟩
      exfalso
      apply h
      refine forall_axis2 ?_ ?_
      · rw [p0]
        change 0 ≤ (idx (ix2 i (0 : Fin 1))).toInt ∧ (idx (ix2 i (0 : Fin 1))).toInt < (K : Int)
        omega
      · rw [p1]
        change 0 ≤ (c'.val : Int) ∧ (c'.val : Int) < (B : Int)
        omega

/-- THE SUM OF ROWS AT `(b, c)`: the operand's element plus the sum, over the updates whose index word is `b`, of the
    update's element `(i, c)`. -/
theorem scatterAdd_rows_apply {K B N w : Nat}
    (wf : ScatterDims.WF ⟨2, ![K, B]⟩ ⟨2, ![N, 1]⟩ ⟨2, ![N, B]⟩ [1] [0] [0] 1)
    (x : (⟨2, ![K, B]⟩ : Shape).Idx → EReal) (idx : IVec ⟨2, ![N, 1]⟩ w)
    (upd : (⟨2, ![N, B]⟩ : Shape).Idx → EReal) (b : Fin K) (c : Fin B) :
    Ideal.hostScatterAdd (rowsDims K B N wf) x idx upd (ix2 b c)
      = x (ix2 b c) + ∑ i : Fin N, if (idx (ix2 i (0 : Fin 1))).toInt = (b.val : Int) then upd (ix2 i c) else 0 := by
  unfold Ideal.hostScatterAdd
  refine congrArg (x (ix2 b c) + ·) ?_
  rw [Finset.sum_filter, sum_idx2]
  refine Finset.sum_congr rfl fun i _ => ?_
  have hc : ∀ c' : Fin B, c' ≠ c →
      (if (rowsDims K B N wf).resultIdx? (ix2 i c') idx = some (ix2 b c)
        then upd (ix2 i c') else 0) = 0 := fun c' hc' =>
    if_neg fun h => hc' ((rowsDims_resultIdx?_eq_some_iff wf idx i c' b c).mp h).2
  rw [Fintype.sum_eq_single c hc]
  exact if_congr ((rowsDims_resultIdx?_eq_some_iff wf idx i c b c).trans
    ⟨fun h => h.1, fun h => ⟨h, rfl⟩⟩) rfl rfl

end Idealize.ShloMosaic.ScatterAddRows

end
-- ==== Proof.KerValue.lean ====
/-
  The kernel's whole-array function `Sage.kerG`, at the host terms its @main computes for the pallas_call, is the
  specification `Sage.resK` of the arguments: the two tables of bin sums and the count pairs are `Sage.segSum` and
  `Sage.segCnt` over the edge columns (the ones column appended to the source table carries the count through the same
  gather and scatter), and the halved weights and biases are the half folded into `Sage.hidK`.
-/
import proofs.«400680_j71004399338031_3_alg».proof.Proof.KerTerm
import proofs.«400680_j71004399338031_3_alg».proof.Proof.Spec
import proofs.«400680_j71004399338031_3_alg».proof.Proof.LibGatherRows
import proofs.«400680_j71004399338031_3_alg».proof.Proof.LibScatterAddRows
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Hand

open Cert.KernelIdeal Cert.KernelIdeal.Gen Idealize.ShloMosaic Idealize.ShloMosaic.ValueIdx

open scoped BigOperators
open Idealize.ShloMosaic.GatherRows Idealize.ShloMosaic.ScatterAddRows

/-! ## The edge columns -/

/-- The second row of an edge list, read as a vector and stood up as a column, is the column of destination words. -/
theorem dstCol_eq {E : Nat} (e : IVec ⟨2, ![2, E]⟩ 32)
    (hs : (⟨2, ![2, E]⟩ : Shape).Slices ![1, 0] ⟨2, ![1, E]⟩)
    (hc : (⟨2, ![1, E]⟩ : Shape).ShapeCasts ⟨1, ![E]⟩)
    (hb : (⟨1, ![E]⟩ : Shape).BroadcastsInDim ⟨2, ![E, 1]⟩ (![0] : Fin 1 → Fin 2)) :
    broadcastInDim ⟨2, ![E, 1]⟩ (![0] : Fin 1 → Fin 2) hb
        (shapeCast ⟨1, ![E]⟩ (extractStridedSlice ⟨2, ![1, E]⟩ ![1, 0] e hs) hc)
      = Sage.dstCol e := by
  funext j
  obtain ⟨p, q, rfl⟩ : ∃ (p : Fin E) (q : Fin 1), j = ix2 p q := ⟨j 0, j 1, eq_ix2 j⟩
  refine (broadcastInDim_apply _ hb _ (ix2 p q) (ix1 p) fun a => ?_).trans ?_
  · match a with
    | ⟨0, _⟩ =>
      show p.val = if E = 1 then 0 else p.val
      split
      · have := p.isLt; omega
      · rfl
  refine (shapeCast_1a_a_apply _ hc p).trans ?_
  exact slice2_axis0_apply 1 e hs (0 : Fin 1) p (1 : Fin 2) rfl

/-- The first row of an edge list, read as a vector, each negative word moved up by the table's height, and stood up as
    a column, is the column of source words. -/
theorem srcCol_eq {E : Nat} (Nw : BitVec 32) (e : IVec ⟨2, ![2, E]⟩ 32)
    (hs : (⟨2, ![2, E]⟩ : Shape).Slices ![0, 0] ⟨2, ![1, E]⟩)
    (hc : (⟨2, ![1, E]⟩ : Shape).ShapeCasts ⟨1, ![E]⟩)
    (hz : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2)) :
    broadcastInDim ⟨2, ![E, 1]⟩ (![0] : Fin 1 → Fin 2) hb
        (select
          (cmpi .slt (shapeCast ⟨1, ![E]⟩ (extractStridedSlice ⟨2, ![1, E]⟩ ![0, 0] e hs) hc)
            (broadcastInDim ⟨1, ![E]⟩ (![] : Fin 0 → Fin 1) hz (constantI ⟨0, ![]⟩ 32 0#32)))
          (addi (shapeCast ⟨1, ![E]⟩ (extractStridedSlice ⟨2, ![1, E]⟩ ![0, 0] e hs) hc)
            (broadcastInDim ⟨1, ![E]⟩ (![] : Fin 0 → Fin 1) hz (constantI ⟨0, ![]⟩ 32 Nw)))
          (shapeCast ⟨1, ![E]⟩ (extractStridedSlice ⟨2, ![1, E]⟩ ![0, 0] e hs) hc))
      = Sage.srcCol Nw e := by
  funext j
  obtain ⟨p, q, rfl⟩ : ∃ (p : Fin E) (q : Fin 1), j = ix2 p q := ⟨j 0, j 1, eq_ix2 j⟩
  refine (broadcastInDim_apply _ hb _ (ix2 p q) (ix1 p) fun a => ?_).trans ?_
  · match a with
    | ⟨0, _⟩ =>
      show p.val = if E = 1 then 0 else p.val
      split
      · have := p.isLt; omega
      · rfl
  have hv : shapeCast ⟨1, ![E]⟩ (extractStridedSlice ⟨2, ![1, E]⟩ ![0, 0] e hs) hc (ix1 p) = e (ix2 (0 : Fin 2) p) :=
    (shapeCast_1a_a_apply _ hc p).trans (slice2_axis0_apply 0 e hs (0 : Fin 1) p (0 : Fin 2) rfl)
  show Scalar.select (IntOp.cmpi .slt
      (shapeCast ⟨1, ![E]⟩ (extractStridedSlice ⟨2, ![1, E]⟩ ![0, 0] e hs) hc (ix1 p)) 0#32)
      (IntOp.addi (shapeCast ⟨1, ![E]⟩ (extractStridedSlice ⟨2, ![1, E]⟩ ![0, 0] e hs) hc (ix1 p)) Nw)
      (shapeCast ⟨1, ![E]⟩ (extractStridedSlice ⟨2, ![1, E]⟩ ![0, 0] e hs) hc (ix1 p)) = _
  rw [hv]
  rfl

/-! ## The source table with its ones column, gathered by the source column -/

/-- A gathered row at one of its first 32 entries: the source table at the clamped source row and that column. -/
theorem gathered_lt {N E : Nat} (hN : 0 < N) (x : Sage.Arr2 N 32) (si : Sage.Col E)
    (ho : (⟨0, ![]⟩ : Shape).BroadcastsInDim ⟨2, ![N, 1]⟩ (![] : Fin 0 → Fin 2))
    (hcat : Shape.Concatenates [(⟨2, ![N, 32]⟩ : Shape), ⟨2, ![N, 1]⟩] ⟨2, ![N, 33]⟩ 1)
    (gwf : GatherDims.WF ⟨2, ![N, 33]⟩ ⟨2, ![E, 1]⟩ ⟨2, ![E, 33]⟩ [1] [0] [] [0] [] 1 ![1, 33])
    (i : Fin E) (c : Fin 33) (k : Fin 32) (hk : k.val = c.val) :
    Host.gather (colDims N 33 E gwf)
        (concatenate ⟨2, ![N, 33]⟩ 1 [⟨⟨2, ![N, 32]⟩, x⟩,
          ⟨⟨2, ![N, 1]⟩, broadcastInDim ⟨2, ![N, 1]⟩ (![] : Fin 0 → Fin 2) ho (constant (F := Ideal) ⟨0, ![]⟩ .f32 0x3F800000#32)⟩] hcat)
        si (ix2 i c)
      = x (ix2 (Sage.rowOf N hN (si (ix2 i (0 : Fin 1)))) k) := by
  refine (gather_col_apply hN gwf _ si (ix2 i c)).trans ?_
  refine concatenate_pair_apply_left (t := ⟨2, ![N, 33]⟩) (s₁ := ⟨2, ![N, 32]⟩) (s₂ := ⟨2, ![N, 1]⟩) 1 x _ hcat _ rfl (ix2 (Sage.rowOf N hN (si (ix2 i (0 : Fin 1)))) k) fun b => ?_
  match b with
  | ⟨0, _⟩ => rfl
  | ⟨1, _⟩ => exact hk

/-- A gathered row at its 33rd entry: the ones column's entry, the float one, whichever row was gathered. -/
theorem gathered_last {N E : Nat} (hN : 0 < N) (x : Sage.Arr2 N 32) (si : Sage.Col E)
    (ho : (⟨0, ![]⟩ : Shape).BroadcastsInDim ⟨2, ![N, 1]⟩ (![] : Fin 0 → Fin 2))
    (hcat : Shape.Concatenates [(⟨2, ![N, 32]⟩ : Shape), ⟨2, ![N, 1]⟩] ⟨2, ![N, 33]⟩ 1)
    (gwf : GatherDims.WF ⟨2, ![N, 33]⟩ ⟨2, ![E, 1]⟩ ⟨2, ![E, 33]⟩ [1] [0] [] [0] [] 1 ![1, 33])
    (i : Fin E) (c : Fin 33) (hc : c.val = 32) :
    Host.gather (colDims N 33 E gwf)
        (concatenate ⟨2, ![N, 33]⟩ 1 [⟨⟨2, ![N, 32]⟩, x⟩,
          ⟨⟨2, ![N, 1]⟩, broadcastInDim ⟨2, ![N, 1]⟩ (![] : Fin 0 → Fin 2) ho (constant (F := Ideal) ⟨0, ![]⟩ .f32 0x3F800000#32)⟩] hcat)
        si (ix2 i c)
      = Sage.one := by
  refine (gather_col_apply hN gwf _ si (ix2 i c)).trans ?_
  refine (concatenate_pair_apply_right (t := ⟨2, ![N, 33]⟩) (s₁ := ⟨2, ![N, 32]⟩) (s₂ := ⟨2, ![N, 1]⟩) 1 x _ hcat _ rfl rfl
    (ix2 (Sage.rowOf N hN (si (ix2 i (0 : Fin 1)))) (0 : Fin 1)) (fun b hb => ?_) ?_).trans rfl
  · match b with
    | ⟨0, _⟩ => rfl
    | ⟨1, _⟩ => exact absurd rfl hb
  · show 0 + 32 = c.val
    omega

/-! ## The gathered rows added into zeros by the destination column -/

/-- The table of bin sums at one of its first 32 columns: the sum, over the edges into the row, of the source table at
    the edge's source row; the zero the bins start from is absorbed. -/
theorem table_sum {N K E : Nat} (hN : 0 < N) (x : Sage.Arr2 N 32) (si di : Sage.Col E)
    (scol dcol : IVec ⟨2, ![E, 1]⟩ 32) (hsc : scol = si) (hdc : dcol = di)
    (hzz : (⟨0, ![]⟩ : Shape).BroadcastsInDim ⟨2, ![K, 33]⟩ (![] : Fin 0 → Fin 2))
    (ho : (⟨0, ![]⟩ : Shape).BroadcastsInDim ⟨2, ![N, 1]⟩ (![] : Fin 0 → Fin 2))
    (hcat : Shape.Concatenates [(⟨2, ![N, 32]⟩ : Shape), ⟨2, ![N, 1]⟩] ⟨2, ![N, 33]⟩ 1)
    (gwf : GatherDims.WF ⟨2, ![N, 33]⟩ ⟨2, ![E, 1]⟩ ⟨2, ![E, 33]⟩ [1] [0] [] [0] [] 1 ![1, 33])
    (swf : ScatterDims.WF ⟨2, ![K, 33]⟩ ⟨2, ![E, 1]⟩ ⟨2, ![E, 33]⟩ [1] [0] [0] 1)
    (g : GatherDims ⟨2, ![N, 33]⟩ ⟨2, ![E, 1]⟩ ⟨2, ![E, 33]⟩) (hg : g = colDims N 33 E gwf)
    (d : ScatterDims ⟨2, ![K, 33]⟩ ⟨2, ![E, 1]⟩ ⟨2, ![E, 33]⟩) (hd : d = rowsDims K 33 E swf)
    (r : Fin K) (c : Fin 33) (k : Fin 32) (hk : k.val = c.val) :
    Host.scatterAdd (F := Ideal) (φ := .f32) d
        (broadcastInDim ⟨2, ![K, 33]⟩ (![] : Fin 0 → Fin 2) hzz (constant (F := Ideal) ⟨0, ![]⟩ .f32 0x00000000#32))
        dcol
        (Host.gather g
          (concatenate ⟨2, ![N, 33]⟩ 1 [⟨⟨2, ![N, 32]⟩, x⟩,
            ⟨⟨2, ![N, 1]⟩, broadcastInDim ⟨2, ![N, 1]⟩ (![] : Fin 0 → Fin 2) ho (constant (F := Ideal) ⟨0, ![]⟩ .f32 0x3F800000#32)⟩] hcat)
          scol)
        (ix2 r c)
      = Sage.segSum hN x si di r k := by
  subst hsc hdc hg hd
  refine (scatterAdd_rows_apply swf _ dcol _ r c).trans ?_
  refine (congrArg (· + _) (show _ = (0 : EReal) from Ideal.ofBits_zero_f32)).trans ?_
  refine (zero_add _).trans ?_
  unfold Sage.segSum
  refine Finset.sum_congr rfl fun i _ => ?_
  rw [gathered_lt hN x scol ho hcat gwf i c k hk]

/-- The table of bin sums at its 33rd column: the number of edges into the row, each counted as the float one. -/
theorem table_cnt {N K E : Nat} (hN : 0 < N) (x : Sage.Arr2 N 32) (di : Sage.Col E)
    (scol dcol : IVec ⟨2, ![E, 1]⟩ 32) (hdc : dcol = di)
    (hzz : (⟨0, ![]⟩ : Shape).BroadcastsInDim ⟨2, ![K, 33]⟩ (![] : Fin 0 → Fin 2))
    (ho : (⟨0, ![]⟩ : Shape).BroadcastsInDim ⟨2, ![N, 1]⟩ (![] : Fin 0 → Fin 2))
    (hcat : Shape.Concatenates [(⟨2, ![N, 32]⟩ : Shape), ⟨2, ![N, 1]⟩] ⟨2, ![N, 33]⟩ 1)
    (gwf : GatherDims.WF ⟨2, ![N, 33]⟩ ⟨2, ![E, 1]⟩ ⟨2, ![E, 33]⟩ [1] [0] [] [0] [] 1 ![1, 33])
    (swf : ScatterDims.WF ⟨2, ![K, 33]⟩ ⟨2, ![E, 1]⟩ ⟨2, ![E, 33]⟩ [1] [0] [0] 1)
    (g : GatherDims ⟨2, ![N, 33]⟩ ⟨2, ![E, 1]⟩ ⟨2, ![E, 33]⟩) (hg : g = colDims N 33 E gwf)
    (d : ScatterDims ⟨2, ![K, 33]⟩ ⟨2, ![E, 1]⟩ ⟨2, ![E, 33]⟩) (hd : d = rowsDims K 33 E swf)
    (r : Fin K) (c : Fin 33) (hc : c.val = 32) :
    Host.scatterAdd (F := Ideal) (φ := .f32) d
        (broadcastInDim ⟨2, ![K, 33]⟩ (![] : Fin 0 → Fin 2) hzz (constant (F := Ideal) ⟨0, ![]⟩ .f32 0x00000000#32))
        dcol
        (Host.gather g
          (concatenate ⟨2, ![N, 33]⟩ 1 [⟨⟨2, ![N, 32]⟩, x⟩,
            ⟨⟨2, ![N, 1]⟩, broadcastInDim ⟨2, ![N, 1]⟩ (![] : Fin 0 → Fin 2) ho (constant (F := Ideal) ⟨0, ![]⟩ .f32 0x3F800000#32)⟩] hcat)
          scol)
        (ix2 r c)
      = Sage.segCnt di r := by
  subst hdc hg hd
  refine (scatterAdd_rows_apply swf _ dcol _ r c).trans ?_
  refine (congrArg (· + _) (show _ = (0 : EReal) from Ideal.ofBits_zero_f32)).trans ?_
  refine (zero_add _).trans ?_
  unfold Sage.segCnt
  refine Finset.sum_congr rfl fun i _ => ?_
  rw [gathered_last hN x scol ho hcat gwf i c hc]

/-! ## The arrays the kernel's @main hands to the fused computation, index by index -/

/-- The first table of bin sums, at a row and one of its 32 columns. -/
theorem kv16_apply (a1 : FVec Ideal S100000x32 .f32) (a4 : IVec S2x2000000 32) (r : Fin 200000) (k : Fin 32) :
    kv16 (F := Ideal) a1 a4 (ix2 r k)
      = Sage.segSum (N := 100000) (by decide) a1 (Sage.srcCol 100000#32 a4) (Sage.dstCol a4) r k := by
  unfold kv16
  dsimp only
  refine (slice2_axis1_apply 0 _ slices_S200000x33_S200000x32_0_0 r k ⟨k.val, by omega⟩ (Nat.zero_add _).symm).trans ?_
  exact table_sum (N := 100000) (K := 200000) (E := 2000000) (by decide) a1 (Sage.srcCol 100000#32 a4) (Sage.dstCol a4) _ _
    (srcCol_eq 100000#32 a4 slices_S2x2000000_S1x2000000_0_0 shapeCasts_S1x2000000_S2000000 bcast_S_S2000000
      bcast_S2000000_S2000000x1_0)
    (dstCol_eq a4 slices_S2x2000000_S1x2000000_1_0 shapeCasts_S1x2000000_S2000000 bcast_S2000000_S2000000x1_0)
    bcast_S_S200000x33 bcast_S_S100000x1 concatenates_S100000x32_S100000x1_S100000x33_d1
    gather_S100000x33_S2000000x1_S2000000x33_1_0_n_n_0_1_133_wf scatter_S200000x33_S2000000x1_S2000000x33_1_0_0_1_wf
    gather_S100000x33_S2000000x1_S2000000x33_1_0_n_n_0_1_133 rfl scatter_S200000x33_S2000000x1_S2000000x33_1_0_0_1 rfl
    r ⟨k.val, by omega⟩ k rfl

/-- The second table of bin sums, at a row and one of its 32 columns. -/
theorem kv34_apply (a0 : FVec Ideal S200000x32 .f32) (a7 : IVec S2x200000 32) (r : Fin 200000) (k : Fin 32) :
    kv34 (F := Ideal) a0 a7 (ix2 r k)
      = Sage.segSum (N := 200000) (by decide) a0 (Sage.srcCol 200000#32 a7) (Sage.dstCol a7) r k := by
  unfold kv34
  dsimp only
  refine (slice2_axis1_apply 0 _ slices_S200000x33_S200000x32_0_0 r k ⟨k.val, by omega⟩ (Nat.zero_add _).symm).trans ?_
  exact table_sum (N := 200000) (K := 200000) (E := 200000) (by decide) a0 (Sage.srcCol 200000#32 a7) (Sage.dstCol a7) _ _
    (srcCol_eq 200000#32 a7 slices_S2x200000_S1x200000_0_0 shapeCasts_S1x200000_S200000 bcast_S_S200000
      bcast_S200000_S200000x1_0)
    (dstCol_eq a7 slices_S2x200000_S1x200000_1_0 shapeCasts_S1x200000_S200000 bcast_S200000_S200000x1_0)
    bcast_S_S200000x33 bcast_S_S200000x1 concatenates_S200000x32_S200000x1_S200000x33_d1
    gather_S200000x33_S200000x1_S200000x33_1_0_n_n_0_1_133_wf scatter_S200000x33_S200000x1_S200000x33_1_0_0_1_wf
    gather_S200000x33_S200000x1_S200000x33_1_0_n_n_0_1_133 rfl scatter_S200000x33_S200000x1_S200000x33_1_0_0_1 rfl
    r ⟨k.val, by omega⟩ k rfl

/-- The pair of bin counts at its first column: the 33rd column of the first table. -/
theorem kv36_apply_zero (a0 : FVec Ideal S200000x32 .f32) (a1 : FVec Ideal S100000x32 .f32) (a4 : IVec S2x2000000 32)
    (a7 : IVec S2x200000 32) (r : Fin 200000) :
    kv36 (F := Ideal) a0 a1 a4 a7 (ix2 r (0 : Fin 2)) = Sage.segCnt (Sage.dstCol a4) r := by
  unfold kv36
  dsimp only
  refine (concatenate_pair_apply_left (t := S200000x2) (s₁ := S200000x1) (s₂ := S200000x1) 1 _ _
    concatenates_S200000x1_S200000x1_S200000x2_d1 _ rfl (ix2 r (0 : Fin 1)) fun b => ?_).trans ?_
  · match b with
    | ⟨0, _⟩ => rfl
    | ⟨1, _⟩ => rfl
  refine (slice2_axis1_apply 32 _ slices_S200000x33_S200000x1_0_32 r (0 : Fin 1) ⟨32, by omega⟩ rfl).trans ?_
  exact table_cnt (N := 100000) (K := 200000) (E := 2000000) (by decide) a1 (Sage.dstCol a4) _ _
    (dstCol_eq a4 slices_S2x2000000_S1x2000000_1_0 shapeCasts_S1x2000000_S2000000 bcast_S2000000_S2000000x1_0)
    bcast_S_S200000x33 bcast_S_S100000x1 concatenates_S100000x32_S100000x1_S100000x33_d1
    gather_S100000x33_S2000000x1_S2000000x33_1_0_n_n_0_1_133_wf scatter_S200000x33_S2000000x1_S2000000x33_1_0_0_1_wf
    gather_S100000x33_S2000000x1_S2000000x33_1_0_n_n_0_1_133 rfl scatter_S200000x33_S2000000x1_S2000000x33_1_0_0_1 rfl
    r ⟨32, by omega⟩ rfl

/-- The pair of bin counts at its second column: the 33rd column of the second table. -/
theorem kv36_apply_one (a0 : FVec Ideal S200000x32 .f32) (a1 : FVec Ideal S100000x32 .f32) (a4 : IVec S2x2000000 32)
    (a7 : IVec S2x200000 32) (r : Fin 200000) :
    kv36 (F := Ideal) a0 a1 a4 a7 (ix2 r (1 : Fin 2)) = Sage.segCnt (Sage.dstCol a7) r := by
  unfold kv36
  dsimp only
  refine (concatenate_pair_apply_right (t := S200000x2) (s₁ := S200000x1) (s₂ := S200000x1) 1 _ _
    concatenates_S200000x1_S200000x1_S200000x2_d1 _ rfl rfl (ix2 r (0 : Fin 1)) (fun b hb => ?_) rfl).trans ?_
  · match b with
    | ⟨0, _⟩ => rfl
    | ⟨1, _⟩ => exact absurd rfl hb
  refine (slice2_axis1_apply 32 _ slices_S200000x33_S200000x1_0_32 r (0 : Fin 1) ⟨32, by omega⟩ rfl).trans ?_
  exact table_cnt (N := 200000) (K := 200000) (E := 200000) (by decide) a0 (Sage.dstCol a7) _ _
    (dstCol_eq a7 slices_S2x200000_S1x200000_1_0 shapeCasts_S1x200000_S200000 bcast_S200000_S200000x1_0)
    bcast_S_S200000x33 bcast_S_S200000x1 concatenates_S200000x32_S200000x1_S200000x33_d1
    gather_S200000x33_S200000x1_S200000x33_1_0_n_n_0_1_133_wf scatter_S200000x33_S200000x1_S200000x33_1_0_0_1_wf
    gather_S200000x33_S200000x1_S200000x33_1_0_n_n_0_1_133 rfl scatter_S200000x33_S200000x1_S200000x33_1_0_0_1 rfl
    r ⟨32, by omega⟩ rfl

/-- Half the sum of two weight matrices, entry by entry, the half multiplied in from the left. -/
theorem kv39_apply (a13 a22 : FVec Ideal S32x64 .f32) (i : S32x64.Idx) :
    kv39 (F := Ideal) a13 a22 i = Sage.half * (a13 i + a22 i) := rfl

/-- Half a weight matrix, entry by entry, the half multiplied in from the left. -/
theorem kv41_apply (a11 : FVec Ideal S32x64 .f32) (i : S32x64.Idx) :
    kv41 (F := Ideal) a11 i = Sage.half * a11 i := rfl

/-- The same for the other halved weight matrix. -/
theorem kv43_apply (a20 : FVec Ideal S32x64 .f32) (i : S32x64.Idx) :
    kv43 (F := Ideal) a20 i = Sage.half * a20 i := rfl

/-- Half the sum of the two bias vectors, laid out as one row. -/
theorem kv47_apply (a12 a21 : FVec Ideal S64 .f32) (j : Fin 64) :
    kv47 (F := Ideal) a12 a21 (ix2 (0 : Fin 1) j) = Sage.half * (a12 (ix1 j) + a21 (ix1 j)) := by
  unfold kv47
  dsimp only
  exact shapeCast_a_1a_apply _ shapeCasts_S64_S1x64 (0 : Fin 1) j

/-- The output bias laid out as one row. -/
theorem kv48_apply (a24 : FVec Ideal S8 .f32) (n : Fin 8) :
    kv48 (F := Ideal) a24 (ix2 (0 : Fin 1) n) = a24 (ix1 n) := by
  unfold kv48
  exact shapeCast_a_1a_apply _ shapeCasts_S8_S1x8 (0 : Fin 1) n

/-- The whole-array function at the arrays above is the specification: at a row and a class the two sides are the same
    sum over the hidden columns once each array is read at its index — the bin sums and counts as `Sage.segSum` and
    `Sage.segCnt` inside the means, the halved weights and biases as the half folded into the hidden layer. -/
theorem kerG_eq (a0 : FVec Ideal S200000x32 .f32) (a1 : FVec Ideal S100000x32 .f32) (a4 : IVec S2x2000000 32) (a7 : IVec S2x200000 32)
    (a11 : FVec Ideal S32x64 .f32) (a12 : FVec Ideal S64 .f32) (a13 : FVec Ideal S32x64 .f32) (a20 : FVec Ideal S32x64 .f32)
    (a21 : FVec Ideal S64 .f32) (a22 : FVec Ideal S32x64 .f32) (a23 : FVec Ideal S64x8 .f32) (a24 : FVec Ideal S8 .f32) :
    Sage.kerG a0 (kv16 (F := Ideal) a1 a4) (kv34 (F := Ideal) a0 a7) (kv36 (F := Ideal) a0 a1 a4 a7) (kv39 (F := Ideal) a13 a22)
        (kv41 (F := Ideal) a11) (kv43 (F := Ideal) a20) (kv47 (F := Ideal) a12 a21) a23 (kv48 (F := Ideal) a24)
      = Sage.resK a0 a1 (Sage.srcCol 100000#32 a4) (Sage.dstCol a4) (Sage.srcCol 200000#32 a7) (Sage.dstCol a7)
          a11 a13 a20 a22 a12 a21 a23 a24 := by
  funext i
  obtain ⟨r, n, rfl⟩ : ∃ (r : Fin 200000) (n : Fin 8), i = ix2 r n := ⟨i 0, i 1, eq_ix2 i⟩
  unfold Sage.kerG Sage.resK Sage.outOf
  refine congrArg₂ (· + ·) (Finset.sum_congr rfl fun j _ => ?_) (kv48_apply a24 n)
  refine congrArg (fun h => Sage.lrelu h * _) ?_
  unfold Sage.kerHid Sage.hidK Sage.rowX Sage.rowM2 Sage.rowM5
  simp only [kv16_apply, kv34_apply, kv36_apply_zero, kv36_apply_one, kv39_apply, kv41_apply, kv43_apply, kv47_apply]

end Cert.KernelIdeal.Hand

end
-- ==== Proof.RefRun.lean ====
/-
  The reference's run: every weakly fair execution of its @main terminates without a fault, its result buffer ends at
  the composed term `refOut` of the arguments' launch contents, and every argument buffer ends as it was launched.
-/
import proofs.«400680_j71004399338031_3_alg».proof.Proof.RefOps
import proofs.«400680_j71004399338031_3_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The program is the list

Each printed window is the line of its operations, by unfolding; in the last window the three calls of the rectifier
unfold to their bodies over the calls' buffer records, and sequencing is re-associated. The four windows in a row are the
line of the four lists in a row. -/

theorem partA_eq (c : Dev nD) : main_part0 (F := F) c = seq opsA := rfl
theorem partB_eq (c : Dev nD) : main_part1 (F := F) c = seq opsB := rfl
theorem partC_eq (c : Dev nD) : main_part2 (F := F) c = seq opsC := rfl

set_option maxRecDepth 4096 in
theorem partD_eq (c : Dev nD) : main_part3 (F := F) c = seq opsD := by
  simp only [main_part3, fn_leaky_relu.body, fn_leaky_relu_0.body, fn_leaky_relu_2.body, fn_where.body, fn_where_1.body,
    fn_where_3.body, seq, bind_assoc, pure_bind]

theorem main_eq (c : Dev nD) : main (F := F) c = seq (opsA ++ (opsB ++ (opsC ++ opsD))) := by
  rw [seq_append, seq_append, seq_append, ← partA_eq c, ← partB_eq c, ← partC_eq c, ← partD_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## The side conditions of the whole line, window by window -/

/-- A property of every entry of two lists holds of every entry of their concatenation. -/
theorem forall_app {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- The fold over two lines in a row is the fold over the second after the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem ops_sub : ((opsA ++ (opsB ++ (opsC ++ opsD)) : List (HloOp τ sig (Elt F)))).Forall fun op => op.bufs ⊆ tcRefs τ sig :=
  forall_app opsA_sub (forall_app opsB_sub (forall_app opsC_sub opsD_sub))

-- every operation determines its results: none allocates
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : ∀ op ∈ (opsA ++ (opsB ++ (opsC ++ opsD)) : List (HloOp τ sig (Elt F))), op.fresh = ∅ :=
  List.forall_iff_forall_mem.1 (forall_app opsA_fresh (forall_app opsB_fresh (forall_app opsC_fresh opsD_fresh)))

/-! ## What each window writes

Per window the list of its result buffers, in order: every operation writes exactly its result, so a reference outside
the list is left as it was by the whole window. The arguments are in none of the four lists. -/

/-- The result buffers of the first window. -/
abbrev wA : List (Ref sig .tc) :=
  [main_v0, main_v1, main_c, main_v2, main_v3, main_c_0, main_v4, main_v5, main_v6, main_v7, main_v8, main_v9, main_v10, main_cst, main_v11, main_v12, main_v13, main_cst_1, main_v14, main_v15, main_v16, main_cst_2, main_v17, main_v18, main_v19, main_cst_3, main_v20, main_v21, main_v22, main_v23, main_v24, main_v25, main_v26, main_v27, main_v28, main_v29, main_v30, main_v31, main_v32, main_c_4, main_v33, main_v34, main_c_5, main_v35, main_v36, main_v37, main_v38, main_v39, main_v40, main_v41, main_cst_6, main_v42, main_v43, main_v44, main_cst_7, main_v45, main_v46, main_v47, main_cst_8, main_v48]

/-- The result buffers of the second window. -/
abbrev wB : List (Ref sig .tc) :=
  [main_v49, main_v50, main_cst_9, main_v51, main_v52, main_v53, main_v54, main_v55, main_v56, main_v57, main_v58, main_v59, main_v60, main_v61, main_v62, main_v63, main_c_10, main_v64, main_v65, main_c_11, main_v66, main_v67, main_v68, main_v69, main_v70, main_v71, main_v72, main_cst_12, main_v73, main_v74, main_v75, main_cst_13, main_v76, main_v77, main_v78, main_cst_14, main_v79, main_v80, main_v81, main_cst_15, main_v82, main_v83, main_v84, main_v85, main_v86, main_v87, main_v88, main_v89, main_v90, main_v91, main_v92, main_v93, main_v94, main_c_16, main_v95, main_v96, main_c_17, main_v97, main_v98, main_v99]

/-- The result buffers of the third window. -/
abbrev wC : List (Ref sig .tc) :=
  [main_v100, main_v101, main_v102, main_v103, main_cst_18, main_v104, main_v105, main_v106, main_cst_19, main_v107, main_v108, main_v109, main_cst_20, main_v110, main_v111, main_v112, main_cst_21, main_v113, main_v114, main_v115, main_v116, main_v117, main_v118, main_v119, main_v120, main_v121, main_v122, main_v123, main_v124, main_v125, main_c_22, main_v126, main_v127, main_c_23, main_v128, main_v129, main_v130, main_v131, main_v132, main_v133, main_v134, main_cst_24, main_v135, main_v136, main_v137, main_cst_25, main_v138, main_v139, main_v140, main_cst_26, main_v141, main_v142, main_v143, main_cst_27, main_v144, main_v145, main_v146, main_v147, main_v148, main_v149]

/-- The result buffers of the last window (the calls' buffers among them). -/
abbrev wD : List (Ref sig .tc) :=
  [main_v150, main_v151, main_v152, main_v153, main_v154, main_v155, main_cst_28, main_v156, main_v157, main_call0_cst, main_call0_v0, main_call0_v1, main_call0_cst_0, main_call0_v2, main_call0_v3, main_v158, main_call1_cst, main_call1_v0, main_call1_v1, main_call1_cst_0, main_call1_v2, main_call1_v3, main_v159, main_v160, main_cst_29, main_v161, main_v162, main_call2_cst, main_call2_v0, main_call2_v1, main_call2_cst_0, main_call2_v2, main_call2_v3, main_v163, main_v164, main_v165, main_v166, main_v167]

/-- An operation that writes the one buffer `y`, with `y` in the list, writes within the list. -/
theorem wsub {op : HloOp τ sig (Elt F)} {L : List (Ref sig .tc)} (y : Ref sig .tc)
    (h : op.writes = {Proc.devRef .tc y}) (hy : y ∈ L) : op.writes ⊆ (L.map (Proc.devRef (τ := τ) .tc)).toFinset := by
  rw [h, Finset.singleton_subset_iff, List.mem_toFinset]
  exact List.mem_map_of_mem hy

theorem opsA_writes : (opsA : List (HloOp τ sig (Elt F))).Forall fun op => op.writes ⊆ (wA.map (Proc.devRef (τ := τ) .tc)).toFinset :=
  ⟨wsub main_v0 rfl (by decide), wsub main_v1 rfl (by decide), wsub main_c rfl (by decide), wsub main_v2 rfl (by decide), wsub main_v3 rfl (by decide), wsub main_c_0 rfl (by decide), wsub main_v4 rfl (by decide), wsub main_v5 rfl (by decide), wsub main_v6 rfl (by decide), wsub main_v7 rfl (by decide), wsub main_v8 rfl (by decide), wsub main_v9 rfl (by decide), wsub main_v10 rfl (by decide), wsub main_cst rfl (by decide), wsub main_v11 rfl (by decide), wsub main_v12 rfl (by decide), wsub main_v13 rfl (by decide), wsub main_cst_1 rfl (by decide), wsub main_v14 rfl (by decide), wsub main_v15 rfl (by decide), wsub main_v16 rfl (by decide), wsub main_cst_2 rfl (by decide), wsub main_v17 rfl (by decide), wsub main_v18 rfl (by decide), wsub main_v19 rfl (by decide), wsub main_cst_3 rfl (by decide), wsub main_v20 rfl (by decide), wsub main_v21 rfl (by decide), wsub main_v22 rfl (by decide), wsub main_v23 rfl (by decide), wsub main_v24 rfl (by decide), wsub main_v25 rfl (by decide), wsub main_v26 rfl (by decide), wsub main_v27 rfl (by decide), wsub main_v28 rfl (by decide), wsub main_v29 rfl (by decide), wsub main_v30 rfl (by decide), wsub main_v31 rfl (by decide), wsub main_v32 rfl (by decide), wsub main_c_4 rfl (by decide), wsub main_v33 rfl (by decide), wsub main_v34 rfl (by decide), wsub main_c_5 rfl (by decide), wsub main_v35 rfl (by decide), wsub main_v36 rfl (by decide), wsub main_v37 rfl (by decide), wsub main_v38 rfl (by decide), wsub main_v39 rfl (by decide), wsub main_v40 rfl (by decide), wsub main_v41 rfl (by decide), wsub main_cst_6 rfl (by decide), wsub main_v42 rfl (by decide), wsub main_v43 rfl (by decide), wsub main_v44 rfl (by decide), wsub main_cst_7 rfl (by decide), wsub main_v45 rfl (by decide), wsub main_v46 rfl (by decide), wsub main_v47 rfl (by decide), wsub main_cst_8 rfl (by decide), wsub main_v48 rfl (by decide)⟩

theorem opsB_writes : (opsB : List (HloOp τ sig (Elt F))).Forall fun op => op.writes ⊆ (wB.map (Proc.devRef (τ := τ) .tc)).toFinset :=
  ⟨wsub main_v49 rfl (by decide), wsub main_v50 rfl (by decide), wsub main_cst_9 rfl (by decide), wsub main_v51 rfl (by decide), wsub main_v52 rfl (by decide), wsub main_v53 rfl (by decide), wsub main_v54 rfl (by decide), wsub main_v55 rfl (by decide), wsub main_v56 rfl (by decide), wsub main_v57 rfl (by decide), wsub main_v58 rfl (by decide), wsub main_v59 rfl (by decide), wsub main_v60 rfl (by decide), wsub main_v61 rfl (by decide), wsub main_v62 rfl (by decide), wsub main_v63 rfl (by decide), wsub main_c_10 rfl (by decide), wsub main_v64 rfl (by decide), wsub main_v65 rfl (by decide), wsub main_c_11 rfl (by decide), wsub main_v66 rfl (by decide), wsub main_v67 rfl (by decide), wsub main_v68 rfl (by decide), wsub main_v69 rfl (by decide), wsub main_v70 rfl (by decide), wsub main_v71 rfl (by decide), wsub main_v72 rfl (by decide), wsub main_cst_12 rfl (by decide), wsub main_v73 rfl (by decide), wsub main_v74 rfl (by decide), wsub main_v75 rfl (by decide), wsub main_cst_13 rfl (by decide), wsub main_v76 rfl (by decide), wsub main_v77 rfl (by decide), wsub main_v78 rfl (by decide), wsub main_cst_14 rfl (by decide), wsub main_v79 rfl (by decide), wsub main_v80 rfl (by decide), wsub main_v81 rfl (by decide), wsub main_cst_15 rfl (by decide), wsub main_v82 rfl (by decide), wsub main_v83 rfl (by decide), wsub main_v84 rfl (by decide), wsub main_v85 rfl (by decide), wsub main_v86 rfl (by decide), wsub main_v87 rfl (by decide), wsub main_v88 rfl (by decide), wsub main_v89 rfl (by decide), wsub main_v90 rfl (by decide), wsub main_v91 rfl (by decide), wsub main_v92 rfl (by decide), wsub main_v93 rfl (by decide), wsub main_v94 rfl (by decide), wsub main_c_16 rfl (by decide), wsub main_v95 rfl (by decide), wsub main_v96 rfl (by decide), wsub main_c_17 rfl (by decide), wsub main_v97 rfl (by decide), wsub main_v98 rfl (by decide), wsub main_v99 rfl (by decide)⟩

theorem opsC_writes : (opsC : List (HloOp τ sig (Elt F))).Forall fun op => op.writes ⊆ (wC.map (Proc.devRef (τ := τ) .tc)).toFinset :=
  ⟨wsub main_v100 rfl (by decide), wsub main_v101 rfl (by decide), wsub main_v102 rfl (by decide), wsub main_v103 rfl (by decide), wsub main_cst_18 rfl (by decide), wsub main_v104 rfl (by decide), wsub main_v105 rfl (by decide), wsub main_v106 rfl (by decide), wsub main_cst_19 rfl (by decide), wsub main_v107 rfl (by decide), wsub main_v108 rfl (by decide), wsub main_v109 rfl (by decide), wsub main_cst_20 rfl (by decide), wsub main_v110 rfl (by decide), wsub main_v111 rfl (by decide), wsub main_v112 rfl (by decide), wsub main_cst_21 rfl (by decide), wsub main_v113 rfl (by decide), wsub main_v114 rfl (by decide), wsub main_v115 rfl (by decide), wsub main_v116 rfl (by decide), wsub main_v117 rfl (by decide), wsub main_v118 rfl (by decide), wsub main_v119 rfl (by decide), wsub main_v120 rfl (by decide), wsub main_v121 rfl (by decide), wsub main_v122 rfl (by decide), wsub main_v123 rfl (by decide), wsub main_v124 rfl (by decide), wsub main_v125 rfl (by decide), wsub main_c_22 rfl (by decide), wsub main_v126 rfl (by decide), wsub main_v127 rfl (by decide), wsub main_c_23 rfl (by decide), wsub main_v128 rfl (by decide), wsub main_v129 rfl (by decide), wsub main_v130 rfl (by decide), wsub main_v131 rfl (by decide), wsub main_v132 rfl (by decide), wsub main_v133 rfl (by decide), wsub main_v134 rfl (by decide), wsub main_cst_24 rfl (by decide), wsub main_v135 rfl (by decide), wsub main_v136 rfl (by decide), wsub main_v137 rfl (by decide), wsub main_cst_25 rfl (by decide), wsub main_v138 rfl (by decide), wsub main_v139 rfl (by decide), wsub main_v140 rfl (by decide), wsub main_cst_26 rfl (by decide), wsub main_v141 rfl (by decide), wsub main_v142 rfl (by decide), wsub main_v143 rfl (by decide), wsub main_cst_27 rfl (by decide), wsub main_v144 rfl (by decide), wsub main_v145 rfl (by decide), wsub main_v146 rfl (by decide), wsub main_v147 rfl (by decide), wsub main_v148 rfl (by decide), wsub main_v149 rfl (by decide)⟩

theorem opsD_writes : (opsD : List (HloOp τ sig (Elt F))).Forall fun op => op.writes ⊆ (wD.map (Proc.devRef (τ := τ) .tc)).toFinset :=
  ⟨wsub main_v150 rfl (by decide), wsub main_v151 rfl (by decide), wsub main_v152 rfl (by decide), wsub main_v153 rfl (by decide), wsub main_v154 rfl (by decide), wsub main_v155 rfl (by decide), wsub main_cst_28 rfl (by decide), wsub main_v156 rfl (by decide), wsub main_v157 rfl (by decide), wsub main_call0_cst rfl (by decide), wsub main_call0_v0 rfl (by decide), wsub main_call0_v1 rfl (by decide), wsub main_call0_cst_0 rfl (by decide), wsub main_call0_v2 rfl (by decide), wsub main_call0_v3 rfl (by decide), wsub main_v158 rfl (by decide), wsub main_call1_cst rfl (by decide), wsub main_call1_v0 rfl (by decide), wsub main_call1_v1 rfl (by decide), wsub main_call1_cst_0 rfl (by decide), wsub main_call1_v2 rfl (by decide), wsub main_call1_v3 rfl (by decide), wsub main_v159 rfl (by decide), wsub main_v160 rfl (by decide), wsub main_cst_29 rfl (by decide), wsub main_v161 rfl (by decide), wsub main_v162 rfl (by decide), wsub main_call2_cst rfl (by decide), wsub main_call2_v0 rfl (by decide), wsub main_call2_v1 rfl (by decide), wsub main_call2_cst_0 rfl (by decide), wsub main_call2_v2 rfl (by decide), wsub main_call2_v3 rfl (by decide), wsub main_v163 rfl (by decide), wsub main_v164 rfl (by decide), wsub main_v165 rfl (by decide), wsub main_v166 rfl (by decide), wsub main_v167 rfl (by decide)⟩

theorem keepA (V : Valuation τ sig (Elt F)) {r : Ref sig .tc} (h : r ∉ wA) :
    after opsA V (Proc.devRef .tc r) = V (Proc.devRef .tc r) := after_of_writes_sub opsA V opsA_writes h
theorem keepB (V : Valuation τ sig (Elt F)) {r : Ref sig .tc} (h : r ∉ wB) :
    after opsB V (Proc.devRef .tc r) = V (Proc.devRef .tc r) := after_of_writes_sub opsB V opsB_writes h
theorem keepC (V : Valuation τ sig (Elt F)) {r : Ref sig .tc} (h : r ∉ wC) :
    after opsC V (Proc.devRef .tc r) = V (Proc.devRef .tc r) := after_of_writes_sub opsC V opsC_writes h
theorem keepD (V : Valuation τ sig (Elt F)) {r : Ref sig .tc} (h : r ∉ wD) :
    after opsD V (Proc.devRef .tc r) = V (Proc.devRef .tc r) := after_of_writes_sub opsD V opsD_writes h

/-- A reference no window writes ends as it was. -/
theorem keep (V : Valuation τ sig (Elt F)) {r : Ref sig .tc} (hA : r ∉ wA) (hB : r ∉ wB) (hC : r ∉ wC) (hD : r ∉ wD) :
    after (opsA ++ (opsB ++ (opsC ++ opsD))) V (Proc.devRef .tc r) = V (Proc.devRef .tc r) := by
  rw [after_app, after_app, after_app, keepD _ hD, keepC _ hC, keepB _ hB, keepA _ hA]

/-! ## The result, window by window

The composed term `refOut` cut where the windows end: what each window computes of the values it takes over from the
earlier ones and of the arguments. The stretches are the same lets as `refOut`'s, so `refOut` is their composition
by unfolding. -/

/-- `%44` of the first window: the rows of `%arg1` gathered at the first row of `%arg4` (negative positions wrapped) and summed into a zero table at the second row. -/
def tA44 (main_arg1 : FVec F S100000x32 .f32) (main_arg4 : IVec S2x2000000 32) : FVec F S200000x32 .f32 :=
  let main_cst_6 := (constant (F := F) S_ .f32 0x00000000#32)
  let main_v42 := (broadcastInDim S200000x32 ![] bcast_S_S200000x32 : (⟨S_, .f32⟩ : BufTy).Contents (Elt F) → (⟨S200000x32, .f32⟩ : BufTy).Contents (Elt F)) main_cst_6
  let main_v40 := ((extractStridedSlice S1x2000000 ![1, 0] · slices_S2x2000000_S1x2000000_1_0) : (⟨S2x2000000, .i32⟩ : BufTy).Contents (Elt F) → (⟨S1x2000000, .i32⟩ : BufTy).Contents (Elt F)) main_arg4
  let main_v41 := shapeCast S2000000 main_v40 shapeCasts_S1x2000000_S2000000
  let main_v43 := (broadcastInDim S2000000x1 ![0] bcast_S2000000_S2000000x1_0 : (⟨S2000000, .i32⟩ : BufTy).Contents (Elt F) → (⟨S2000000x1, .i32⟩ : BufTy).Contents (Elt F)) main_v41
  let main_v31 := ((extractStridedSlice S1x2000000 ![0, 0] · slices_S2x2000000_S1x2000000_0_0) : (⟨S2x2000000, .i32⟩ : BufTy).Contents (Elt F) → (⟨S1x2000000, .i32⟩ : BufTy).Contents (Elt F)) main_arg4
  let main_v32 := shapeCast S2000000 main_v31 shapeCasts_S1x2000000_S2000000
  let main_c_4 := (constantI S_ 32 0#32)
  let main_v33 := (broadcastInDim S2000000 ![] bcast_S_S2000000 : (⟨S_, .i32⟩ : BufTy).Contents (Elt F) → (⟨S2000000, .i32⟩ : BufTy).Contents (Elt F)) main_c_4
  let main_v34 := (cmpi .slt : (⟨S2000000, .i32⟩ : BufTy).Contents (Elt F) → (⟨S2000000, .i32⟩ : BufTy).Contents (Elt F) → (⟨S2000000, .i1⟩ : BufTy).Contents (Elt F)) main_v32 main_v33
  let main_c_5 := (constantI S_ 32 100000#32)
  let main_v35 := (broadcastInDim S2000000 ![] bcast_S_S2000000 : (⟨S_, .i32⟩ : BufTy).Contents (Elt F) → (⟨S2000000, .i32⟩ : BufTy).Contents (Elt F)) main_c_5
  let main_v36 := (addi : (⟨S2000000, .i32⟩ : BufTy).Contents (Elt F) → (⟨S2000000, .i32⟩ : BufTy).Contents (Elt F) → (⟨S2000000, .i32⟩ : BufTy).Contents (Elt F)) main_v32 main_v35
  let main_v37 := (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) main_v34 main_v36 main_v32
  let main_v38 := (broadcastInDim S2000000x1 ![0] bcast_S2000000_S2000000x1_0 : (⟨S2000000, .i32⟩ : BufTy).Contents (Elt F) → (⟨S2000000x1, .i32⟩ : BufTy).Contents (Elt F)) main_v37
  let main_v39 := ((fun x i => Host.gather gather_S100000x32_S2000000x1_S2000000x32_1_0_n_n_0_1_132 x i) : (⟨S100000x32, .f32⟩ : BufTy).Contents (Elt F) → (⟨S2000000x1, .i32⟩ : BufTy).Contents (Elt F) → (⟨S2000000x32, .f32⟩ : BufTy).Contents (Elt F)) main_arg1 main_v38
  let main_v44 := ((fun x i u => Host.scatterAdd scatter_S200000x32_S2000000x1_S2000000x32_1_0_0_1 x i u) : (⟨S200000x32, .f32⟩ : BufTy).Contents (Elt F) → (⟨S2000000x1, .i32⟩ : BufTy).Contents (Elt F) → (⟨S2000000x32, .f32⟩ : BufTy).Contents (Elt F) → (⟨S200000x32, .f32⟩ : BufTy).Contents (Elt F)) main_v42 main_v43 main_v39
  main_v44

/-- `%45`: the all-ones vector that counts the edges. -/
def tA45 : FVec F S2000000 .f32 :=
  let main_cst_7 := (constant (F := F) S_ .f32 0x3F800000#32)
  let main_v45 := (broadcastInDim S2000000 ![] bcast_S_S2000000 : (⟨S_, .f32⟩ : BufTy).Contents (Elt F) → (⟨S2000000, .f32⟩ : BufTy).Contents (Elt F)) main_cst_7
  main_v45

/-- `%47`: the second row of `%arg4`, as a vector. -/
def tA47 (main_arg4 : IVec S2x2000000 32) : IVec S2000000 32 :=
  let main_v46 := ((extractStridedSlice S1x2000000 ![1, 0] · slices_S2x2000000_S1x2000000_1_0) : (⟨S2x2000000, .i32⟩ : BufTy).Contents (Elt F) → (⟨S1x2000000, .i32⟩ : BufTy).Contents (Elt F)) main_arg4
  let main_v47 := shapeCast S2000000 main_v46 shapeCasts_S1x2000000_S2000000
  main_v47

/-- `%48`: the zero vector the counts are summed into. -/
def tA48 : FVec F S200000 .f32 :=
  let main_cst_8 := (constant (F := F) S_ .f32 0x00000000#32)
  let main_v48 := (broadcastInDim S200000 ![] bcast_S_S200000 : (⟨S_, .f32⟩ : BufTy).Contents (Elt F) → (⟨S200000, .f32⟩ : BufTy).Contents (Elt F)) main_cst_8
  main_v48

/-- `%61` of the second window, of the four values it takes over from the first (`%44`, `%45`, `%47`, `%48`) and the arguments: the sums divided by the counts clamped below at one, times `%arg11`, plus the bias row `%arg12`, plus `%arg0` times `%arg13`. -/
def tB61 (main_v44 : FVec F S200000x32 .f32) (main_v45 : FVec F S2000000 .f32) (main_v47 : IVec S2000000 32) (main_v48 : FVec F S200000 .f32) (main_arg0 : FVec F S200000x32 .f32) (main_arg11 : FVec F S32x64 .f32) (main_arg12 : FVec F S64 .f32) (main_arg13 : FVec F S32x64 .f32) : FVec F S200000x64 .f32 :=
  let main_v49 := (broadcastInDim S2000000x1 ![0] bcast_S2000000_S2000000x1_0 : (⟨S2000000, .i32⟩ : BufTy).Contents (Elt F) → (⟨S2000000x1, .i32⟩ : BufTy).Contents (Elt F)) main_v47
  let main_v50 := ((fun x i u => Host.scatterAdd scatter_S200000_S2000000x1_S2000000_n_0_0_1 x i u) : (⟨S200000, .f32⟩ : BufTy).Contents (Elt F) → (⟨S2000000x1, .i32⟩ : BufTy).Contents (Elt F) → (⟨S2000000, .f32⟩ : BufTy).Contents (Elt F) → (⟨S200000, .f32⟩ : BufTy).Contents (Elt F)) main_v48 main_v49 main_v45
  let main_cst_9 := (constant (F := F) S_ .f32 0x3F800000#32)
  let main_v51 := (broadcastInDim S200000 ![] bcast_S_S200000 : (⟨S_, .f32⟩ : BufTy).Contents (Elt F) → (⟨S200000, .f32⟩ : BufTy).Contents (Elt F)) main_cst_9
  let main_v52 := (maximumf : (⟨S200000, .f32⟩ : BufTy).Contents (Elt F) → (⟨S200000, .f32⟩ : BufTy).Contents (Elt F) → (⟨S200000, .f32⟩ : BufTy).Contents (Elt F)) main_v50 main_v51
  let main_v53 := (broadcastInDim S200000x1 ![0] bcast_S200000_S200000x1_0 : (⟨S200000, .f32⟩ : BufTy).Contents (Elt F) → (⟨S200000x1, .f32⟩ : BufTy).Contents (Elt F)) main_v52
  let main_v54 := (broadcastInDim S200000x32 ![0, 1] bcast_S200000x1_S200000x32_0_1 : (⟨S200000x1, .f32⟩ : BufTy).Contents (Elt F) → (⟨S200000x32, .f32⟩ : BufTy).Contents (Elt F)) main_v53
  let main_v55 := (Host.divf : (⟨S200000x32, .f32⟩ : BufTy).Contents (Elt F) → (⟨S200000x32, .f32⟩ : BufTy).Contents (Elt F) → (⟨S200000x32, .f32⟩ : BufTy).Contents (Elt F)) main_v44 main_v54
  let main_v56 := ((fun l r => Host.dotGeneral dot_S200000x32_S32x64_S200000x64_1_0_0_1_n_n none l r) : (⟨S200000x32, .f32⟩ : BufTy).Contents (Elt F) → (⟨S32x64, .f32⟩ : BufTy).Contents (Elt F) → (⟨S200000x64, .f32⟩ : BufTy).Contents (Elt F)) main_v55 main_arg11
  let main_v57 := (broadcastInDim S1x64 ![1] bcast_S64_S1x64_1 : (⟨S64, .f32⟩ : BufTy).Contents (Elt F) → (⟨S1x64, .f32⟩ : BufTy).Contents (Elt F)) main_arg12
  let main_v58 := (broadcastInDim S200000x64 ![0, 1] bcast_S1x64_S200000x64_0_1 : (⟨S1x64, .f32⟩ : BufTy).Contents (Elt F) → (⟨S200000x64, .f32⟩ : BufTy).Contents (Elt F)) main_v57
  let main_v59 := (addf : (⟨S200000x64, .f32⟩ : BufTy).Contents (Elt F) → (⟨S200000x64, .f32⟩ : BufTy).Contents (Elt F) → (⟨S200000x64, .f32⟩ : BufTy).Contents (Elt F)) main_v56 main_v58
  let main_v60 := ((fun l r => Host.dotGeneral dot_S200000x32_S32x64_S200000x64_1_0_0_1_n_n none l r) : (⟨S200000x32, .f32⟩ : BufTy).Contents (Elt F) → (⟨S32x64, .f32⟩ : BufTy).Contents (Elt F) → (⟨S200000x64, .f32⟩ : BufTy).Contents (Elt F)) main_arg0 main_arg13
  let main_v61 := (addf : (⟨S200000x64, .f32⟩ : BufTy).Contents (Elt F) → (⟨S200000x64, .f32⟩ : BufTy).Contents (Elt F) → (⟨S200000x64, .f32⟩ : BufTy).Contents (Elt F)) main_v59 main_v60
  main_v61

/-- `%149` of the third window, of the arguments alone: the same mean over `%arg7`'s edges of `%arg0`'s rows, times `%arg20`. -/
def tC149 (main_arg0 : FVec F S200000x32 .f32) (main_arg7 : IVec S2x200000 32) (main_arg20 : FVec F S32x64 .f32) : FVec F S200000x64 .f32 :=
  let main_cst_24 := (constant (F := F) S_ .f32 0x00000000#32)
  let main_v135 := (broadcastInDim S200000x32 ![] bcast_S_S200000x32 : (⟨S_, .f32⟩ : BufTy).Contents (Elt F) → (⟨S200000x32, .f32⟩ : BufTy).Contents (Elt F)) main_cst_24
  let main_v133 := ((extractStridedSlice S1x200000 ![1, 0] · slices_S2x200000_S1x200000_1_0) : (⟨S2x200000, .i32⟩ : BufTy).Contents (Elt F) → (⟨S1x200000, .i32⟩ : BufTy).Contents (Elt F)) main_arg7
  let main_v134 := shapeCast S200000 main_v133 shapeCasts_S1x200000_S200000
  let main_v136 := (broadcastInDim S200000x1 ![0] bcast_S200000_S200000x1_0 : (⟨S200000, .i32⟩ : BufTy).Contents (Elt F) → (⟨S200000x1, .i32⟩ : BufTy).Contents (Elt F)) main_v134
  let main_v124 := ((extractStridedSlice S1x200000 ![0, 0] · slices_S2x200000_S1x200000_0_0) : (⟨S2x200000, .i32⟩ : BufTy).Contents (Elt F) → (⟨S1x200000, .i32⟩ : BufTy).Contents (Elt F)) main_arg7
  let main_v125 := shapeCast S200000 main_v124 shapeCasts_S1x200000_S200000
  let main_c_22 := (constantI S_ 32 0#32)
  let main_v126 := (broadcastInDim S200000 ![] bcast_S_S200000 : (⟨S_, .i32⟩ : BufTy).Contents (Elt F) → (⟨S200000, .i32⟩ : BufTy).Contents (Elt F)) main_c_22
  let main_v127 := (cmpi .slt : (⟨S200000, .i32⟩ : BufTy).Contents (Elt F) → (⟨S200000, .i32⟩ : BufTy).Contents (Elt F) → (⟨S200000, .i1⟩ : BufTy).Contents (Elt F)) main_v125 main_v126
  let main_c_23 := (constantI S_ 32 200000#32)
  let main_v128 := (broadcastInDim S200000 ![] bcast_S_S200000 : (⟨S_, .i32⟩ : BufTy).Contents (Elt F) → (⟨S200000, .i32⟩ : BufTy).Contents (Elt F)) main_c_23
  let main_v129 := (addi : (⟨S200000, .i32⟩ : BufTy).Contents (Elt F) → (⟨S200000, .i32⟩ : BufTy).Contents (Elt F) → (⟨S200000, .i32⟩ : BufTy).Contents (Elt F)) main_v125 main_v128
  let main_v130 := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) main_v127 main_v129 main_v125
  let main_v131 := (broadcastInDim S200000x1 ![0] bcast_S200000_S200000x1_0 : (⟨S200000, .i32⟩ : BufTy).Contents (Elt F) → (⟨S200000x1, .i32⟩ : BufTy).Contents (Elt F)) main_v130
  let main_v132 := ((fun x i => Host.gather gather_S200000x32_S200000x1_S200000x32_1_0_n_n_0_1_132 x i) : (⟨S200000x32, .f32⟩ : BufTy).Contents (Elt F) → (⟨S200000x1, .i32⟩ : BufTy).Contents (Elt F) → (⟨S200000x32, .f32⟩ : BufTy).Contents (Elt F)) main_arg0 main_v131
  let main_v137 := ((fun x i u => Host.scatterAdd scatter_S200000x32_S200000x1_S200000x32_1_0_0_1 x i u) : (⟨S200000x32, .f32⟩ : BufTy).Contents (Elt F) → (⟨S200000x1, .i32⟩ : BufTy).Contents (Elt F) → (⟨S200000x32, .f32⟩ : BufTy).Contents (Elt F) → (⟨S200000x32, .f32⟩ : BufTy).Contents (Elt F)) main_v135 main_v136 main_v132
  let main_cst_26 := (constant (F := F) S_ .f32 0x00000000#32)
  let main_v141 := (broadcastInDim S200000 ![] bcast_S_S200000 : (⟨S_, .f32⟩ : BufTy).Contents (Elt F) → (⟨S200000, .f32⟩ : BufTy).Contents (Elt F)) main_cst_26
  let main_v139 := ((extractStridedSlice S1x200000 ![1, 0] · slices_S2x200000_S1x200000_1_0) : (⟨S2x200000, .i32⟩ : BufTy).Contents (Elt F) → (⟨S1x200000, .i32⟩ : BufTy).Contents (Elt F)) main_arg7
  let main_v140 := shapeCast S200000 main_v139 shapeCasts_S1x200000_S200000
  let main_v142 := (broadcastInDim S200000x1 ![0] bcast_S200000_S200000x1_0 : (⟨S200000, .i32⟩ : BufTy).Contents (Elt F) → (⟨S200000x1, .i32⟩ : BufTy).Contents (Elt F)) main_v140
  let main_cst_25 := (constant (F := F) S_ .f32 0x3F800000#32)
  let main_v138 := (broadcastInDim S200000 ![] bcast_S_S200000 : (⟨S_, .f32⟩ : BufTy).Contents (Elt F) → (⟨S200000, .f32⟩ : BufTy).Contents (Elt F)) main_cst_25
  let main_v143 := ((fun x i u => Host.scatterAdd scatter_S200000_S200000x1_S200000_n_0_0_1 x i u) : (⟨S200000, .f32⟩ : BufTy).Contents (Elt F) → (⟨S200000x1, .i32⟩ : BufTy).Contents (Elt F) → (⟨S200000, .f32⟩ : BufTy).Contents (Elt F) → (⟨S200000, .f32⟩ : BufTy).Contents (Elt F)) main_v141 main_v142 main_v138
  let main_cst_27 := (constant (F := F) S_ .f32 0x3F800000#32)
  let main_v144 := (broadcastInDim S200000 ![] bcast_S_S200000 : (⟨S_, .f32⟩ : BufTy).Contents (Elt F) → (⟨S200000, .f32⟩ : BufTy).Contents (Elt F)) main_cst_27
  let main_v145 := (maximumf : (⟨S200000, .f32⟩ : BufTy).Contents (Elt F) → (⟨S200000, .f32⟩ : BufTy).Contents (Elt F) → (⟨S200000, .f32⟩ : BufTy).Contents (Elt F)) main_v143 main_v144
  let main_v146 := (broadcastInDim S200000x1 ![0] bcast_S200000_S200000x1_0 : (⟨S200000, .f32⟩ : BufTy).Contents (Elt F) → (⟨S200000x1, .f32⟩ : BufTy).Contents (Elt F)) main_v145
  let main_v147 := (broadcastInDim S200000x32 ![0, 1] bcast_S200000x1_S200000x32_0_1 : (⟨S200000x1, .f32⟩ : BufTy).Contents (Elt F) → (⟨S200000x32, .f32⟩ : BufTy).Contents (Elt F)) main_v146
  let main_v148 := (Host.divf : (⟨S200000x32, .f32⟩ : BufTy).Contents (Elt F) → (⟨S200000x32, .f32⟩ : BufTy).Contents (Elt F) → (⟨S200000x32, .f32⟩ : BufTy).Contents (Elt F)) main_v137 main_v147
  let main_v149 := ((fun l r => Host.dotGeneral dot_S200000x32_S32x64_S200000x64_1_0_0_1_n_n none l r) : (⟨S200000x32, .f32⟩ : BufTy).Contents (Elt F) → (⟨S32x64, .f32⟩ : BufTy).Contents (Elt F) → (⟨S200000x64, .f32⟩ : BufTy).Contents (Elt F)) main_v148 main_arg20
  main_v149

/-- `%167` of the last window, of `%61`, `%149` and the arguments: the two branches completed and averaged, the leaky rectifier (its seven operations in line), the last product with `%arg23` and the bias row `%arg24`. -/
def tD167 (main_v61 : FVec F S200000x64 .f32) (main_v149 : FVec F S200000x64 .f32) (main_arg0 : FVec F S200000x32 .f32) (main_arg21 : FVec F S64 .f32) (main_arg22 : FVec F S32x64 .f32) (main_arg23 : FVec F S64x8 .f32) (main_arg24 : FVec F S8 .f32) : FVec F S200000x8 .f32 :=
  let main_cst_29 := (constant (F := F) S_ .f32 0x3F000000#32)
  let main_v161 := (broadcastInDim S200000x64 ![] bcast_S_S200000x64 : (⟨S_, .f32⟩ : BufTy).Contents (Elt F) → (⟨S200000x64, .f32⟩ : BufTy).Contents (Elt F)) main_cst_29
  let main_v150 := (broadcastInDim S1x64 ![1] bcast_S64_S1x64_1 : (⟨S64, .f32⟩ : BufTy).Contents (Elt F) → (⟨S1x64, .f32⟩ : BufTy).Contents (Elt F)) main_arg21
  let main_v151 := (broadcastInDim S200000x64 ![0, 1] bcast_S1x64_S200000x64_0_1 : (⟨S1x64, .f32⟩ : BufTy).Contents (Elt F) → (⟨S200000x64, .f32⟩ : BufTy).Contents (Elt F)) main_v150
  let main_v152 := (addf : (⟨S200000x64, .f32⟩ : BufTy).Contents (Elt F) → (⟨S200000x64, .f32⟩ : BufTy).Contents (Elt F) → (⟨S200000x64, .f32⟩ : BufTy).Contents (Elt F)) main_v149 main_v151
  let main_v153 := ((fun l r => Host.dotGeneral dot_S200000x32_S32x64_S200000x64_1_0_0_1_n_n none l r) : (⟨S200000x32, .f32⟩ : BufTy).Contents (Elt F) → (⟨S32x64, .f32⟩ : BufTy).Contents (Elt F) → (⟨S200000x64, .f32⟩ : BufTy).Contents (Elt F)) main_arg0 main_arg22
  let main_v154 := (addf : (⟨S200000x64, .f32⟩ : BufTy).Contents (Elt F) → (⟨S200000x64, .f32⟩ : BufTy).Contents (Elt F) → (⟨S200000x64, .f32⟩ : BufTy).Contents (Elt F)) main_v152 main_v153
  let main_v160 := (addf : (⟨S200000x64, .f32⟩ : BufTy).Contents (Elt F) → (⟨S200000x64, .f32⟩ : BufTy).Contents (Elt F) → (⟨S200000x64, .f32⟩ : BufTy).Contents (Elt F)) main_v61 main_v154
  let main_v162 := (mulf : (⟨S200000x64, .f32⟩ : BufTy).Contents (Elt F) → (⟨S200000x64, .f32⟩ : BufTy).Contents (Elt F) → (⟨S200000x64, .f32⟩ : BufTy).Contents (Elt F)) main_v161 main_v160
  let lr_cst := (constant (F := F) S_ .f32 0x00000000#32)
  let lr_v0 := (broadcastInDim S200000x64 ![] bcast_S_S200000x64) lr_cst
  let lr_v1 := (cmpf .oge) main_v162 lr_v0
  let lr_cst_0 := (constant (F := F) S_ .f32 0x3C23D70A#32)
  let lr_v2 := (broadcastInDim S200000x64 ![] bcast_S_S200000x64) lr_cst_0
  let lr_v3 := mulf lr_v2 main_v162
  let main_v163 := select lr_v1 main_v162 lr_v3
  let main_v164 := ((fun l r => Host.dotGeneral dot_S200000x64_S64x8_S200000x8_1_0_0_1_n_n none l r) : (⟨S200000x64, .f32⟩ : BufTy).Contents (Elt F) → (⟨S64x8, .f32⟩ : BufTy).Contents (Elt F) → (⟨S200000x8, .f32⟩ : BufTy).Contents (Elt F)) main_v163 main_arg23
  let main_v165 := (broadcastInDim S1x8 ![1] bcast_S8_S1x8_1 : (⟨S8, .f32⟩ : BufTy).Contents (Elt F) → (⟨S1x8, .f32⟩ : BufTy).Contents (Elt F)) main_arg24
  let main_v166 := (broadcastInDim S200000x8 ![0, 1] bcast_S1x8_S200000x8_0_1 : (⟨S1x8, .f32⟩ : BufTy).Contents (Elt F) → (⟨S200000x8, .f32⟩ : BufTy).Contents (Elt F)) main_v165
  let main_v167 := (addf : (⟨S200000x8, .f32⟩ : BufTy).Contents (Elt F) → (⟨S200000x8, .f32⟩ : BufTy).Contents (Elt F) → (⟨S200000x8, .f32⟩ : BufTy).Contents (Elt F)) main_v164 main_v166
  main_v167

theorem refOut_by_windows (main_arg0 : FVec F S200000x32 .f32) (main_arg1 : FVec F S100000x32 .f32) (main_arg4 : IVec S2x2000000 32) (main_arg7 : IVec S2x200000 32) (main_arg11 : FVec F S32x64 .f32) (main_arg12 : FVec F S64 .f32) (main_arg13 : FVec F S32x64 .f32) (main_arg20 : FVec F S32x64 .f32) (main_arg21 : FVec F S64 .f32) (main_arg22 : FVec F S32x64 .f32) (main_arg23 : FVec F S64x8 .f32) (main_arg24 : FVec F S8 .f32) :
    refOut main_arg0 main_arg1 main_arg4 main_arg7 main_arg11 main_arg12 main_arg13 main_arg20 main_arg21 main_arg22 main_arg23 main_arg24
      = tD167 (tB61 (tA44 main_arg1 main_arg4) tA45 (tA47 (F := F) main_arg4) tA48 main_arg0 main_arg11 main_arg12 main_arg13)
          (tC149 main_arg0 main_arg7 main_arg20) main_arg0 main_arg21 main_arg22 main_arg23 main_arg24 := rfl

-- the gathers and the scatter sums stay folded: each side of an equation below holds the same ones at the same
-- operands, and nothing here looks inside them
attribute [local irreducible] Host.gather Host.scatterAdd

theorem readA44 (W : Valuation τ sig (Elt F)) :
    after opsA W (Proc.devRef .tc main_v44) = tA44 (W (Proc.devRef .tc main_arg1)) (W (Proc.devRef .tc main_arg4)) := by
  after_results_simp
  rfl
theorem readA45 (W : Valuation τ sig (Elt F)) : after opsA W (Proc.devRef .tc main_v45) = tA45 := by
  after_results_simp
  rfl
theorem readA47 (W : Valuation τ sig (Elt F)) :
    after opsA W (Proc.devRef .tc main_v47) = tA47 (F := F) (W (Proc.devRef .tc main_arg4)) := by
  after_results_simp
  rfl
theorem readA48 (W : Valuation τ sig (Elt F)) : after opsA W (Proc.devRef .tc main_v48) = tA48 := by
  after_results_simp
  rfl
theorem readB61 (W : Valuation τ sig (Elt F)) :
    after opsB W (Proc.devRef .tc main_v61) = tB61 (W (Proc.devRef .tc main_v44)) (W (Proc.devRef .tc main_v45)) (W (Proc.devRef .tc main_v47)) (W (Proc.devRef .tc main_v48)) (W (Proc.devRef .tc main_arg0)) (W (Proc.devRef .tc main_arg11)) (W (Proc.devRef .tc main_arg12)) (W (Proc.devRef .tc main_arg13)) := by
  after_results_simp
  rfl
theorem readC149 (W : Valuation τ sig (Elt F)) :
    after opsC W (Proc.devRef .tc main_v149) = tC149 (W (Proc.devRef .tc main_arg0)) (W (Proc.devRef .tc main_arg7)) (W (Proc.devRef .tc main_arg20)) := by
  after_results_simp
  rfl
-- the calls' operations move their functions along the typed references' type equations: the identity at these literal references
theorem readD167 (W : Valuation τ sig (Elt F)) :
    after opsD W (Proc.devRef .tc main_v167) = tD167 (W (Proc.devRef .tc main_v61)) (W (Proc.devRef .tc main_v149)) (W (Proc.devRef .tc main_arg0)) (W (Proc.devRef .tc main_arg21)) (W (Proc.devRef .tc main_arg22)) (W (Proc.devRef .tc main_arg23)) (W (Proc.devRef .tc main_arg24)) := by
  after_results_simp
  (try simp only [TRef.ofBuf, TRef.toBuf, cast_eq])
  rfl

/-- The result buffer after the whole line: the last window's stretch at what the third and the second leave, those at
    what the first leaves, each argument read through the windows that do not write it. -/
theorem out_eq (V : Valuation τ sig (Elt F)) :
    after (opsA ++ (opsB ++ (opsC ++ opsD))) V (Proc.devRef .tc main_v167)
      = refOut (V (Proc.devRef .tc main_arg0)) (V (Proc.devRef .tc main_arg1)) (V (Proc.devRef .tc main_arg4)) (V (Proc.devRef .tc main_arg7)) (V (Proc.devRef .tc main_arg11)) (V (Proc.devRef .tc main_arg12)) (V (Proc.devRef .tc main_arg13)) (V (Proc.devRef .tc main_arg20)) (V (Proc.devRef .tc main_arg21)) (V (Proc.devRef .tc main_arg22)) (V (Proc.devRef .tc main_arg23)) (V (Proc.devRef .tc main_arg24)) := by
  rw [refOut_by_windows, after_app, after_app, after_app, readD167,
    keepC (r := main_v61) _ (by decide), readC149,
    keepC (r := main_arg0) _ (by decide), keepC (r := main_arg21) _ (by decide), keepC (r := main_arg22) _ (by decide), keepC (r := main_arg23) _ (by decide), keepC (r := main_arg24) _ (by decide),
    readB61,
    keepB (r := main_arg0) _ (by decide), keepB (r := main_arg7) _ (by decide), keepB (r := main_arg20) _ (by decide), keepB (r := main_arg21) _ (by decide), keepB (r := main_arg22) _ (by decide), keepB (r := main_arg23) _ (by decide), keepB (r := main_arg24) _ (by decide),
    readA44, readA45, readA47, readA48,
    keepA (r := main_arg0) _ (by decide), keepA (r := main_arg7) _ (by decide), keepA (r := main_arg11) _ (by decide), keepA (r := main_arg12) _ (by decide), keepA (r := main_arg13) _ (by decide), keepA (r := main_arg20) _ (by decide), keepA (r := main_arg21) _ (by decide), keepA (r := main_arg22) _ (by decide), keepA (r := main_arg23) _ (by decide), keepA (r := main_arg24) _ (by decide)]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v167) = refOut (m ((c.tc : Thread nD τ).loc main_arg0)) (m ((c.tc : Thread nD τ).loc main_arg1)) (m ((c.tc : Thread nD τ).loc main_arg4)) (m ((c.tc : Thread nD τ).loc main_arg7)) (m ((c.tc : Thread nD τ).loc main_arg11)) (m ((c.tc : Thread nD τ).loc main_arg12)) (m ((c.tc : Thread nD τ).loc main_arg13)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v167).trans (out_eq _),
      (h c main_arg0).trans (keep _ (by decide) (by decide) (by decide) (by decide)),
      (h c main_arg1).trans (keep _ (by decide) (by decide) (by decide) (by decide)),
      (h c main_arg2).trans (keep _ (by decide) (by decide) (by decide) (by decide)),
      (h c main_arg3).trans (keep _ (by decide) (by decide) (by decide) (by decide)),
      (h c main_arg4).trans (keep _ (by decide) (by decide) (by decide) (by decide)),
      (h c main_arg5).trans (keep _ (by decide) (by decide) (by decide) (by decide)),
      (h c main_arg6).trans (keep _ (by decide) (by decide) (by decide) (by decide)),
      (h c main_arg7).trans (keep _ (by decide) (by decide) (by decide) (by decide)),
      (h c main_arg8).trans (keep _ (by decide) (by decide) (by decide) (by decide)),
      (h c main_arg9).trans (keep _ (by decide) (by decide) (by decide) (by decide)),
      (h c main_arg10).trans (keep _ (by decide) (by decide) (by decide) (by decide)),
      (h c main_arg11).trans (keep _ (by decide) (by decide) (by decide) (by decide)),
      (h c main_arg12).trans (keep _ (by decide) (by decide) (by decide) (by decide)),
      (h c main_arg13).trans (keep _ (by decide) (by decide) (by decide) (by decide)),
      (h c main_arg14).trans (keep _ (by decide) (by decide) (by decide) (by decide)),
      (h c main_arg15).trans (keep _ (by decide) (by decide) (by decide) (by decide)),
      (h c main_arg16).trans (keep _ (by decide) (by decide) (by decide) (by decide)),
      (h c main_arg17).trans (keep _ (by decide) (by decide) (by decide) (by decide)),
      (h c main_arg18).trans (keep _ (by decide) (by decide) (by decide) (by decide)),
      (h c main_arg19).trans (keep _ (by decide) (by decide) (by decide) (by decide)),
      (h c main_arg20).trans (keep _ (by decide) (by decide) (by decide) (by decide)),
      (h c main_arg21).trans (keep _ (by decide) (by decide) (by decide) (by decide)),
      (h c main_arg22).trans (keep _ (by decide) (by decide) (by decide) (by decide)),
      (h c main_arg23).trans (keep _ (by decide) (by decide) (by decide) (by decide)),
      (h c main_arg24).trans (keep _ (by decide) (by decide) (by decide) (by decide))⟩)
    (run_seq scopedRefs_eq scopedSems_eq defs main (fun _ => opsA ++ (opsB ++ (opsC ++ opsD))) main_eq (fun _ => ops_sub) m ρ
      (fun _ => ops_fresh))

end Cert.ReferenceIdeal.Hand

end
-- ==== Proof.LibScatterAddBins.lean ====
/-
  An accumulating float scatter of N scalars into a vector of K bins, read at a bin, over the extended reals.

  `x.at[idx].add(upd)` of a vector `x : [K]` with one index per update (`idx : [N, 1]`, `upd : [N]`; also what
  `jax.ops.segment_sum` lowers to) prints as a scatter whose one operand axis is inserted and indexed by the start
  index. At the ideal instance the result at bin b is the operand's element plus the sum of the updates whose index
  word, read as a signed integer, is b; an update whose index is negative or at least K lands nowhere.

  The steps, each a lemma of its own: on the one operand axis the start of update j is the signed index word of row j
  (`binsDims_start`) and the window coordinate is 0, the axis being inserted (`binsDims_window`); so update j lands
  on bin b exactly when that signed word equals b (`binsDims_resultIdx?_eq_some_iff`); and the sum over the updates
  landing on b, taken over the indices of the update vector, is re-indexed over the numbers below N (`idx1Equiv`).
-/
import Idealize.ShloMosaic.PureOps.Ideal
import Idealize.ShloMosaic.Lib.ValueIdx

noncomputable section

namespace Idealize.ShloMosaic.ScatterAddBins

open Idealize.ShloMosaic Idealize.ShloMosaic.ValueIdx

/-- The dimension numbers of a scatter of N scalars into K bins: operand `[K]`, indices `[N, 1]`, updates `[N]`. -/
abbrev binsDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

/-- The start of update `j` on the one operand axis is the index word of row `j`, read as a signed integer: the
    start index's only component sits at `[j, 0]` of the scatter indices. -/
theorem binsDims_start {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (a : Fin 1) :
    (binsDims K N wf).start j idx a = (idx (ix2 (j 0) (0 : Fin 1))).toInt := by
  obtain rfl : a = 0 := Subsingleton.elim _ _
  unfold ScatterDims.start
  rw [dif_pos (show (0 : Fin 1) ∈ (binsDims K N wf).scatterDimsToOperandDims from List.mem_singleton.mpr rfl)]
  have hsi : (binsDims K N wf).siIdx j ⟨List.idxOf (0 : Fin 1) (binsDims K N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The one operand axis is an inserted window axis, so every update's window coordinate on it is `0`. -/
theorem binsDims_window {K N : Nat} (wf : ScatterDims.WF ⟨1, ![K]⟩ ⟨2, ![N, 1]⟩ ⟨1, ![N]⟩ [] [0] [0] 1)
    (j : (⟨1, ![N]⟩ : Shape).Idx) (a : Fin 1) : (binsDims K N wf).window j a = 0 := by
  obtain rfl : a = 0 := Subsingleton.elim _ _
  unfold ScatterDims.window
  rw [dif_neg]
  intro h
  have h2 := (List.mem_filter.1 h).2
  simp at h2

/-- Update `j` lands on bin `b` exactly when its index word, read as a signed integer, is `b`: a word that is
    negative or at least `K` names no bin, and the update is dropped. -/
theorem binsDims_resultIdx?_eq_some_iff {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (b : Fin K) :
    (binsDims K N wf).resultIdx? j idx = some (ix1 b) ↔ (idx (ix2 (j 0) (0 : Fin 1))).toInt = (b.val : Int) := by
  have hb : b.val < K := b.isLt
  unfold ScatterDims.resultIdx?
  split_ifs with h
  · rw [Option.some.injEq]
    constructor
    · intro e
      have e0 := congrArg (fun f => (f 0).val) e
      simp only [binsDims_start, binsDims_window] at e0
      have h0 := h 0
      simp only [binsDims_start, binsDims_window] at h0
      change ((idx (ix2 (j 0) (0 : Fin 1))).toInt + ((0 : Nat) : Int)).toNat = b.val at e0
      omega
    · intro e
      funext a
      obtain rfl : a = 0 := Subsingleton.elim _ _
      refine Fin.ext ?_
      simp only [binsDims_start, binsDims_window]
      change ((idx (ix2 (j 0) (0 : Fin 1))).toInt + ((0 : Nat) : Int)).toNat = b.val
      omega
  · constructor
    · intro e; exact absurd e (by simp)
    · intro e
      exfalso
      apply h
      intro a
      simp only [binsDims_start, binsDims_window]
      obtain rfl : a = 0 := Subsingleton.elim _ _
      change 0 ≤ (idx (ix2 (j 0) (0 : Fin 1))).toInt + ((0 : Nat) : Int) ∧
        (idx (ix2 (j 0) (0 : Fin 1))).toInt + ((0 : Nat) : Int) < (K : Int)
      omega

/-- The indices of a vector of extent `N` are the numbers below `N`. -/
def idx1Equiv (N : Nat) : Fin N ≃ (⟨1, ![N]⟩ : Shape).Idx where
  toFun := fun i => ix1 i
  invFun := fun j => j 0
  left_inv := fun _ => rfl
  right_inv := fun j => (eq_ix1 j).symm

/-- THE BINNED SUM AT BIN `b`: the operand's element plus the sum of the updates whose index word is `b`. -/
theorem scatterAdd_bins_apply {K N w : Nat} (wf : ScatterDims.WF ⟨1, ![K]⟩ ⟨2, ![N, 1]⟩ ⟨1, ![N]⟩ [] [0] [0] 1)
    (x : (⟨1, ![K]⟩ : Shape).Idx → EReal) (idx : IVec ⟨2, ![N, 1]⟩ w) (upd : (⟨1, ![N]⟩ : Shape).Idx → EReal) (b : Fin K) :
    Ideal.hostScatterAdd (binsDims K N wf) x idx upd (ix1 b)
      = x (ix1 b) + ∑ i : Fin N, if (idx (ix2 i (0 : Fin 1))).toInt = (b.val : Int) then upd (ix1 i) else 0 := by
  unfold Ideal.hostScatterAdd
  refine congrArg (x (ix1 b) + ·) ?_
  rw [Finset.sum_filter]
  refine (Fintype.sum_equiv (idx1Equiv N) _ _ fun i => ?_).symm
  exact (if_congr (binsDims_resultIdx?_eq_some_iff wf idx (ix1 i) b) rfl rfl).symm

end Idealize.ShloMosaic.ScatterAddBins

end
-- ==== Proof.RefValue.lean ====
/-
  The reference's composed result term, read at the ideal instance index by index, is the specification `Sage.resR` of
  its arguments: the two edge lists' columns are `Sage.srcCol` / `Sage.dstCol`, each aggregation a `Sage.segSum` over
  a `Sage.segCnt`, the two convolutions' outputs added, halved and rectified, then projected.
-/
import proofs.«400680_j71004399338031_3_alg».proof.Proof.RefTerm
import proofs.«400680_j71004399338031_3_alg».proof.Proof.Spec
import proofs.«400680_j71004399338031_3_alg».proof.Proof.LibGatherRows
import proofs.«400680_j71004399338031_3_alg».proof.Proof.LibScatterAddBins
import proofs.«400680_j71004399338031_3_alg».proof.Proof.LibScatterAddRows
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.ReferenceIdeal.Hand

open Cert.ReferenceIdeal Cert.ReferenceIdeal.Gen Idealize.ShloMosaic Idealize.ShloMosaic.ValueIdx

/-! ## Broadcasts read at an index -/

/-- A scalar broadcast to any shape reads the scalar everywhere. -/
theorem bcast_scalar_apply {α : Type} {t : Shape} (dims : Fin S_.rank → Fin t.rank) (h : S_.BroadcastsInDim t dims)
    (x : S_.Idx → α) (j : t.Idx) : broadcastInDim t dims h x j = x ix0 :=
  broadcastInDim_apply dims h x j ix0 (fun a => a.elim0)

/-- A row `[n]` laid as `[1, n]` and repeated down `m` rows reads, at `(r, j)`, the row's entry `j`. -/
theorem bias_rows_apply {α : Type} {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (j : Fin n) :
    broadcastInDim ⟨2, ![m, n]⟩ ![0, 1] h2 (broadcastInDim ⟨2, ![1, n]⟩ ![1] h1 b) (ix2 r j) = b (ix1 j) := by
  refine (broadcastInDim_apply _ h2 _ (ix2 r j) (ix2 (0 : Fin 1) j) fun a => ?_).trans
    (broadcastInDim_apply _ h1 b (ix2 (0 : Fin 1) j) (ix1 j) fun a => ?_)
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-- A vector `[m]` stood up as a column `[m, 1]` reads, at `(p, q)`, the vector's entry `p`. -/
theorem column_apply {α : Type} {m : Nat} (v : (⟨1, ![m]⟩ : Shape).Idx → α)
    (h : (⟨1, ![m]⟩ : Shape).BroadcastsInDim ⟨2, ![m, 1]⟩ ![0]) (p : Fin m) (q : Fin 1) :
    broadcastInDim ⟨2, ![m, 1]⟩ ![0] h v (ix2 p q) = v (ix1 p) := by
  refine broadcastInDim_apply _ h v (ix2 p q) (ix1 p) fun a => ?_
  match a with
  | ⟨0, _⟩ =>
    show p.val = if m = 1 then 0 else p.val
    split
    · have := p.isLt; omega
    · rfl

/-- A vector `[m]` stood up as a column and repeated across `b` columns reads, at `(p, c)`, the vector's entry `p`. -/
theorem column_rows_apply {α : Type} {m b : Nat} (v : (⟨1, ![m]⟩ : Shape).Idx → α)
    (h1 : (⟨1, ![m]⟩ : Shape).BroadcastsInDim ⟨2, ![m, 1]⟩ ![0])
    (h2 : (⟨2, ![m, 1]⟩ : Shape).BroadcastsInDim ⟨2, ![m, b]⟩ ![0, 1]) (p : Fin m) (c : Fin b) :
    broadcastInDim ⟨2, ![m, b]⟩ ![0, 1] h2 (broadcastInDim ⟨2, ![m, 1]⟩ ![0] h1 v) (ix2 p c) = v (ix1 p) := by
  refine (broadcastInDim_apply _ h2 _ (ix2 p c) (ix2 p (0 : Fin 1)) fun a => ?_).trans (column_apply v h1 p 0)
  match a with
  | ⟨0, _⟩ =>
    show p.val = if m = 1 then 0 else p.val
    split
    · have := p.isLt; omega
    · rfl
  | ⟨1, _⟩ => rfl

/-! ## The edge columns -/

/-- Row `o` of an edge array `[2, E]`, cut out as `[1, E]` and flattened to `[E]`, reads at `p` the array at `(o, p)`. -/
theorem edgeRow_apply {E : Nat} (o : Nat) (e : IVec ⟨2, ![2, E]⟩ 32)
    (hs : (⟨2, ![2, E]⟩ : Shape).Slices ![o, 0] ⟨2, ![1, E]⟩)
    (hc : (⟨2, ![1, E]⟩ : Shape).ShapeCasts ⟨1, ![E]⟩) (k : Fin 2) (hk : k.val = o) (p : Fin E) :
    shapeCast ⟨1, ![E]⟩ (extractStridedSlice ⟨2, ![1, E]⟩ ![o, 0] e hs) hc (ix1 p) = e (ix2 k p) :=
  (shapeCast_1a_a_apply _ hc p).trans (slice2_axis0_apply o e hs (0 : Fin 1) p k (by rw [hk]; rfl))

/-- The destination column of an edge list is its second row stood up as a column. -/
theorem dstCol_eq {E : Nat} (e : IVec ⟨2, ![2, E]⟩ 32)
    (hs : (⟨2, ![2, E]⟩ : Shape).Slices ![1, 0] ⟨2, ![1, E]⟩)
    (hc : (⟨2, ![1, E]⟩ : Shape).ShapeCasts ⟨1, ![E]⟩)
    (hb : (⟨1, ![E]⟩ : Shape).BroadcastsInDim ⟨2, ![E, 1]⟩ ![0]) :
    broadcastInDim ⟨2, ![E, 1]⟩ ![0] hb (shapeCast ⟨1, ![E]⟩ (extractStridedSlice ⟨2, ![1, E]⟩ ![1, 0] e hs) hc)
      = Sage.dstCol e := by
  funext i
  obtain ⟨p, q, rfl⟩ : ∃ (p : Fin E) (q : Fin 1), i = ix2 p q := ⟨i 0, i 1, eq_ix2 i⟩
  exact (column_apply _ hb p q).trans (edgeRow_apply 1 e hs hc (1 : Fin 2) rfl p)

/-- The source column of an edge list is its first row, each negative word moved up by the table's height, stood up
    as a column. -/
theorem srcCol_eq {E : Nat} (N : BitVec 32) (e : IVec ⟨2, ![2, E]⟩ 32)
    (hs : (⟨2, ![2, E]⟩ : Shape).Slices ![0, 0] ⟨2, ![1, E]⟩)
    (hc : (⟨2, ![1, E]⟩ : Shape).ShapeCasts ⟨1, ![E]⟩)
    (hz : S_.BroadcastsInDim ⟨1, ![E]⟩ ![])
    (hb : (⟨1, ![E]⟩ : Shape).BroadcastsInDim ⟨2, ![E, 1]⟩ ![0]) :
    broadcastInDim ⟨2, ![E, 1]⟩ ![0] hb
      (select
        (cmpi .slt (shapeCast ⟨1, ![E]⟩ (extractStridedSlice ⟨2, ![1, E]⟩ ![0, 0] e hs) hc)
          (broadcastInDim ⟨1, ![E]⟩ ![] hz (constantI S_ 32 0#32)))
        (addi (shapeCast ⟨1, ![E]⟩ (extractStridedSlice ⟨2, ![1, E]⟩ ![0, 0] e hs) hc)
          (broadcastInDim ⟨1, ![E]⟩ ![] hz (constantI S_ 32 N)))
        (shapeCast ⟨1, ![E]⟩ (extractStridedSlice ⟨2, ![1, E]⟩ ![0, 0] e hs) hc))
      = Sage.srcCol N e := by
  funext i
  obtain ⟨p, q, rfl⟩ : ∃ (p : Fin E) (q : Fin 1), i = ix2 p q := ⟨i 0, i 1, eq_ix2 i⟩
  refine (column_apply _ hb p q).trans ?_
  have hv := edgeRow_apply 0 e hs hc (0 : Fin 2) rfl p
  show Scalar.select (IntOp.cmpi .slt (shapeCast ⟨1, ![E]⟩ (extractStridedSlice ⟨2, ![1, E]⟩ ![0, 0] e hs) hc (ix1 p)) 0#32)
      (IntOp.addi (shapeCast ⟨1, ![E]⟩ (extractStridedSlice ⟨2, ![1, E]⟩ ![0, 0] e hs) hc (ix1 p)) N)
      (shapeCast ⟨1, ![E]⟩ (extractStridedSlice ⟨2, ![1, E]⟩ ![0, 0] e hs) hc (ix1 p)) = _
  rw [hv]
  rfl

/-! ## The binned sums and counts -/

open GatherRows ScatterAddRows ScatterAddBins in
/-- Rows of a table taken at a source column and summed into the bins a destination column names, from a table of
    zeros: at `(r, k)` the sum, over the edges into `r`, of the source table's entry at the clamped source row and
    column `k`. The zero start drops by `0 + s = s`; a taken row is the table at the clamped word. -/
theorem segSum_apply {N B E K : Nat} (hN : 0 < N)
    (wfg : GatherDims.WF ⟨2, ![N, B]⟩ ⟨2, ![E, 1]⟩ ⟨2, ![E, B]⟩ [1] [0] [] [0] [] 1 ![1, B])
    (wfs : ScatterDims.WF ⟨2, ![K, B]⟩ ⟨2, ![E, 1]⟩ ⟨2, ![E, B]⟩ [1] [0] [0] 1)
    (hz : S_.BroadcastsInDim ⟨2, ![K, B]⟩ ![])
    (x : FVec Ideal ⟨2, ![N, B]⟩ .f32) (si di : IVec ⟨2, ![E, 1]⟩ 32) (r : Fin K) (k : Fin B) :
    Host.scatterAdd (F := Ideal) (rowsDims K B E wfs)
        (broadcastInDim ⟨2, ![K, B]⟩ ![] hz (constant (F := Ideal) S_ .f32 0x00000000#32)) di
        (Host.gather (colDims N B E wfg) x si) (ix2 r k)
      = Sage.segSum hN x si di r k := by
  show Ideal.hostScatterAdd (rowsDims K B E wfs) _ di _ (ix2 r k) = _
  rw [scatterAdd_rows_apply, bcast_scalar_apply]
  show Ideal.ofBits .f32 0x00000000#32 + _ = _
  rw [Ideal.ofBits_zero_f32, zero_add]
  unfold Sage.segSum
  refine Finset.sum_congr rfl fun i _ => ?_
  rw [gather_col_apply hN]
  rfl

open ScatterAddBins in
/-- Ones summed into the bins a destination column names, from a vector of zeros: at `r` the number of edges into `r`. -/
theorem segCnt_apply {E K : Nat}
    (wfs : ScatterDims.WF ⟨1, ![K]⟩ ⟨2, ![E, 1]⟩ ⟨1, ![E]⟩ [] [0] [0] 1)
    (hz : S_.BroadcastsInDim ⟨1, ![K]⟩ ![]) (ho : S_.BroadcastsInDim ⟨1, ![E]⟩ ![])
    (di : IVec ⟨2, ![E, 1]⟩ 32) (r : Fin K) :
    Host.scatterAdd (F := Ideal) (binsDims K E wfs)
        (broadcastInDim ⟨1, ![K]⟩ ![] hz (constant (F := Ideal) S_ .f32 0x00000000#32)) di
        (broadcastInDim ⟨1, ![E]⟩ ![] ho (constant (F := Ideal) S_ .f32 0x3F800000#32)) (ix1 r)
      = Sage.segCnt di r := by
  show Ideal.hostScatterAdd (binsDims K E wfs) _ di _ (ix1 r) = _
  rw [scatterAdd_bins_apply, bcast_scalar_apply]
  show Ideal.ofBits .f32 0x00000000#32 + _ = _
  rw [Ideal.ofBits_zero_f32, zero_add]
  unfold Sage.segCnt
  refine Finset.sum_congr rfl fun i _ => ?_
  rw [bcast_scalar_apply]
  rfl

/-- A table of bin sums over the column of bin counts, each count first raised to at least one and repeated across
    the table's columns: at `(r, k)` the mean of the bin. -/
theorem mean_apply {K B : Nat} (s : FVec Ideal ⟨2, ![K, B]⟩ .f32) (c : FVec Ideal ⟨1, ![K]⟩ .f32)
    (ho : S_.BroadcastsInDim ⟨1, ![K]⟩ ![])
    (h1 : (⟨1, ![K]⟩ : Shape).BroadcastsInDim ⟨2, ![K, 1]⟩ ![0])
    (h2 : (⟨2, ![K, 1]⟩ : Shape).BroadcastsInDim ⟨2, ![K, B]⟩ ![0, 1]) (r : Fin K) (k : Fin B) :
    Host.divf s (broadcastInDim ⟨2, ![K, B]⟩ ![0, 1] h2 (broadcastInDim ⟨2, ![K, 1]⟩ ![0] h1
        (maximumf c (broadcastInDim ⟨1, ![K]⟩ ![] ho (constant (F := Ideal) S_ .f32 0x3F800000#32))))) (ix2 r k)
      = Sage.meanOf (s (ix2 r k)) (c (ix1 r)) := by
  show Ideal.div (s (ix2 r k)) _ = _
  rw [column_rows_apply, maximumf_apply, bcast_scalar_apply]
  rfl

open GatherRows ScatterAddRows ScatterAddBins in
/-- The aggregated mean read at `(r, k)`, built from an edge array: the bin sums of the rows taken at the source
    column, over the bin counts raised to at least one. -/
theorem rowMean_apply {N B E K : Nat} (hN : 0 < N) (Nw : BitVec 32)
    (wfg : GatherDims.WF ⟨2, ![N, B]⟩ ⟨2, ![E, 1]⟩ ⟨2, ![E, B]⟩ [1] [0] [] [0] [] 1 ![1, B])
    (wfs : ScatterDims.WF ⟨2, ![K, B]⟩ ⟨2, ![E, 1]⟩ ⟨2, ![E, B]⟩ [1] [0] [0] 1)
    (wfc : ScatterDims.WF ⟨1, ![K]⟩ ⟨2, ![E, 1]⟩ ⟨1, ![E]⟩ [] [0] [0] 1)
    (hs0 : (⟨2, ![2, E]⟩ : Shape).Slices ![0, 0] ⟨2, ![1, E]⟩)
    (hs1 : (⟨2, ![2, E]⟩ : Shape).Slices ![1, 0] ⟨2, ![1, E]⟩)
    (hc : (⟨2, ![1, E]⟩ : Shape).ShapeCasts ⟨1, ![E]⟩)
    (hzE : S_.BroadcastsInDim ⟨1, ![E]⟩ ![])
    (hcol : (⟨1, ![E]⟩ : Shape).BroadcastsInDim ⟨2, ![E, 1]⟩ ![0])
    (hzKB : S_.BroadcastsInDim ⟨2, ![K, B]⟩ ![])
    (hzK : S_.BroadcastsInDim ⟨1, ![K]⟩ ![])
    (h1 : (⟨1, ![K]⟩ : Shape).BroadcastsInDim ⟨2, ![K, 1]⟩ ![0])
    (h2 : (⟨2, ![K, 1]⟩ : Shape).BroadcastsInDim ⟨2, ![K, B]⟩ ![0, 1])
    (x : FVec Ideal ⟨2, ![N, B]⟩ .f32) (e : IVec ⟨2, ![2, E]⟩ 32) (r : Fin K) (k : Fin B) :
    Host.divf
      (Host.scatterAdd (F := Ideal) (rowsDims K B E wfs)
        (broadcastInDim ⟨2, ![K, B]⟩ ![] hzKB (constant (F := Ideal) S_ .f32 0x00000000#32))
        (broadcastInDim ⟨2, ![E, 1]⟩ ![0] hcol (shapeCast ⟨1, ![E]⟩ (extractStridedSlice ⟨2, ![1, E]⟩ ![1, 0] e hs1) hc))
        (Host.gather (colDims N B E wfg) x
          (broadcastInDim ⟨2, ![E, 1]⟩ ![0] hcol
            (select
              (cmpi .slt (shapeCast ⟨1, ![E]⟩ (extractStridedSlice ⟨2, ![1, E]⟩ ![0, 0] e hs0) hc)
                (broadcastInDim ⟨1, ![E]⟩ ![] hzE (constantI S_ 32 0#32)))
              (addi (shapeCast ⟨1, ![E]⟩ (extractStridedSlice ⟨2, ![1, E]⟩ ![0, 0] e hs0) hc)
                (broadcastInDim ⟨1, ![E]⟩ ![] hzE (constantI S_ 32 Nw)))
              (shapeCast ⟨1, ![E]⟩ (extractStridedSlice ⟨2, ![1, E]⟩ ![0, 0] e hs0) hc)))))
      (broadcastInDim ⟨2, ![K, B]⟩ ![0, 1] h2 (broadcastInDim ⟨2, ![K, 1]⟩ ![0] h1
        (maximumf
          (Host.scatterAdd (F := Ideal) (binsDims K E wfc)
            (broadcastInDim ⟨1, ![K]⟩ ![] hzK (constant (F := Ideal) S_ .f32 0x00000000#32))
            (broadcastInDim ⟨2, ![E, 1]⟩ ![0] hcol (shapeCast ⟨1, ![E]⟩ (extractStridedSlice ⟨2, ![1, E]⟩ ![1, 0] e hs1) hc))
            (broadcastInDim ⟨1, ![E]⟩ ![] hzE (constant (F := Ideal) S_ .f32 0x3F800000#32)))
          (broadcastInDim ⟨1, ![K]⟩ ![] hzK (constant (F := Ideal) S_ .f32 0x3F800000#32))))) (ix2 r k)
      = Sage.meanOf (Sage.segSum hN x (Sage.srcCol Nw e) (Sage.dstCol e) r k) (Sage.segCnt (Sage.dstCol e) r) := by
  rw [srcCol_eq, dstCol_eq, mean_apply, segSum_apply hN, segCnt_apply]

/-! ## The products -/

/-- A matrix product `[M, K] · [K, N]` read at `(r, j)`: the sum over the contracted coordinate. -/
theorem dot_rows_apply {M K N : Nat} (A : FVec Ideal ⟨2, ![M, K]⟩ .f32) (W : FVec Ideal ⟨2, ![K, N]⟩ .f32)
    (r : Fin M) (j : Fin N) :
    Host.dotGeneral (DotDims.plain M K N) none A W (ix2 r j) = ∑ k : Fin K, A (ix2 r k) * W (ix2 k j) :=
  StackMember.dotGeneral_plain_apply none A W r j

/-! ## The two convolutions' outputs, halved, rectified and projected -/

/-- The layer read at `(r, n)`, of any three tables `x`, `m2`, `m5` whose rows at `r` are `xr`, `mr2`, `mr5` and any
    three bias tables that read, on row `r`, the bias rows `b2`, `b5`, `bout`: each product is a sum over the contracted
    coordinate, each scalar reads through its broadcast, and the rectifier compares with the zero word's value, zero. -/
theorem layer_apply {R : Nat}
    (x m2 m5 : FVec Ideal ⟨2, ![R, 32]⟩ .f32) (Wl2 Wr2 Wl5 Wr5 : FVec Ideal ⟨2, ![32, 64]⟩ .f32)
    (B2 B5 : FVec Ideal ⟨2, ![R, 64]⟩ .f32) (Wout : FVec Ideal ⟨2, ![64, 8]⟩ .f32) (BO : FVec Ideal ⟨2, ![R, 8]⟩ .f32)
    (hc : S_.BroadcastsInDim ⟨2, ![R, 64]⟩ ![])
    (r : Fin R) (n : Fin 8) (xr mr2 mr5 : Fin 32 → EReal)
    (b2 b5 : FVec Ideal ⟨1, ![64]⟩ .f32) (bout : FVec Ideal ⟨1, ![8]⟩ .f32)
    (hx : ∀ k, x (ix2 r k) = xr k) (h2 : ∀ k, m2 (ix2 r k) = mr2 k) (h5 : ∀ k, m5 (ix2 r k) = mr5 k)
    (hB2 : ∀ j, B2 (ix2 r j) = b2 (ix1 j)) (hB5 : ∀ j, B5 (ix2 r j) = b5 (ix1 j)) (hBO : BO (ix2 r n) = bout (ix1 n)) :
    addf
      (Host.dotGeneral (DotDims.plain R 64 8) none
        (select
          (cmpf .oge
            (mulf (broadcastInDim ⟨2, ![R, 64]⟩ ![] hc (constant (F := Ideal) S_ .f32 0x3F000000#32))
              (addf
                (addf (addf (Host.dotGeneral (DotDims.plain R 32 64) none m2 Wl2) B2)
                  (Host.dotGeneral (DotDims.plain R 32 64) none x Wr2))
                (addf (addf (Host.dotGeneral (DotDims.plain R 32 64) none m5 Wl5) B5)
                  (Host.dotGeneral (DotDims.plain R 32 64) none x Wr5))))
            (broadcastInDim ⟨2, ![R, 64]⟩ ![] hc (constant (F := Ideal) S_ .f32 0x00000000#32)))
          (mulf (broadcastInDim ⟨2, ![R, 64]⟩ ![] hc (constant (F := Ideal) S_ .f32 0x3F000000#32))
            (addf
              (addf (addf (Host.dotGeneral (DotDims.plain R 32 64) none m2 Wl2) B2)
                (Host.dotGeneral (DotDims.plain R 32 64) none x Wr2))
              (addf (addf (Host.dotGeneral (DotDims.plain R 32 64) none m5 Wl5) B5)
                (Host.dotGeneral (DotDims.plain R 32 64) none x Wr5))))
          (mulf (broadcastInDim ⟨2, ![R, 64]⟩ ![] hc (constant (F := Ideal) S_ .f32 0x3C23D70A#32))
            (mulf (broadcastInDim ⟨2, ![R, 64]⟩ ![] hc (constant (F := Ideal) S_ .f32 0x3F000000#32))
              (addf
                (addf (addf (Host.dotGeneral (DotDims.plain R 32 64) none m2 Wl2) B2)
                  (Host.dotGeneral (DotDims.plain R 32 64) none x Wr2))
                (addf (addf (Host.dotGeneral (DotDims.plain R 32 64) none m5 Wl5) B5)
                  (Host.dotGeneral (DotDims.plain R 32 64) none x Wr5))))))
        Wout)
      BO (ix2 r n)
    = Sage.outOf (Sage.hidR xr mr2 mr5 Wr2 Wr5 Wl2 Wl5 b2 b5) Wout bout n := by
  simp only [addf_apply, mulf_apply, select_apply, cmpf_apply, dot_rows_apply,
    bcast_scalar_apply, constant_apply, Ideal.ofBits_zero_f32, hx, h2, h5, hB2, hB5, hBO]
  rfl

/-- The reference's result is the specification: the layer's lemma at the program's own tables, whose rows are the
    product features' row, the two aggregated means' rows, and the bias rows. -/
theorem refOut_eq (a0 : FVec Ideal S200000x32 .f32) (a1 : FVec Ideal S100000x32 .f32) (a4 : IVec S2x2000000 32) (a7 : IVec S2x200000 32)
    (a11 : FVec Ideal S32x64 .f32) (a12 : FVec Ideal S64 .f32) (a13 : FVec Ideal S32x64 .f32) (a20 : FVec Ideal S32x64 .f32)
    (a21 : FVec Ideal S64 .f32) (a22 : FVec Ideal S32x64 .f32) (a23 : FVec Ideal S64x8 .f32) (a24 : FVec Ideal S8 .f32) :
    refOut (F := Ideal) a0 a1 a4 a7 a11 a12 a13 a20 a21 a22 a23 a24
      = Sage.resR a0 a1 (Sage.srcCol 100000#32 a4) (Sage.dstCol a4) (Sage.srcCol 200000#32 a7) (Sage.dstCol a7)
          a11 a13 a20 a22 a12 a21 a23 a24 := by
  funext i
  obtain ⟨r, n, rfl⟩ : ∃ (r : Fin 200000) (n : Fin 8), i = ix2 r n := ⟨i 0, i 1, eq_ix2 i⟩
  refine layer_apply a0 _ _ a11 a13 a20 a22 _ _ a23 _ bcast_S_S200000x64 r n
    (Sage.rowX a0 r) (Sage.rowM2 a1 (Sage.srcCol 100000#32 a4) (Sage.dstCol a4) r)
    (Sage.rowM5 a0 (Sage.srcCol 200000#32 a7) (Sage.dstCol a7) r) a12 a21 a24
    (fun k => rfl) (fun k => ?_) (fun k => ?_) (fun j => ?_) (fun j => ?_) ?_
  · exact rowMean_apply (N := 100000) (by decide) 100000#32
      gather_S100000x32_S2000000x1_S2000000x32_1_0_n_n_0_1_132_wf
      scatter_S200000x32_S2000000x1_S2000000x32_1_0_0_1_wf scatter_S200000_S2000000x1_S2000000_n_0_0_1_wf
      slices_S2x2000000_S1x2000000_0_0 slices_S2x2000000_S1x2000000_1_0 shapeCasts_S1x2000000_S2000000
      bcast_S_S2000000 bcast_S2000000_S2000000x1_0 bcast_S_S200000x32 bcast_S_S200000
      bcast_S200000_S200000x1_0 bcast_S200000x1_S200000x32_0_1 a1 a4 r k
  · exact rowMean_apply (N := 200000) (by decide) 200000#32
      gather_S200000x32_S200000x1_S200000x32_1_0_n_n_0_1_132_wf
      scatter_S200000x32_S200000x1_S200000x32_1_0_0_1_wf scatter_S200000_S200000x1_S200000_n_0_0_1_wf
      slices_S2x200000_S1x200000_0_0 slices_S2x200000_S1x200000_1_0 shapeCasts_S1x200000_S200000
      bcast_S_S200000 bcast_S200000_S200000x1_0 bcast_S_S200000x32 bcast_S_S200000
      bcast_S200000_S200000x1_0 bcast_S200000x1_S200000x32_0_1 a0 a7 r k
  · exact bias_rows_apply a12 bcast_S64_S1x64_1 bcast_S1x64_S200000x64_0_1 r j
  · exact bias_rows_apply a21 bcast_S64_S1x64_1 bcast_S1x64_S200000x64_0_1 r j
  · exact bias_rows_apply a24 bcast_S8_S1x8_1 bcast_S1x8_S200000x8_0_1 r n

end Cert.ReferenceIdeal.Hand

end
-- ==== Proof.Finite.lean ====
/-
  The precondition read: when the finiteness predicate of the argument arrays is all ones, every entry of every float
  argument is a real number (neither infinity).
-/
import proofs.«400680_j71004399338031_3_alg».proof.Proof.Gen.Pre_finite_inputs
import Idealize.ShloMosaic.PureOps.Ideal.Laws
import Idealize.ShloMosaic.Lib.ValueIdx
import Idealize.ShloMosaic.Lib.ReduceAll

noncomputable section

namespace Cert.Pre_finite_inputs.Hand

open Cert.Pre_finite_inputs Cert.Pre_finite_inputs.Gen Idealize.ShloMosaic

/-- Every entry of an array is a real number. -/
def AllReal {s : Shape} (x : s.Idx → EReal) : Prop := ∀ i, ∃ r : ℝ, x i = (r : EReal)

/-- The scalar shape has exactly one index. -/
instance : Subsingleton S_.Idx := ⟨fun a b => funext fun d => d.elim0⟩

/-- The pattern `0x7F800000` denotes plus infinity. -/
theorem inf_f32 : Ideal.ofBits .f32 0x7F800000#32 = (⊤ : EReal) := by simp [Ideal.ofBits, Ideal.ieee]

/-- One entry: if the larger of `x` and `-x` lies strictly below plus infinity then `x` is a real number; at either infinity
that larger value is plus infinity itself, which is not strictly below itself. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- All entries real from one conjunct: the conjunction over every index of "the absolute value is strictly below plus
infinity" being one gives that comparison at each index, and the one-entry fact reads it. -/
theorem allReal_of_conjunct {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) : AllReal x := by
  intro i
  have h1 := Host.reduce_andi_all _ _ hr hu ValueIdx.ix0 e i
  have h2 : Ideal.cmp .olt (max (x i) (-(x i))) (Ideal.ofBits .f32 0x7F800000#32) = 1#1 := h1
  rw [inf_f32] at h2
  exact real_of_abs_lt_top _ h2

/-- The conjunction of two scalar truth values is one exactly when both are: the left and the right conjunct, read at the
one index. -/
theorem andi_split (X Y : IVec S_ 1) (e : andi X Y ValueIdx.ix0 = 1#1) : X ValueIdx.ix0 = 1#1 ∧ Y ValueIdx.ix0 = 1#1 :=
  IntOp.andi_eq_one.1 e

theorem allReal_of_pre
    (a0 : FVec Ideal S200000x32 .f32) (a1 : FVec Ideal S100000x32 .f32) (a2 : FVec Ideal S10x32 .f32)
    (a3 : IVec S2x2000000 32) (a4 : IVec S2x2000000 32) (a5 : IVec S2x1000000 32) (a6 : IVec S2x1000000 32) (a7 : IVec S2x200000 32)
    (a8 : FVec Ideal S32x64 .f32) (a9 : FVec Ideal S64 .f32) (a10 : FVec Ideal S32x64 .f32)
    (a11 : FVec Ideal S32x64 .f32) (a12 : FVec Ideal S64 .f32) (a13 : FVec Ideal S32x64 .f32)
    (a14 : FVec Ideal S32x64 .f32) (a15 : FVec Ideal S64 .f32) (a16 : FVec Ideal S32x64 .f32)
    (a17 : FVec Ideal S32x64 .f32) (a18 : FVec Ideal S64 .f32) (a19 : FVec Ideal S32x64 .f32)
    (a20 : FVec Ideal S32x64 .f32) (a21 : FVec Ideal S64 .f32) (a22 : FVec Ideal S32x64 .f32)
    (a23 : FVec Ideal S64x8 .f32) (a24 : FVec Ideal S8 .f32)
    (h : Cert.Pre_finite_inputs.fn (F := Ideal) a0 a1 a2 a3 a4 a5 a6 a7 a8 a9 a10 a11 a12 a13 a14 a15 a16 a17 a18 a19 a20 a21 a22 a23 a24 = (fun _ => 1#1)) :
    AllReal a0 ∧ AllReal a1 ∧ AllReal a11 ∧ AllReal a12 ∧ AllReal a13 ∧ AllReal a20 ∧ AllReal a21 ∧ AllReal a22 := by
  have h0 := congrFun h ValueIdx.ix0
  dsimp only [fn, fn_part1, fn_part2, fn_part3, fn_part4, fn_part5] at h0
  -- the twenty conjuncts, joined from the left, come off from the outside in: the last argument first
  obtain ⟨h0, p24⟩ := andi_split _ _ h0
  obtain ⟨h0, p23⟩ := andi_split _ _ h0
  obtain ⟨h0, p22⟩ := andi_split _ _ h0
  obtain ⟨h0, p21⟩ := andi_split _ _ h0
  obtain ⟨h0, p20⟩ := andi_split _ _ h0
  obtain ⟨h0, p19⟩ := andi_split _ _ h0
  obtain ⟨h0, p18⟩ := andi_split _ _ h0
  obtain ⟨h0, p17⟩ := andi_split _ _ h0
  obtain ⟨h0, p16⟩ := andi_split _ _ h0
  obtain ⟨h0, p15⟩ := andi_split _ _ h0
  obtain ⟨h0, p14⟩ := andi_split _ _ h0
  obtain ⟨h0, p13⟩ := andi_split _ _ h0
  obtain ⟨h0, p12⟩ := andi_split _ _ h0
  obtain ⟨h0, p11⟩ := andi_split _ _ h0
  obtain ⟨h0, p10⟩ := andi_split _ _ h0
  obtain ⟨h0, p9⟩ := andi_split _ _ h0
  obtain ⟨h0, p8⟩ := andi_split _ _ h0
  obtain ⟨h0, p2⟩ := andi_split _ _ h0
  obtain ⟨p0, p1⟩ := andi_split _ _ h0
  exact ⟨allReal_of_conjunct a0 _ _ _ p0, allReal_of_conjunct a1 _ _ _ p1, allReal_of_conjunct a11 _ _ _ p11,
    allReal_of_conjunct a12 _ _ _ p12, allReal_of_conjunct a13 _ _ _ p13, allReal_of_conjunct a20 _ _ _ p20,
    allReal_of_conjunct a21 _ _ _ p21, allReal_of_conjunct a22 _ _ _ p22⟩

end Cert.Pre_finite_inputs.Hand

end
-- ==== Proof.Math.lean ====
/-
  The two spellings of the hidden layer are one function where every entry is a real number.

  On the extended reals multiplication does not distribute over addition at the infinities, so the law
  `x·(½(a+b)) + m·(½l) + n·(½p) + ½(u+v) = ½((m·l + u + x·a) + (n·p + v + x·b))` is proved where it holds: every
  feature, weight and bias entry is a real number by hypothesis, the half is the real number 1/2, a bin's sum is a finite
  sum of such entries or zeros and its count a finite sum of ones or zeros, and a mean is a real sum over a real
  divisor that is at least one. Both sides are then the same real number, by the ring laws of the reals under the
  contraction sums.
-/
import proofs.«400680_j71004399338031_3_alg».proof.Proof.Spec
import Idealize.ShloMosaic.PureOps.Ideal.Laws
import Idealize.ShloMosaic.Lib.IdealHost

noncomputable section

open scoped BigOperators

namespace Sage

open Idealize.ShloMosaic Idealize.ShloMosaic.ValueIdx

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem isReal_sum {ι : Type} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

/-- The float one and the float half are the real numbers 1 and 1/2. -/
theorem one_eq : one = ((1 : ℝ) : EReal) := by
  show Ideal.ofBits .f32 0x3F800000#32 = _
  rw [Ideal.ofBits_one_f32]; rfl

theorem half_eq : half = (((1 : ℝ) / 2 : ℝ) : EReal) := by
  show Ideal.ofBits .f32 0x3F000000#32 = _
  simp [Ideal.ofBits, Ideal.ieee, -EReal.coe_mul]; norm_num

/-- A bin's sum over a table of real entries is a real number. -/
theorem isReal_segSum {N B E K : Nat} (hN : 0 < N) (x : Arr2 N B) (hx : ∀ i, IsReal (x i)) (si di : Col E) (r : Fin K) (k : Fin B) :
    IsReal (segSum hN x si di r k) := by
  unfold segSum
  refine isReal_sum _ _ fun i => ?_
  split_ifs
  · exact hx _
  · exact isReal_zero

/-- A bin's count is a real number, and it is not negative. -/
theorem segCnt_real {E K : Nat} (di : Col E) (r : Fin K) : ∃ c : ℝ, 0 ≤ c ∧ segCnt di r = (c : EReal) := by
  unfold segCnt
  refine ⟨∑ i : Fin E, if (di (ix2 i (0 : Fin 1))).toInt = (r.val : Int) then (1 : ℝ) else 0, ?_, ?_⟩
  · exact Finset.sum_nonneg fun i _ => by split_ifs <;> norm_num
  · rw [coe_sum]
    refine Finset.sum_congr rfl fun i _ => ?_
    split_ifs
    · exact one_eq
    · rfl

/-- The mean of a real sum over a real, non-negative count is a real number. -/
theorem isReal_meanOf {s c : EReal} (hs : IsReal s) (hc : ∃ r : ℝ, 0 ≤ r ∧ c = (r : EReal)) : IsReal (meanOf s c) := by
  obtain ⟨a, rfl⟩ := hs
  obtain ⟨b, hb, rfl⟩ := hc
  unfold meanOf
  rw [one_eq]
  have hmax : max ((b : ℝ) : EReal) ((1 : ℝ) : EReal) = ((max b 1 : ℝ) : EReal) := by
    rcases le_total b 1 with h | h
    · rw [max_eq_right h, max_eq_right (EReal.coe_le_coe_iff.mpr h)]
    · rw [max_eq_left h, max_eq_left (EReal.coe_le_coe_iff.mpr h)]
  rw [hmax, Ideal.div_coe (ne_of_gt (lt_of_lt_of_le one_pos (le_max_right b 1)))]
  exact ⟨a * (1 / max b 1), (EReal.coe_mul _ _).symm⟩

/-- THE LAW: on real rows, weights and biases the two spellings of the hidden layer agree. -/
theorem hid_eq (xp m2 m5 : Fin 32 → EReal) (Wr2 Wr5 Wl2 Wl5 : Arr2 32 64) (b2 b5 : Arr1 64) (j : Fin 64)
    (hxp : ∀ k, IsReal (xp k)) (hm2 : ∀ k, IsReal (m2 k)) (hm5 : ∀ k, IsReal (m5 k))
    (hWr2 : ∀ i, IsReal (Wr2 i)) (hWr5 : ∀ i, IsReal (Wr5 i)) (hWl2 : ∀ i, IsReal (Wl2 i)) (hWl5 : ∀ i, IsReal (Wl5 i))
    (hb2 : ∀ i, IsReal (b2 i)) (hb5 : ∀ i, IsReal (b5 i)) :
    hidK xp m2 m5 Wr2 Wr5 Wl2 Wl5 b2 b5 j = hidR xp m2 m5 Wr2 Wr5 Wl2 Wl5 b2 b5 j := by
  choose x hx using hxp
  choose p hp using hm2
  choose q hq using hm5
  choose a ha using hWr2
  choose b hb using hWr5
  choose l hl using hWl2
  choose n hn using hWl5
  choose u hu using hb2
  choose v hv using hb5
  have hK : hidK xp m2 m5 Wr2 Wr5 Wl2 Wl5 b2 b5 j
      = (((((∑ k : Fin 32, x k * ((1 / 2 : ℝ) * (a (ix2 k j) + b (ix2 k j)))
            + ∑ k : Fin 32, p k * ((1 / 2 : ℝ) * l (ix2 k j)))
          + ∑ k : Fin 32, q k * ((1 / 2 : ℝ) * n (ix2 k j)))
        + (1 / 2 : ℝ) * (u (ix1 j) + v (ix1 j)) : ℝ)) : EReal) := by
    unfold hidK
    simp only [hx, hp, hq, ha, hb, hl, hn, hu, hv, half_eq]
    simp only [EReal.coe_add, EReal.coe_mul, coe_sum]
  have hR : hidR xp m2 m5 Wr2 Wr5 Wl2 Wl5 b2 b5 j
      = ((((1 / 2 : ℝ) * (((∑ k : Fin 32, p k * l (ix2 k j) + u (ix1 j)) + ∑ k : Fin 32, x k * a (ix2 k j))
          + ((∑ k : Fin 32, q k * n (ix2 k j) + v (ix1 j)) + ∑ k : Fin 32, x k * b (ix2 k j))) : ℝ)) : EReal) := by
    unfold hidR
    simp only [hx, hp, hq, ha, hb, hl, hn, hu, hv, half_eq]
    simp only [EReal.coe_add, EReal.coe_mul, coe_sum]
  rw [hK, hR]
  refine congrArg _ ?_
  have e1 : ∑ k : Fin 32, x k * ((1 / 2 : ℝ) * (a (ix2 k j) + b (ix2 k j)))
      = (1 / 2 : ℝ) * (∑ k : Fin 32, x k * a (ix2 k j) + ∑ k : Fin 32, x k * b (ix2 k j)) := by
    rw [← Finset.sum_add_distrib, Finset.mul_sum]
    exact Finset.sum_congr rfl fun k _ => by ring
  have e2 : ∑ k : Fin 32, p k * ((1 / 2 : ℝ) * l (ix2 k j)) = (1 / 2 : ℝ) * ∑ k : Fin 32, p k * l (ix2 k j) := by
    rw [Finset.mul_sum]
    exact Finset.sum_congr rfl fun k _ => by ring
  have e3 : ∑ k : Fin 32, q k * ((1 / 2 : ℝ) * n (ix2 k j)) = (1 / 2 : ℝ) * ∑ k : Fin 32, q k * n (ix2 k j) := by
    rw [Finset.mul_sum]
    exact Finset.sum_congr rfl fun k _ => by ring
  rw [e1, e2, e3]
  ring

/-- THE WHOLE RESULT: over real product and demographic features, weights and biases, the result spelt with the half
    folded into the weights is the result spelt with the half applied last. -/
theorem res_eq (xp : Arr2 200000 32) (xd : Arr2 100000 32) (si4 di4 : Col 2000000) (si7 di7 : Col 200000)
    (Wl2 Wr2 Wl5 Wr5 : Arr2 32 64) (b2 b5 : Arr1 64) (Wout : Arr2 64 8) (bout : Arr1 8)
    (hxp : ∀ i, IsReal (xp i)) (hxd : ∀ i, IsReal (xd i))
    (hWl2 : ∀ i, IsReal (Wl2 i)) (hWr2 : ∀ i, IsReal (Wr2 i)) (hWl5 : ∀ i, IsReal (Wl5 i)) (hWr5 : ∀ i, IsReal (Wr5 i))
    (hb2 : ∀ i, IsReal (b2 i)) (hb5 : ∀ i, IsReal (b5 i)) :
    resK xp xd si4 di4 si7 di7 Wl2 Wr2 Wl5 Wr5 b2 b5 Wout bout = resR xp xd si4 di4 si7 di7 Wl2 Wr2 Wl5 Wr5 b2 b5 Wout bout := by
  funext i
  unfold resK resR
  refine congrArg (fun h => outOf h Wout bout (i 1)) (funext fun j => ?_)
  refine hid_eq _ _ _ _ _ _ _ _ _ j (fun k => hxp _) (fun k => ?_) (fun k => ?_) hWr2 hWr5 hWl2 hWl5 hb2 hb5
  · exact isReal_meanOf (isReal_segSum _ xd hxd si4 di4 (i 0) k) (segCnt_real di4 (i 0))
  · exact isReal_meanOf (isReal_segSum _ xp hxp si7 di7 (i 0) k) (segCnt_real di7 (i 0))

end Sage

end
-- ==== Proof.lean ====
/-
  The certificate of the fused mean-aggregation layer against its reference.

  Both programs compute, for every product node, the mean of its demographic neighbours' features and the mean of its
  product neighbours' features (a gather of source rows and a scatter-add into destination bins, with the bin counts),
  two linear layers on those means and on the node's own features, their average, a leaky rectifier and an output
  projection. The kernel appends a ones column to each source table so that one scatter carries sum and count, folds the
  averaging half into the weights and biases before the products, and runs the rest fused over row blocks of 4000.

  The frames of the two kernel programs are the generated frame certificates. The reference's run is read operation by operation (`RefRun`), its result term
  index by index (`RefValue`); the kernel's result array is one whole-array function of the arrays its region finds
  (`KerFinal`), those arrays are the host terms of the arguments (`KerHost`), read index by index in `KerValue`. The two
  sides meet in the specification `Sage.resK` / `Sage.resR`, which agree where every float input is a real number
  (`Math`); that every float input is real is what the precondition says (`Finite`).
-/
import proofs.«400680_j71004399338031_3_alg».proof.Defs
import proofs.«400680_j71004399338031_3_alg».proof.Proof.Gen.Kernel
import proofs.«400680_j71004399338031_3_alg».proof.Proof.Gen.KernelIdeal
import proofs.«400680_j71004399338031_3_alg».proof.Proof.Gen.ReferenceIdeal
import proofs.«400680_j71004399338031_3_alg».proof.Proof.Gen.Pre_finite_inputs
import proofs.«400680_j71004399338031_3_alg».proof.Proof.KernelFrameP
import proofs.«400680_j71004399338031_3_alg».proof.Proof.KernelIdealFrameP
import proofs.«400680_j71004399338031_3_alg».proof.Proof.KerFinal
import proofs.«400680_j71004399338031_3_alg».proof.Proof.KerHost
import proofs.«400680_j71004399338031_3_alg».proof.Proof.KerValue
import proofs.«400680_j71004399338031_3_alg».proof.Proof.RefRun
import proofs.«400680_j71004399338031_3_alg».proof.Proof.RefValue
import proofs.«400680_j71004399338031_3_alg».proof.Proof.Finite
import proofs.«400680_j71004399338031_3_alg».proof.Proof.Math
import Idealize.ShloMosaic.Adequacy
import Idealize.ShloMosaic.Init

noncomputable section

namespace Cert.Proof

open Idealize.ShloMosaic Idealize.SL.Sem

/-- The word-level kernel runs and leaves its arguments as they were: the generated frame certificate. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- From memories that agree on the arguments, both programs end with the array `Sage.resK` of the arguments: the
    kernel by its whole-array function at its host terms, the reference by its result term read as `Sage.resR`, and the
    two specifications agree because the precondition makes every float input real. -/
theorem algebraic : Cert.algebraic_KernelIdeal_ReferenceIdeal := by
  intro m ρ m' ρ' hpre hagree
  refine ⟨fun c => Sage.resK (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (Sage.srcCol 100000#32 (m ((c.tc : Thread Cert.KernelIdeal.nD Cert.KernelIdeal.τ).loc Cert.KernelIdeal.main_arg4))) (Sage.dstCol (m ((c.tc : Thread Cert.KernelIdeal.nD Cert.KernelIdeal.τ).loc Cert.KernelIdeal.main_arg4)))
      (Sage.srcCol 200000#32 (m ((c.tc : Thread Cert.KernelIdeal.nD Cert.KernelIdeal.τ).loc Cert.KernelIdeal.main_arg7))) (Sage.dstCol (m ((c.tc : Thread Cert.KernelIdeal.nD Cert.KernelIdeal.τ).loc Cert.KernelIdeal.main_arg7)))
      (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg20)) (m ((c.tc : Thread Cert.KernelIdeal.nD Cert.KernelIdeal.τ).loc Cert.KernelIdeal.main_arg22))
      (m ((c.tc : Thread Cert.KernelIdeal.nD Cert.KernelIdeal.τ).loc Cert.KernelIdeal.main_arg12)) (m ((c.tc : Thread Cert.KernelIdeal.nD Cert.KernelIdeal.τ).loc Cert.KernelIdeal.main_arg21)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · refine (θ_run Cert.KernelIdeal.defs _ _).mono (fun r h c => ⟨(h c).1.trans ?_, (h c).2⟩)
      (Cert.KernelIdeal.Hand.run_final m ρ)
    rw [Cert.KernelIdeal.Gen.V_main_arg0, Cert.KernelIdeal.Hand.V_v16, Cert.KernelIdeal.Hand.V_v34, Cert.KernelIdeal.Hand.V_v36,
      Cert.KernelIdeal.Hand.V_v39, Cert.KernelIdeal.Hand.V_v41, Cert.KernelIdeal.Hand.V_v43, Cert.KernelIdeal.Hand.V_v47,
      Cert.KernelIdeal.Gen.V_main_arg23, Cert.KernelIdeal.Hand.V_v48]
    exact Cert.KernelIdeal.Hand.kerG_eq _ _ _ _ _ _ _ _ _ _ _ _
  · refine (θ_run Cert.ReferenceIdeal.defs _ _).mono (fun r h c => ⟨(h c).1.trans ?_, (h c).2⟩)
      (Cert.ReferenceIdeal.Hand.run (F := Ideal) m' ρ')
    obtain ⟨e0, e1, _, _, e4, _, _, e7, _, _, _, e11, e12, e13, _, _, _, _, _, _, e20, e21, e22, e23, e24⟩ := hagree c
    rw [e0, e1, e4, e7, e11, e12, e13, e20, e21, e22, e23, e24, Cert.ReferenceIdeal.Hand.refOut_eq]
    obtain ⟨h0, h1, h11, h12, h13, h20, h21, h22⟩ := Cert.Pre_finite_inputs.Hand.allReal_of_pre _ _ _ _ _ _ _ _ _ _ _ _ _ _ _ _ _ _ _ _ _ _ _ _ _ (hpre c)
    exact (Sage.res_eq _ _ _ _ _ _ _ _ _ _ _ _ _ _ h0 h1 h11 h13 h20 h22 h12 h21).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
